-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S500000x128 .f32) (main_arg1 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_c_0 : IVec S_ 32 := constantI S_ 32 0#32
  let main_v4 : IVec S500000 32 := broadcastInDim S500000 ![] bcast_S_S500000 main_c_0
  let main_v5 : IVec S500000 1 := cmpi .sge main_arg1 main_v4
  let main_c_1 : IVec S_ 32 := constantI S_ 32 16#32
  let main_v6 : IVec S500000 32 := broadcastInDim S500000 ![] bcast_S_S500000 main_c_1
  let main_v7 : IVec S500000 1 := cmpi .slt main_arg1 main_v6
  let main_v8 : IVec S500000 1 := andi main_v5 main_v7
  let main_c_2 : IVec S_ 1 := constantI S_ 1 1#1
  let main_v9 : IVec S_ 1 := (fun x v => Host.reduce IntOp.andi x v reducesTo_S500000_S_d0 h_S_) main_v8 main_c_2
  let main_v10 : IVec S_ 1 := andi main_v3 main_v9
  main_v10
-- ==== Kernel.lean ====
abbrev S500000x128 : Shape := ⟨2, ![500000, 128]⟩
abbrev S500000 : Shape := ⟨1, ![500000]⟩
abbrev S_ : Shape := ⟨0, ![]⟩
abbrev S1760x128 : Shape := ⟨2, ![1760, 128]⟩
abbrev S1760 : Shape := ⟨1, ![1760]⟩
abbrev S501760x128 : Shape := ⟨2, ![501760, 128]⟩
abbrev S501760 : Shape := ⟨1, ![501760]⟩
abbrev S501760x1 : Shape := ⟨2, ![501760, 1]⟩
abbrev S2x16x128 : Shape := ⟨3, ![2, 16, 128]⟩
abbrev S2x16x2 : Shape := ⟨3, ![2, 16, 2]⟩
abbrev S5120x128 : Shape := ⟨2, ![5120, 128]⟩
abbrev S5120x1 : Shape := ⟨2, ![5120, 1]⟩
abbrev S1x16x128 : Shape := ⟨3, ![1, 16, 128]⟩
abbrev S1x16x2 : Shape := ⟨3, ![1, 16, 2]⟩
abbrev S5120 : Shape := ⟨1, ![5120]⟩
abbrev S5120x16 : Shape := ⟨2, ![5120, 16]⟩
abbrev S5120x2 : Shape := ⟨2, ![5120, 2]⟩
abbrev S16x128 : Shape := ⟨2, ![16, 128]⟩
abbrev S16x2 : Shape := ⟨2, ![16, 2]⟩
abbrev S2x16x1 : Shape := ⟨3, ![2, 16, 1]⟩
abbrev S2x16 : Shape := ⟨2, ![2, 16]⟩
abbrev S16 : Shape := ⟨1, ![16]⟩
abbrev S16x1 : Shape := ⟨2, ![16, 1]⟩
abbrev S14x128 : Shape := ⟨2, ![14, 128]⟩
abbrev S14 : Shape := ⟨1, ![14]⟩

abbrev nBuf : Space → Nat
  | .hbm => 80
  | .vmem => 8
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S_, .f32⟩
  | .hbm, ⟨3, _⟩ => ⟨S1760x128, .f32⟩
  | .hbm, ⟨4, _⟩ => ⟨S_, .i32⟩
  | .hbm, ⟨5, _⟩ => ⟨S1760, .i32⟩
  | .hbm, ⟨6, _⟩ => ⟨S501760x128, .f32⟩
  | .hbm, ⟨7, _⟩ => ⟨S501760, .i32⟩
  | .hbm, ⟨8, _⟩ => ⟨S501760x1, .i32⟩
  | .hbm, ⟨9, _⟩ => ⟨S2x16x128, .f32⟩
  | .hbm, ⟨10, _⟩ => ⟨S2x16x2, .f32⟩
  | .hbm, ⟨11, _⟩ => ⟨S_, .f32⟩
  | .hbm, ⟨12, _⟩ => ⟨S16x128, .f32⟩
  | .hbm, ⟨13, _⟩ => ⟨S2x16x1, .f32⟩
  | .hbm, ⟨14, _⟩ => ⟨S2x16, .f32⟩
  | .hbm, ⟨15, _⟩ => ⟨S_, .f32⟩
  | .hbm, ⟨16, _⟩ => ⟨S16, .f32⟩
  | .hbm, ⟨17, _⟩ => ⟨S2x16x1, .f32⟩
  | .hbm, ⟨18, _⟩ => ⟨S2x16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .i1⟩
  | .hbm, ⟨24, _⟩ => ⟨S16, .i32⟩
  | .hbm, ⟨25, _⟩ => ⟨S_, .i32⟩
  | .hbm, ⟨26, _⟩ => ⟨S_, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S16, .f32⟩
  | .hbm, ⟨36, _⟩ => ⟨S16x1, .i32⟩
  | .hbm, ⟨37, _⟩ => ⟨S16, .f32⟩
  | .hbm, ⟨38, _⟩ => ⟨S_, .f32⟩
  | .hbm, ⟨39, _⟩ => ⟨S16x128, .f32⟩
  | .hbm, ⟨40, _⟩ => ⟨S16x1, .i32⟩
  | .hbm, ⟨41, _⟩ => ⟨S16x128, .f32⟩
  | .hbm, ⟨42, _⟩ => ⟨S_, .f32⟩
  | .hbm, ⟨43, _⟩ => ⟨S16, .f32⟩
  | .hbm, ⟨44, _⟩ => ⟨S16x1, .i32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16x1, .f32⟩
  | .hbm, ⟨50, _⟩ => ⟨S16x128, .f32⟩
  | .hbm, ⟨51, _⟩ => ⟨S16x128, .f32⟩
  | .hbm, ⟨52, _⟩ => ⟨S16, .f32⟩
  | .hbm, ⟨53, _⟩ => ⟨S14x128, .f32⟩
  | .hbm, ⟨54, _⟩ => ⟨S14x128, .f32⟩
  | .hbm, ⟨55, _⟩ => ⟨S14x128, .f32⟩
  | .hbm, ⟨56, _⟩ => ⟨S14x128, .f32⟩
  | .hbm, ⟨57, _⟩ => ⟨S14x128, .f32⟩
  | .hbm, ⟨58, _⟩ => ⟨S14x128, .f32⟩
  | .hbm, ⟨59, _⟩ => ⟨S14x128, .f32⟩
  | .hbm, ⟨60, _⟩ => ⟨S_, .f32⟩
  | .hbm, ⟨61, _⟩ => ⟨S14, .f32⟩
  | .hbm, ⟨62, _⟩ => ⟨S14, .f32⟩
  | .hbm, ⟨63, _⟩ => ⟨S14, .f32⟩
  | .hbm, ⟨64, _⟩ => ⟨S14, .i32⟩
  | .hbm, ⟨65, _⟩ => ⟨S_, .i32⟩
  | .hbm, ⟨66, _⟩ => ⟨S14, .i32⟩
  | .hbm, ⟨67, _⟩ => ⟨S14, .i32⟩
  | .hbm, ⟨68, _⟩ => ⟨S14, .i32⟩
  | .hbm, ⟨69, _⟩ => ⟨S14, .i1⟩
  | .hbm, ⟨70, _⟩ => ⟨S_, .f32⟩
  | .hbm, ⟨71, _⟩ => ⟨S_, .f32⟩
  | .hbm, ⟨72, _⟩ => ⟨S14, .f32⟩
  | .hbm, ⟨73, _⟩ => ⟨S14, .f32⟩
  | .hbm, ⟨74, _⟩ => ⟨S_, .f32⟩
  | .hbm, ⟨75, _⟩ => ⟨S_, .f32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .local _ .vmem, ⟨0, _⟩ => ⟨S5120x128, .f32⟩
  | .local _ .vmem, ⟨1, _⟩ => ⟨S5120x128, .f32⟩
  | .local _ .vmem, ⟨2, _⟩ => ⟨S5120x1, .i32⟩
  | .local _ .vmem, ⟨3, _⟩ => ⟨S5120x1, .i32⟩
  | .local _ .vmem, ⟨4, _⟩ => ⟨S1x16x128, .f32⟩
  | .local _ .vmem, ⟨5, _⟩ => ⟨S1x16x128, .f32⟩
  | .local _ .vmem, ⟨6, _⟩ => ⟨S1x16x2, .f32⟩
  | .local _ .vmem, ⟨7, _⟩ => ⟨S1x16x2, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_call0_c : Ref sig .tc := ⟨.hbm, 25, rfl⟩
abbrev main_call0_call0_v0 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 49], ![false, false]⟩

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5120x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1760x128 : S_.BroadcastsInDim S1760x128 (![] : Fin 0 → Fin S1760x128.rank)
  bcast_S_S1760 : S_.BroadcastsInDim S1760 (![] : Fin 0 → Fin S1760.rank)
  concatenates_S500000x128_S1760x128_S501760x128_d0 : Shape.Concatenates [S500000x128, S1760x128] S501760x128 0
  concatenates_S500000_S1760_S501760_d0 : Shape.Concatenates [S500000, S1760] S501760 0
  shapeCasts_S501760_S501760x1 : S501760.ShapeCasts S501760x1
  inb_S1x16x128_S1x16x128_0_0_0 : ∀ a, (![0, 0, 0] : Fin 3 → Nat) a + S1x16x128.size a ≤ S1x16x128.size a
  h_S1x16x128 : 0 < S1x16x128.numel
  inb_S1x16x2_S1x16x2_0_0_0 : ∀ a, (![0, 0, 0] : Fin 3 → Nat) a + S1x16x2.size a ≤ S1x16x2.size a
  h_S1x16x2 : 0 < S1x16x2.numel
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  reduces_S5120x128_S5120 : S5120x128.Reduces [1] S5120
  shapeCasts_S5120_S5120x1 : S5120.ShapeCasts S5120x1
  broadcasts_S5120x1_S5120x128 : S5120x1.Broadcasts S5120x128
  inb_S5120x1_S5120x1_0_0 : ∀ a, (![0, 0] : Fin 2 → Nat) a + S5120x1.size a ≤ S5120x1.size a
  h_S5120x1 : 0 < S5120x1.numel
  shapeCasts_S5120x1_S5120x1 : S5120x1.ShapeCasts S5120x1
  iota_S5120x16_d1_w32 : S5120x16.Iotas .tc 32 [1]
  broadcasts_S5120x1_S5120x16 : S5120x1.Broadcasts S5120x16
  natLt_1_32 : 1 < 32
  concatenates_S5120x1_S5120x1_S5120x2_d1 : Shape.Concatenates [S5120x1, S5120x1] S5120x2 1
  shapeCasts_S1x16x128_S1x16x128 : S1x16x128.ShapeCasts S1x16x128
  shapeCasts_S16x128_S1x16x128 : S16x128.ShapeCasts S1x16x128
  shapeCasts_S1x16x2_S1x16x2 : S1x16x2.ShapeCasts S1x16x2
  shapeCasts_S16x2_S1x16x2 : S16x2.ShapeCasts S1x16x2
  reducesTo_S2x16x128_S16x128_d0 : S2x16x128.ReducesTo [0] S16x128
  h_S_ : 0 < S_.numel
  slices_S2x16x2_S2x16x1_0_0_0 : S2x16x2.Slices ![0, 0, 0] S2x16x1
  shapeCasts_S2x16x1_S2x16 : S2x16x1.ShapeCasts S2x16
  reducesTo_S2x16_S16_d0 : S2x16.ReducesTo [0] S16
  slices_S2x16x2_S2x16x1_0_0_1 : S2x16x2.Slices ![0, 0, 1] S2x16x1
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  reducesTo_S16_S_d0 : S16.ReducesTo [0] S_
  bcast_S16_S16x1_0 : S16.BroadcastsInDim S16x1 (![0] : Fin 1 → Fin S16x1.rank)
  bcast_S_S16x128 : S_.BroadcastsInDim S16x128 (![] : Fin 0 → Fin S16x128.rank)
  bcast_S16x1_S16x128_0_1 : S16x1.BroadcastsInDim S16x128 (![0, 1] : Fin 2 → Fin S16x128.rank)
  slices_S16x128_S14x128_0_0 : S16x128.Slices ![0, 0] S14x128
  slices_S16x128_S14x128_1_0 : S16x128.Slices ![1, 0] S14x128
  slices_S16x128_S14x128_2_0 : S16x128.Slices ![2, 0] S14x128
  reducesTo_S14x128_S14_d1 : S14x128.ReducesTo [1] S14
  slices_S16_S14_1 : S16.Slices ![1] S14
  bcast_S_S14 : S_.BroadcastsInDim S14 (![] : Fin 0 → Fin S14.rank)
  reducesTo_S14_S_d0 : S14.ReducesTo [0] S_
  dot_S5120x16_S5120x128_S16x128_0_0_1_1_n_n_wf : DotDims.WF S5120x16 S5120x128 S16x128 [0] [0] [1] [1] [] []
  dot_S5120x16_S5120x2_S16x2_0_0_1_1_n_n_wf : DotDims.WF S5120x16 S5120x2 S16x2 [0] [0] [1] [1] [] []
  scatter_S16_S16x1_S16_n_0_0_1_wf : ScatterDims.WF S16 S16x1 S16 [] [0] [0] 1
  scatter_S16x128_S16x1_S16x128_1_0_0_1_wf : ScatterDims.WF S16x128 S16x1 S16x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S501760x128.size a
  hwx0_0 : ∀ i : grid0.Coords, EltTy.bits .f32 = 32 ∨ (Rect.block (s := S501760x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x1.size a ≤ S501760x1.size a
  hwx0_1 : ∀ i : grid0.Coords, EltTy.bits .i32 = 32 ∨ (Rect.block (s := S501760x1) S5120x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2.size a ≤ S2x16x2.size a
  hwx0_3 : ∀ i : grid0.Coords, EltTy.bits .f32 = 32 ∨ (Rect.block (s := S2x16x2) S1x16x2.size (cc0_transform_3 i) (hinb0_3 i)).WholeWords (EltTy.packing .f32)

variable [Facts₀]

def dot_S5120x16_S5120x128_S16x128_0_0_1_1_n_n : DotDims S5120x16 S5120x128 S16x128 where
  lhsContracting := [0]
  rhsContracting := [0]
  lhsNonContracting := [1]
  rhsNonContracting := [1]
  lhsBatch := []
  rhsBatch := []
  wf := dot_S5120x16_S5120x128_S16x128_0_0_1_1_n_n_wf
def dot_S5120x16_S5120x2_S16x2_0_0_1_1_n_n : DotDims S5120x16 S5120x2 S16x2 where
  lhsContracting := [0]
  rhsContracting := [0]
  lhsNonContracting := [1]
  rhsNonContracting := [1]
  lhsBatch := []
  rhsBatch := []
  wf := dot_S5120x16_S5120x2_S16x2_0_0_1_1_n_n_wf
def scatter_S16_S16x1_S16_n_0_0_1 : ScatterDims S16 S16x1 S16 where
  updateWindowDims := []
  insertedWindowDims := [0]
  scatterDimsToOperandDims := [0]
  indexVectorDim := 1
  wf := scatter_S16_S16x1_S16_n_0_0_1_wf
def scatter_S16x128_S16x1_S16x128_1_0_0_1 : ScatterDims S16x128 S16x1 S16x128 where
  updateWindowDims := [1]
  insertedWindowDims := [0]
  scatterDimsToOperandDims := [0]
  indexVectorDim := 1
  wf := scatter_S16x128_S16x1_S16x128_1_0_0_1_wf

abbrev win0_0 : Pipeline.Window sig grid0 :=
  Pipeline.Window.ofSpec (Memref.whole main_v2) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5120x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x16x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000 : Shape := ⟨1, ![500000]⟩
abbrev S_ : Shape := ⟨0, ![]⟩
abbrev S500000x1 : Shape := ⟨2, ![500000, 1]⟩
abbrev S16 : Shape := ⟨1, ![16]⟩
abbrev S16x128 : Shape := ⟨2, ![16, 128]⟩
abbrev S16x1 : Shape := ⟨2, ![16, 1]⟩
abbrev S14x128 : Shape := ⟨2, ![14, 128]⟩
abbrev S14 : Shape := ⟨1, ![14]⟩

abbrev nBuf : Space → Nat
  | .hbm => 89
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S500000x128, .f32⟩
  | .hbm, ⟨3, _⟩ => ⟨S_, .f32⟩
  | .hbm, ⟨4, _⟩ => ⟨S500000, .f32⟩
  | .hbm, ⟨5, _⟩ => ⟨S500000x1, .f32⟩
  | .hbm, ⟨6, _⟩ => ⟨S500000x1, .f32⟩
  | .hbm, ⟨7, _⟩ => ⟨S_, .f32⟩
  | .hbm, ⟨8, _⟩ => ⟨S500000x1, .f32⟩
  | .hbm, ⟨9, _⟩ => ⟨S500000x1, .f32⟩
  | .hbm, ⟨10, _⟩ => ⟨S500000x128, .f32⟩
  | .hbm, ⟨11, _⟩ => ⟨S500000x128, .f32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S16, .f32⟩
  | .hbm, ⟨16, _⟩ => ⟨S500000x1, .i32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .i1⟩
  | .hbm, ⟨21, _⟩ => ⟨S16, .i32⟩
  | .hbm, ⟨22, _⟩ => ⟨S_, .i32⟩
  | .hbm, ⟨23, _⟩ => ⟨S_, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000, .i32⟩
  | .hbm, ⟨37, _⟩ => ⟨S16, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S16, .f32⟩
  | .hbm, ⟨42, _⟩ => ⟨S500000x1, .i32⟩
  | .hbm, ⟨43, _⟩ => ⟨S16, .f32⟩
  | .hbm, ⟨44, _⟩ => ⟨S_, .f32⟩
  | .hbm, ⟨45, _⟩ => ⟨S16x128, .f32⟩
  | .hbm, ⟨46, _⟩ => ⟨S500000x1, .i32⟩
  | .hbm, ⟨47, _⟩ => ⟨S16x128, .f32⟩
  | .hbm, ⟨48, _⟩ => ⟨S500000x128, .f32⟩
  | .hbm, ⟨49, _⟩ => ⟨S_, .f32⟩
  | .hbm, ⟨50, _⟩ => ⟨S500000, .f32⟩
  | .hbm, ⟨51, _⟩ => ⟨S_, .f32⟩
  | .hbm, ⟨52, _⟩ => ⟨S16, .f32⟩
  | .hbm, ⟨53, _⟩ => ⟨S500000x1, .i32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16x1, .f32⟩
  | .hbm, ⟨59, _⟩ => ⟨S16x128, .f32⟩
  | .hbm, ⟨60, _⟩ => ⟨S16x128, .f32⟩
  | .hbm, ⟨61, _⟩ => ⟨S16, .f32⟩
  | .hbm, ⟨62, _⟩ => ⟨S14x128, .f32⟩
  | .hbm, ⟨63, _⟩ => ⟨S14x128, .f32⟩
  | .hbm, ⟨64, _⟩ => ⟨S14x128, .f32⟩
  | .hbm, ⟨65, _⟩ => ⟨S14x128, .f32⟩
  | .hbm, ⟨66, _⟩ => ⟨S14x128, .f32⟩
  | .hbm, ⟨67, _⟩ => ⟨S14x128, .f32⟩
  | .hbm, ⟨68, _⟩ => ⟨S14x128, .f32⟩
  | .hbm, ⟨69, _⟩ => ⟨S_, .f32⟩
  | .hbm, ⟨70, _⟩ => ⟨S14, .f32⟩
  | .hbm, ⟨71, _⟩ => ⟨S14, .f32⟩
  | .hbm, ⟨72, _⟩ => ⟨S14, .f32⟩
  | .hbm, ⟨73, _⟩ => ⟨S14, .i32⟩
  | .hbm, ⟨74, _⟩ => ⟨S_, .i32⟩
  | .hbm, ⟨75, _⟩ => ⟨S14, .i32⟩
  | .hbm, ⟨76, _⟩ => ⟨S14, .i32⟩
  | .hbm, ⟨77, _⟩ => ⟨S14, .i32⟩
  | .hbm, ⟨78, _⟩ => ⟨S14, .i1⟩
  | .hbm, ⟨79, _⟩ => ⟨S_, .f32⟩
  | .hbm, ⟨80, _⟩ => ⟨S_, .f32⟩
  | .hbm, ⟨81, _⟩ => ⟨S14, .f32⟩
  | .hbm, ⟨82, _⟩ => ⟨S14, .f32⟩
  | .hbm, ⟨83, _⟩ => ⟨S_, .f32⟩
  | .hbm, ⟨84, _⟩ => ⟨S_, .f32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_c : Ref sig .tc := ⟨.hbm, 22, rfl⟩
abbrev main_call0_call0_v0 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_call1_v0 : Ref sig .tc := ⟨.hbm, 80, rfl⟩
abbrev main_call1_v1 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_c_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S500000 : S_.BroadcastsInDim S500000 (![] : Fin 0 → Fin S500000.rank)
  bcast_S_S16 : S_.BroadcastsInDim S16 (![] : Fin 0 → Fin S16.rank)
  natLt_1_32 : 1 < 32
  bcast_S_S_ : S_.BroadcastsInDim S_ (![] : Fin 0 → Fin S_.rank)
  reduceWindows_S16_S16_w16s1p15_0 : S16.ReduceWindows (![16] : Fin 1 → Nat) ![1] ![15] ![0] S16
  reducesTo_S16_S_d0 : S16.ReducesTo [0] S_
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  slices_S16x128_S14x128_0_0 : S16x128.Slices ![0, 0] S14x128
  slices_S16x128_S14x128_1_0 : S16x128.Slices ![1, 0] S14x128
  slices_S16x128_S14x128_2_0 : S16x128.Slices ![2, 0] S14x128
  reducesTo_S14x128_S14_d1 : S14x128.ReducesTo [1] S14
  slices_S16_S14_1 : S16.Slices ![1] S14
  bcast_S_S14 : S_.BroadcastsInDim S14 (![] : Fin 0 → Fin S14.rank)
  reducesTo_S14_S_d0 : S14.ReducesTo [0] S_
  scatter_S16_S500000x1_S500000_n_0_0_1_wf : ScatterDims.WF S16 S500000x1 S500000 [] [0] [0] 1
  gather_S16_S500000x1_S500000_n_0_n_n_0_1_1_wf : GatherDims.WF S16 S500000x1 S500000 [] [0] [] [0] [] 1 ![1]
  scatter_S16x128_S500000x1_S500000x128_1_0_0_1_wf : ScatterDims.WF S16x128 S500000x1 S500000x128 [1] [0] [0] 1

variable [Facts₀]

def scatter_S16_S500000x1_S500000_n_0_0_1 : ScatterDims S16 S500000x1 S500000 where
  updateWindowDims := []
  insertedWindowDims := [0]
  scatterDimsToOperandDims := [0]
  indexVectorDim := 1
  wf := scatter_S16_S500000x1_S500000_n_0_0_1_wf
def gather_S16_S500000x1_S500000_n_0_n_n_0_1_1 : GatherDims S16 S500000x1 S500000 where
  offsetDims := []
  collapsedSliceDims := [0]
  operandBatchingDims := []
  startIndicesBatchingDims := []
  startIndexMap := [0]
  indexVectorDim := 1
  sliceSizes := ![1]
  wf := gather_S16_S500000x1_S500000_n_0_n_n_0_1_1_wf
def scatter_S16x128_S500000x1_S500000x128_1_0_0_1 : ScatterDims S16x128 S500000x1 S500000x128 where
  updateWindowDims := [1]
  insertedWindowDims := [0]
  scatterDimsToOperandDims := [0]
  indexVectorDim := 1
  wf := scatter_S16x128_S500000x1_S500000x128_1_0_0_1_wf

class Facts : Prop extends Facts₀ where

variable [Facts]
-- ==== Proof.PreFacts.lean ====
/-
  What the precondition says of the two inputs, read back from its printed form.

  The precondition is the conjunction of two "for all" statements, each printed as a reduction by "and" of an
  array of bits from the constant 1:  every |x| is below +∞,  and every score s satisfies 0 ≤ s and s < 16, both
  compared signed. A reduction by "and" that came out 1 met only 1s, so each bit is 1; the bit of the first array at
  an entry says max(x, −x) < +∞ on the extended reals, which excludes both infinities, so the entry is a real; the
  bit of the second array at a row is the "and" of the two signed comparisons against the constants 0 and 16.
-/
import proofs.«421733_j6923487282636_2_alg».proof.Proof.Gen.Pre_finite_inputs
import Idealize.ShloMosaic.PureOps
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx
open Cert.Pre_finite_inputs Cert.Pre_finite_inputs.Gen

/-- The rank-0 shape has one index. -/
instance : Subsingleton Cert.Pre_finite_inputs.S_.Idx := ⟨fun a b => funext fun d => d.elim0⟩

/-- The two conjuncts of the precondition, each as a statement about every element. -/
theorem split_pre (x : FVec Ideal Cert.Pre_finite_inputs.S500000x128 .f32) (s : IVec Cert.Pre_finite_inputs.S500000 32)
    (h : Cert.Pre_finite_inputs.fn (F := Ideal) x s = fun _ => 1#1) :
    (∀ i, FloatOps.cmpf (F := Ideal) .olt (FloatOps.hostAbsf (x i)) (FloatOps.ofBits .f32 0x7F800000#32) = 1#1) ∧
    (∀ j, IntOp.andi (IntOp.cmpi .sge (s j) 0#32) (IntOp.cmpi .slt (s j) 16#32) = 1#1) := by
  have e := congrFun h ValueIdx.ix0
  dsimp only [Cert.Pre_finite_inputs.fn] at e
  obtain ⟨e1, e2⟩ := IntOp.andi_eq_one.1 e
  refine ⟨fun i => ?_, fun j => ?_⟩
  · exact Host.reduce_andi_all _ _ _ _ _ e1 i
  · exact Host.reduce_andi_all _ _ _ _ _ e2 j

/-- The f32 word with all exponent bits set and no others denotes +∞. -/
theorem inf_word : (FloatOps.ofBits (F := Ideal) .f32 0x7F800000#32 : EReal) = ⊤ := by
  show Ideal.ofBits .f32 0x7F800000#32 = ⊤
  simp [Ideal.ofBits, Ideal.ieee]

/-- An extended real whose absolute value max(a, −a) is below +∞ is a real. -/
theorem real_of_abs_lt_top (a : EReal) (h : Ideal.cmp .olt (max a (-a)) ⊤ = 1#1) : ∃ r : ℝ, a = (r : EReal) := by
  induction a using EReal.rec with
  | bot => exact absurd h (by simp [Ideal.cmp])
  | top => exact absurd h (by simp [Ideal.cmp])
  | coe r => exact ⟨r, rfl⟩

/-- Every entry of the feature array is a real number. -/
theorem finite_of_pre (x : FVec Ideal Cert.Pre_finite_inputs.S500000x128 .f32) (s : IVec Cert.Pre_finite_inputs.S500000 32)
    (h : Cert.Pre_finite_inputs.fn (F := Ideal) x s = fun _ => 1#1) : ∀ i, ∃ r : ℝ, x i = (r : EReal) := by
  intro i
  have e := (split_pre x s h).1 i
  rw [inf_word] at e
  exact real_of_abs_lt_top (x i) e

/-- Every score lies in 0..15, read signed. -/
theorem range_of_pre (x : FVec Ideal Cert.Pre_finite_inputs.S500000x128 .f32) (s : IVec Cert.Pre_finite_inputs.S500000 32)
    (h : Cert.Pre_finite_inputs.fn (F := Ideal) x s = fun _ => 1#1) :
    ∀ e : Fin 500000, 0 ≤ (s (Idealize.ShloMosaic.ValueIdx.ix1 e)).toInt ∧ (s (Idealize.ShloMosaic.ValueIdx.ix1 e)).toInt < 16 := by
  intro e
  obtain ⟨h0, h16⟩ := IntOp.andi_eq_one.1 ((split_pre x s h).2 (ValueIdx.ix1 e))
  have a := IntOp.cmpi_sge.1 h0
  have b := IntOp.cmpi_slt.1 h16
  have z : (0#32 : BitVec 32).toInt = 0 := by decide
  have t : (16#32 : BitVec 32).toInt = 16 := by decide
  rw [z] at a
  rw [t] at b
  exact ⟨a, b⟩

end Cert.PreFacts

end
-- ==== Proof.K.Runs.lean ====
import proofs.«421733_j6923487282636_2_alg».proof.Proof.Gen.Kernel.Launch
import proofs.«421733_j6923487282636_2_alg».proof.Proof.Gen.Kernel.Skeleton
import proofs.«421733_j6923487282636_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host
    operations before the region (the two inputs padded with zero rows and rows of score −1). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The later host operations, stretch by stretch. -/
abbrev tail : List (List (HloOp τ sig (Elt F))) := [hostOps1, hostOps1_1, hostOps1_2, hostOps1_3, hostOps1_4]

/-- The buffers no host operation after the region may write: the two arguments and the four arrays
    of the pipeline. -/
abbrev kept : List (Ref sig .tc) := [main_arg0, main_arg1, main_v2, main_v4, main_v5_0, main_v5_1]

/-! ### No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ### Each later operation writes its own result buffer only, which is none of the kept ones -/

theorem hostOps1_keeps : (hostOps1 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_1_keeps : (hostOps1_1 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_2_keeps : (hostOps1_2 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_3_keeps : (hostOps1_3 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_4_keeps : (hostOps1_4 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))

/-- Stretch by stretch, as one fact over the list of stretches. -/
theorem tail_cases {p : List (HloOp τ sig (Elt F)) → Prop} (h1 : p hostOps1) (h2 : p hostOps1_1) (h3 : p hostOps1_2)
    (h4 : p hostOps1_3) (h5 : p hostOps1_4) : ∀ ops ∈ (tail : List (List (HloOp τ sig (Elt F)))), p ops := by
  intro ops hops
  simp only [List.mem_cons, List.mem_nil_iff, or_false] at hops
  rcases hops with rfl | rfl | rfl | rfl | rfl <;> assumption

/-- No later operation writes a kept buffer. -/
theorem tail_keeps : ∀ ops ∈ (tail : List (List (HloOp τ sig (Elt F)))), ∀ op ∈ ops, ∀ r ∈ kept, Proc.devRef .tc r ∉ op.writes :=
  tail_cases (p := fun ops => ∀ op ∈ ops, ∀ r ∈ kept, Proc.devRef .tc r ∉ op.writes)
    (List.forall_iff_forall_mem.mp hostOps1_keeps) (List.forall_iff_forall_mem.mp hostOps1_1_keeps)
    (List.forall_iff_forall_mem.mp hostOps1_2_keeps) (List.forall_iff_forall_mem.mp hostOps1_3_keeps)
    (List.forall_iff_forall_mem.mp hostOps1_4_keeps)

/-- @main around the region: the host operations before it, the region, the host operations after
    it; it reduces to the region CONTINUED BY the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail : List (List (HloOp τ sig (Elt F)))).map StableHlo.seq)) :=
  Pipeline.hmain_around cfgs 0 defs₀ 𝒱₀ m main [hostOps0] tail (by simp only [List.Forall]; exact hostOps0_sub)
    (by simp only [List.Forall]; exact hostOps0_fresh) main_chain

/-- The later operations touch the pipeline's arrays and the bypassing buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  exact tail_cases (p := fun ops => ∀ op ∈ ops, op.bufs ⊆ Pipeline.ucRefs τ sig)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
/-- They allocate nothing. -/
theorem sfx_fresh : ∀ ops ∈ (tail : List (List (HloOp τ sig (Elt F)))), ∀ op ∈ ops, op.fresh = ∅ :=
  tail_cases (p := fun ops => ∀ op ∈ ops, op.fresh = ∅)
    (List.forall_iff_forall_mem.mp hostOps1_fresh) (List.forall_iff_forall_mem.mp hostOps1_1_fresh)
    (List.forall_iff_forall_mem.mp hostOps1_2_fresh) (List.forall_iff_forall_mem.mp hostOps1_3_fresh)
    (List.forall_iff_forall_mem.mp hostOps1_4_fresh)
/-- And write no array of the pipeline. -/
theorem sfx_keeps : ∀ ops ∈ (tail : List (List (HloOp τ sig (Elt F)))), ∀ op ∈ ops,
    ∀ w, Proc.devRef .tc (Pipeline.arrRef spec0 w) ∉ op.writes := by
  intro ops hops op hop w
  have h := tail_keeps ops hops op hop
  fin_cases w
  · exact h main_v2 (by decide)
  · exact h main_v4 (by decide)
  · exact h main_v5_0 (by decide)
  · exact h main_v5_1 (by decide)

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not,
    for any proof data whose array is `V`'s and whose body leaves the block in place: the window is
    uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinates: grid coordinate 1 is 0. -/
abbrev cond0_0 (i : grid0.Coords) : Prop := (Scalar.cmpi .ne (Scalar.extui (Scalar.cmpi .eq (BitVec.ofNat 32 (i 1).val) 0#32)) 0#32) = 1#1
/-- It holds at the points ≡ 0 (mod 49): decided over the grid. -/
theorem hcond0_0 : ∀ t : Fin cfg0.N, cond0_0 (grid0.coords t) ↔ t.val % 49 = 0 :=
  (by decide +kernel : ∀ t : Fin grid0.N, cond0_0 (grid0.coords t) ↔ t.val % 49 = 0)

/-! ## The staging memrefs at a point -/

abbrev ms0_0 (t : Fin cfg0.N) : Memref sig .tc .vmem S5120x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x2 .f32 := win0_3.stage (cfg0.slots t 3)
abbrev hs0_3 (t : Fin cfg0.N) : (ms0_3 t).IsWhole := hstage0_3 ((cfg0.slots t 3).cast nbuf0_3)

end Cert.Kernel.Hand

end
-- ==== Proof.K.Data.lean ====
import proofs.«421733_j6923487282636_2_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two output staging buffers hold after each point -/

/-- THE ACCUMULATION. What the staging buffers of the two outputs hold after the body at position `n`:
    at a point whose grid coordinate 1 is 0 the point's contribution added to zeros (the reset), at
    any other point added to what the point before left (the buffers are not written back between). -/
def outsAt0 (c : Dev nD) : (n : ℕ) → n < cfg0.N → Vec F S1x16x128 .f32 × Vec F S1x16x2 .f32
  | 0, hn => (k0_pay7 (iblk m c 0 ⟨0, hn⟩) (iblk m c 1 ⟨0, hn⟩) k0_pay1, k0_pay8 (iblk m c 0 ⟨0, hn⟩) (iblk m c 1 ⟨0, hn⟩) k0_pay2)
  | n + 1, hn =>
    if (n + 1) % 49 = 0 then
      (k0_pay7 (iblk m c 0 ⟨n + 1, hn⟩) (iblk m c 1 ⟨n + 1, hn⟩) k0_pay1, k0_pay8 (iblk m c 0 ⟨n + 1, hn⟩) (iblk m c 1 ⟨n + 1, hn⟩) k0_pay2)
    else
      (k0_pay7 (iblk m c 0 ⟨n + 1, hn⟩) (iblk m c 1 ⟨n + 1, hn⟩) (outsAt0 c n (Nat.lt_of_succ_lt hn)).1,
        k0_pay8 (iblk m c 0 ⟨n + 1, hn⟩) (iblk m c 1 ⟨n + 1, hn⟩) (outsAt0 c n (Nat.lt_of_succ_lt hn)).2)

/-- `outsAt0` at a point of the reset case. -/
theorem outsAt0_A (c : Dev nD) (t : Fin cfg0.N) (h0 : t.val % 49 = 0) :
    outsAt0 m c t.val t.isLt = (k0_pay7 (iblk m c 0 t) (iblk m c 1 t) k0_pay1, k0_pay8 (iblk m c 0 t) (iblk m c 1 t) k0_pay2) := by
  obtain ⟨n, hn⟩ := t
  cases n with
  | zero => rfl
  | succ n => exact (if_pos h0).trans rfl

/-- `outsAt0` at a point of the accumulating case: over what the point before left. -/
theorem outsAt0_B (c : Dev nD) (t : Fin cfg0.N) (h0 : ¬t.val % 49 = 0) :
    outsAt0 m c t.val t.isLt
      = (k0_pay7 (iblk m c 0 t) (iblk m c 1 t) (outsAt0 m c (t.val - 1) (Nat.lt_of_le_of_lt (Nat.sub_le _ _) t.isLt)).1,
         k0_pay8 (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The pipeline's proof data -/

/-- The proof data of the one pipeline on core `c`: the arrays as the region finds them (`V`); after the
    body at point `t` each input's buffer at its block and the outputs' at `outsAt0`; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

end Cert.Kernel.Hand

end
-- ==== Proof.K.RunA.lean ====
import proofs.«421733_j6923487282636_2_alg».proof.Proof.K.Runs
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Loads and stores through a rectangle that is the whole shape

The body loads and stores each staging buffer through the unit rectangle at offset zero with the
buffer's own sizes: every index of the rectangle is placed at itself, so a load reads the contents and
a store replaces them. -/

section Whole

variable {sig' : RefSig} {κ' : Kind} {sp' : Space} {s : Shape} {e : EltTy} {Val' : EltTy → Type}

/-- The rectangle at offset zero with the shape's sizes places each of its indices at itself. -/
theorem idx_unit_zero (off : Fin s.rank → ℕ) (inb : ∀ a, off a + s.size a ≤ s.size a) (hoff : ∀ a, off a = 0)
    (j : (Rect.unit (s := s) off s.size inb).shape.Idx) : (Rect.unit (s := s) off s.size inb).toLoadRect.idx j = j := by
  funext a; apply Fin.ext; show off a + 1 * (j a : ℕ) = j a; rw [hoff a]; omega

/-- A load through it of a whole memref held at the contents that read `X` reads `X`. -/
theorem readAt_unit_zero_unread {m' : Memref sig' κ' sp' s e} (h : m'.IsWhole) (X : s.Idx → Val' e)
    (off : Fin s.rank → ℕ) (inb : ∀ a, off a + s.size a ≤ s.size a) (hoff : ∀ a, off a = 0) :
    View.readAt Val' m'.view (Rect.unit (s := s) off s.size inb).toLoadRect (h.unread X) = X := by
  funext j; rw [h.readAt_unread X _ j, idx_unit_zero off inb hoff j]

/-- What any view reads after a last write through it is that write's payload, whatever came before. -/
theorem read_writes_cons_unit_zero (v : View sig' κ' sp' s e) (f : v.ty.Contents Val')
    (off : Fin s.rank → ℕ) (inb : ∀ a, off a + s.size a ≤ s.size a) (hoff : ∀ a, off a = 0)
    (w : (Rect.unit (s := s) off s.size inb).shape.Idx → Val' e) (L : List (View.Piece Val' s e)) :
    v.read Val' (v.writes Val' f (⟨Rect.unit (s := s) off s.size inb, w⟩ :: L)) = w := by
  funext y
  have h := View.read_writes_cons_emb (v := v) (f := f) (Rect.unit (s := s) off s.size inb) w L y
  rwa [show (Rect.unit (s := s) off s.size inb).emb y = y from idx_unit_zero off inb hoff y] at h

end Whole

/-! ## The body at a point whose grid coordinate 1 is 0 -/

set_option maxHeartbeats 1000000 in
/-- THE RESET CASE. On whole staging memrefs, the inputs' at contents `x0`, `x1` and the outputs' at
    anything, the body runs to the continuation holding the inputs' as they were and each output's
    buffer at the point's contribution added to zeros: both outputs are first stored zeros, and the
    loads that follow read those zeros back. -/
theorem kernelRun0_A (c : Dev nD) (i : grid0.Coords) (arg2 : Memref sig .tc .vmem S5120x128 .f32) (harg2 : arg2.IsWhole) (arg3 : Memref sig .tc .vmem S5120x1 .i32) (harg3 : arg3.IsWhole) (arg4 : Memref sig .tc .vmem S1x16x128 .f32) (harg4 : arg4.IsWhole) (arg5 : Memref sig .tc .vmem S1x16x2 .f32) (harg5 : arg5.IsWhole) (hc0 : cond0_0 i)
    (x0 : Vec F S5120x128 .f32) (x1 : Vec F S5120x1 .i32) (E : Set ℕ) (K : PUnit → sProp 𝕄) :
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ owns (c : Thread nD τ) arg4 fullShare (k0_pay7 x0 x1 k0_pay1) ∗ owns (c : Thread nD τ) arg5 fullShare (k0_pay8 x0 x1 k0_pay2)) -∗ K ⟨⟩))
          ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_unit_zero arg4.view f2 _ _ (by decide) _ _).trans ?_
    rw [readAt_unit_zero_unread harg2 x0 _ _ (by decide), readAt_unit_zero_unread harg3 x1 _ _ (by decide),
      View.readCov_cons_toLoadRect]
  · iexists _; isplitr
    swap; · iexact H3
    ipureintro
    sl_unfold_run_names
    refine (read_writes_cons_unit_zero arg5.view f3 _ _ (by decide) _ _).trans ?_
    rw [readAt_unit_zero_unread harg2 x0 _ _ (by decide), readAt_unit_zero_unread harg3 x1 _ _ (by decide),
      View.readCov_cons_toLoadRect]

end Cert.Kernel.Hand

end
-- ==== Proof.K.RunB.lean ====
import proofs.«421733_j6923487282636_2_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point whose grid coordinate 1 is not 0 -/

set_option maxHeartbeats 1000000 in
/-- THE ACCUMULATING CASE. On whole staging memrefs, the inputs' at contents `x0`, `x1` and the outputs'
    at their running contents `xo2`, `xo3`, the body runs to the continuation holding the inputs' as they
    were and each output's buffer at the point's contribution added to its running contents. -/
theorem kernelRun0_B (c : Dev nD) (i : grid0.Coords) (arg2 : Memref sig .tc .vmem S5120x128 .f32) (harg2 : arg2.IsWhole) (arg3 : Memref sig .tc .vmem S5120x1 .i32) (harg3 : arg3.IsWhole) (arg4 : Memref sig .tc .vmem S1x16x128 .f32) (harg4 : arg4.IsWhole) (arg5 : Memref sig .tc .vmem S1x16x2 .f32) (harg5 : arg5.IsWhole) (hc0 : ¬cond0_0 i)
    (x0 : Vec F S5120x128 .f32) (x1 : Vec F S5120x1 .i32) (xo2 : Vec F S1x16x128 .f32) (xo3 : Vec F S1x16x2 .f32) (E : Set ℕ) (K : PUnit → sProp 𝕄) :
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ owns (c : Thread nD τ) arg4 fullShare (k0_pay7 x0 x1 xo2) ∗ owns (c : Thread nD τ) arg5 fullShare (k0_pay8 x0 x1 xo3)) -∗ K ⟨⟩))
          ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_unit_zero arg4.view _ _ _ (by decide) _ _).trans ?_
    rw [readAt_unit_zero_unread harg2 x0 _ _ (by decide), readAt_unit_zero_unread harg3 x1 _ _ (by decide),
      readAt_unit_zero_unread harg4 xo2 _ _ (by decide)]
  · iexists _; isplitr
    swap; · iexact H3
    ipureintro
    sl_unfold_run_names
    refine (read_writes_cons_unit_zero arg5.view _ _ _ (by decide) _ _).trans ?_
    rw [readAt_unit_zero_unread harg2 x0 _ _ (by decide), readAt_unit_zero_unread harg3 x1 _ _ (by decide),
      readAt_unit_zero_unread harg5 xo3 _ _ (by decide)]

end Cert.Kernel.Hand

end
-- ==== Proof.K.Frame.lean ====
import proofs.«421733_j6923487282636_2_alg».proof.Proof.K.Data
import proofs.«421733_j6923487282636_2_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each staging buffer holds when the body starts -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point whose grid coordinate 1 is not 0 each output's current staging buffer holds what the body
    left at the point before: the point is not the first, and the buffer was not written back between
    (a write-back happens only after the last point of a row of the grid). -/
theorem before0_2_B (c : Dev nD) (t : Fin cfg0.N) (h0 : ¬t.val % 49 = 0) (d) :
    (dats m 0 c).before 2 t d = (outsAt0 m c (t.val - 1) (Nat.lt_of_le_of_lt (Nat.sub_le _ _) t.isLt)).1 := by
  have hN : t.val < 98 := lt_of_lt_of_eq t.isLt (show cfg0.N = 98 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 49 = 0) (d) :
    (dats m 0 c).before 3 t d = (outsAt0 m c (t.val - 1) (Nat.lt_of_le_of_lt (Nat.sub_le _ _) t.isLt)).2 := by
  have hN : t.val < 98 := lt_of_lt_of_eq t.isLt (show cfg0.N = 98 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form of the condition says
    which case the point is in; in the accumulating case the outputs' memrefs hold what the point before
    left; so the case's run applies. The invariant passes through unread; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rewrite [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 49 = 0
  · rewrite [outsAt0_A m c t h0]
    dsimp only
    iintro ⟨HΦ, Ho, ⟨%d0, H0⟩, ⟨%d1, H1⟩, ⟨%d2, H2⟩, ⟨%d3, H3⟩⟩
    iapply (kernelRun0_A c (grid0.coords t) _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rewrite [outsAt0_B m c t h0]
    simp only [before0_2_B m c t h0, before0_3_B m c t h0]
    iintro ⟨HΦ, Ho, ⟨%d0, H0⟩, ⟨%d1, H1⟩, ⟨%d2, H2⟩, ⟨%d3, H3⟩⟩
    iapply (kernelRun0_B c (grid0.coords t) _ _ _ _ _ _ _ _ (fun h => h0 ((hcond0_0 t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution
    of @main on the TensorCores terminates, and every final state has every array of the pipeline at what
    the library computes from the proof data and every other unscoped buffer as the host operations after
    the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- A kept buffer that is no array of the pipeline holds after the later host operations what the region
    found in it: no later operation writes it. -/
theorem afterTail_kept (c : Dev nD) (r : Ref sig .tc) (hr : r ∈ kept) (hne : ∀ w, Pipeline.arrRef spec0 w ≠ r) :
    Pipeline.afterTail₀ cfgs (dats m) 0 (V0 m) tail c r = V m c r := by
  unfold Pipeline.afterTail₀
  rw [StableHlo.after_of_forall_not_mem _ _ (fun op hop => ?_), Pipeline.withArrays_of_ne _ c _ _ r hne]
  obtain ⟨ops, hops, hop'⟩ := List.mem_flatten.mp hop
  exact tail_keeps ops hops op hop' r hr

/-- THE FRAME: @main runs, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((afterTail_kept m c main_arg0 (by decide) (by decide)).trans (V_main_arg0 m c)),
      ((h c).2 main_arg1 (Pipeline.mem_restRefs_of main_arg1 (by decide) (by decide))).trans
        ((afterTail_kept m c main_arg1 (by decide) (by decide)).trans (V_main_arg1 m c))⟩) (run_main m ρ)

end Cert.Kernel.Hand

end
-- ==== Proof.KI.Runs.lean ====
import proofs.«421733_j6923487282636_2_alg».proof.Proof.Gen.KernelIdeal.Launch
import proofs.«421733_j6923487282636_2_alg».proof.Proof.Gen.KernelIdeal.Skeleton
import proofs.«421733_j6923487282636_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host
    operations before the region (the two inputs padded with zero rows and rows of score −1). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The later host operations, stretch by stretch. -/
abbrev tail : List (List (HloOp τ sig (Elt F))) := [hostOps1, hostOps1_1, hostOps1_2, hostOps1_3, hostOps1_4]

/-- The buffers no host operation after the region may write: the two arguments and the four arrays
    of the pipeline. -/
abbrev kept : List (Ref sig .tc) := [main_arg0, main_arg1, main_v2, main_v4, main_v5_0, main_v5_1]

/-! ### No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ### Each later operation writes its own result buffer only, which is none of the kept ones -/

theorem hostOps1_keeps : (hostOps1 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_1_keeps : (hostOps1_1 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_2_keeps : (hostOps1_2 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_3_keeps : (hostOps1_3 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))
theorem hostOps1_4_keeps : (hostOps1_4 : List (HloOp τ sig (Elt F))).Forall fun op => ∀ r ∈ kept, Proc.devRef .tc r ∉ op.writes := by
  simp only [List.Forall]; repeat' constructor
  all_goals (intro r hr; fin_cases hr <;> exact fun h => absurd (Finset.mem_singleton.mp h) (StableHlo.devRef_ne_of_ne (by decide)))

/-- Stretch by stretch, as one fact over the list of stretches. -/
theorem tail_cases {p : List (HloOp τ sig (Elt F)) → Prop} (h1 : p hostOps1) (h2 : p hostOps1_1) (h3 : p hostOps1_2)
    (h4 : p hostOps1_3) (h5 : p hostOps1_4) : ∀ ops ∈ (tail : List (List (HloOp τ sig (Elt F)))), p ops := by
  intro ops hops
  simp only [List.mem_cons, List.mem_nil_iff, or_false] at hops
  rcases hops with rfl | rfl | rfl | rfl | rfl <;> assumption

/-- No later operation writes a kept buffer. -/
theorem tail_keeps : ∀ ops ∈ (tail : List (List (HloOp τ sig (Elt F)))), ∀ op ∈ ops, ∀ r ∈ kept, Proc.devRef .tc r ∉ op.writes :=
  tail_cases (p := fun ops => ∀ op ∈ ops, ∀ r ∈ kept, Proc.devRef .tc r ∉ op.writes)
    (List.forall_iff_forall_mem.mp hostOps1_keeps) (List.forall_iff_forall_mem.mp hostOps1_1_keeps)
    (List.forall_iff_forall_mem.mp hostOps1_2_keeps) (List.forall_iff_forall_mem.mp hostOps1_3_keeps)
    (List.forall_iff_forall_mem.mp hostOps1_4_keeps)

/-- @main around the region: the host operations before it, the region, the host operations after
    it; it reduces to the region CONTINUED BY the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail : List (List (HloOp τ sig (Elt F)))).map StableHlo.seq)) :=
  Pipeline.hmain_around cfgs 0 defs₀ 𝒱₀ m main [hostOps0] tail (by simp only [List.Forall]; exact hostOps0_sub)
    (by simp only [List.Forall]; exact hostOps0_fresh) main_chain

/-- The later operations touch the pipeline's arrays and the bypassing buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  exact tail_cases (p := fun ops => ∀ op ∈ ops, op.bufs ⊆ Pipeline.ucRefs τ sig)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
/-- They allocate nothing. -/
theorem sfx_fresh : ∀ ops ∈ (tail : List (List (HloOp τ sig (Elt F)))), ∀ op ∈ ops, op.fresh = ∅ :=
  tail_cases (p := fun ops => ∀ op ∈ ops, op.fresh = ∅)
    (List.forall_iff_forall_mem.mp hostOps1_fresh) (List.forall_iff_forall_mem.mp hostOps1_1_fresh)
    (List.forall_iff_forall_mem.mp hostOps1_2_fresh) (List.forall_iff_forall_mem.mp hostOps1_3_fresh)
    (List.forall_iff_forall_mem.mp hostOps1_4_fresh)
/-- And write no array of the pipeline. -/
theorem sfx_keeps : ∀ ops ∈ (tail : List (List (HloOp τ sig (Elt F)))), ∀ op ∈ ops,
    ∀ w, Proc.devRef .tc (Pipeline.arrRef spec0 w) ∉ op.writes := by
  intro ops hops op hop w
  have h := tail_keeps ops hops op hop
  fin_cases w
  · exact h main_v2 (by decide)
  · exact h main_v4 (by decide)
  · exact h main_v5_0 (by decide)
  · exact h main_v5_1 (by decide)

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not,
    for any proof data whose array is `V`'s and whose body leaves the block in place: the window is
    uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinates: grid coordinate 1 is 0. -/
abbrev cond0_0 (i : grid0.Coords) : Prop := (Scalar.cmpi .ne (Scalar.extui (Scalar.cmpi .eq (BitVec.ofNat 32 (i 1).val) 0#32)) 0#32) = 1#1
/-- It holds at the points ≡ 0 (mod 49): decided over the grid. -/
theorem hcond0_0 : ∀ t : Fin cfg0.N, cond0_0 (grid0.coords t) ↔ t.val % 49 = 0 :=
  (by decide +kernel : ∀ t : Fin grid0.N, cond0_0 (grid0.coords t) ↔ t.val % 49 = 0)

/-! ## The staging memrefs at a point -/

abbrev ms0_0 (t : Fin cfg0.N) : Memref sig .tc .vmem S5120x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x2 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.Data.lean ====
import proofs.«421733_j6923487282636_2_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the two output staging buffers hold after each point -/

/-- THE ACCUMULATION. What the staging buffers of the two outputs hold after the body at position `n`:
    at a point whose grid coordinate 1 is 0 the point's contribution added to zeros (the reset), at
    any other point added to what the point before left (the buffers are not written back between). -/
def outsAt0 (c : Dev nD) : (n : ℕ) → n < cfg0.N → Vec F S1x16x128 .f32 × Vec F S1x16x2 .f32
  | 0, hn => (k0_pay7 (iblk m c 0 ⟨0, hn⟩) (iblk m c 1 ⟨0, hn⟩) k0_pay1, k0_pay8 (iblk m c 0 ⟨0, hn⟩) (iblk m c 1 ⟨0, hn⟩) k0_pay2)
  | n + 1, hn =>
    if (n + 1) % 49 = 0 then
      (k0_pay7 (iblk m c 0 ⟨n + 1, hn⟩) (iblk m c 1 ⟨n + 1, hn⟩) k0_pay1, k0_pay8 (iblk m c 0 ⟨n + 1, hn⟩) (iblk m c 1 ⟨n + 1, hn⟩) k0_pay2)
    else
      (k0_pay7 (iblk m c 0 ⟨n + 1, hn⟩) (iblk m c 1 ⟨n + 1, hn⟩) (outsAt0 c n (Nat.lt_of_succ_lt hn)).1,
        k0_pay8 (iblk m c 0 ⟨n + 1, hn⟩) (iblk m c 1 ⟨n + 1, hn⟩) (outsAt0 c n (Nat.lt_of_succ_lt hn)).2)

/-- `outsAt0` at a point of the reset case. -/
theorem outsAt0_A (c : Dev nD) (t : Fin cfg0.N) (h0 : t.val % 49 = 0) :
    outsAt0 m c t.val t.isLt = (k0_pay7 (iblk m c 0 t) (iblk m c 1 t) k0_pay1, k0_pay8 (iblk m c 0 t) (iblk m c 1 t) k0_pay2) := by
  obtain ⟨n, hn⟩ := t
  cases n with
  | zero => rfl
  | succ n => exact (if_pos h0).trans rfl

/-- `outsAt0` at a point of the accumulating case: over what the point before left. -/
theorem outsAt0_B (c : Dev nD) (t : Fin cfg0.N) (h0 : ¬t.val % 49 = 0) :
    outsAt0 m c t.val t.isLt
      = (k0_pay7 (iblk m c 0 t) (iblk m c 1 t) (outsAt0 m c (t.val - 1) (Nat.lt_of_le_of_lt (Nat.sub_le _ _) t.isLt)).1,
         k0_pay8 (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The pipeline's proof data -/

/-- The proof data of the one pipeline on core `c`: the arrays as the region finds them (`V`); after the
    body at point `t` each input's buffer at its block and the outputs' at `outsAt0`; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

end Cert.KernelIdeal.Hand

end
-- ==== Proof.KI.RunA.lean ====
import proofs.«421733_j6923487282636_2_alg».proof.Proof.KI.Runs
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Loads and stores through a rectangle that is the whole shape

The body loads and stores each staging buffer through the unit rectangle at offset zero with the
buffer's own sizes: every index of the rectangle is placed at itself, so a load reads the contents and
a store replaces them. -/

section Whole

variable {sig' : RefSig} {κ' : Kind} {sp' : Space} {s : Shape} {e : EltTy} {Val' : EltTy → Type}

/-- The rectangle at offset zero with the shape's sizes places each of its indices at itself. -/
theorem idx_unit_zero (off : Fin s.rank → ℕ) (inb : ∀ a, off a + s.size a ≤ s.size a) (hoff : ∀ a, off a = 0)
    (j : (Rect.unit (s := s) off s.size inb).shape.Idx) : (Rect.unit (s := s) off s.size inb).toLoadRect.idx j = j := by
  funext a; apply Fin.ext; show off a + 1 * (j a : ℕ) = j a; rw [hoff a]; omega

/-- A load through it of a whole memref held at the contents that read `X` reads `X`. -/
theorem readAt_unit_zero_unread {m' : Memref sig' κ' sp' s e} (h : m'.IsWhole) (X : s.Idx → Val' e)
    (off : Fin s.rank → ℕ) (inb : ∀ a, off a + s.size a ≤ s.size a) (hoff : ∀ a, off a = 0) :
    View.readAt Val' m'.view (Rect.unit (s := s) off s.size inb).toLoadRect (h.unread X) = X := by
  funext j; rw [h.readAt_unread X _ j, idx_unit_zero off inb hoff j]

/-- What any view reads after a last write through it is that write's payload, whatever came before. -/
theorem read_writes_cons_unit_zero (v : View sig' κ' sp' s e) (f : v.ty.Contents Val')
    (off : Fin s.rank → ℕ) (inb : ∀ a, off a + s.size a ≤ s.size a) (hoff : ∀ a, off a = 0)
    (w : (Rect.unit (s := s) off s.size inb).shape.Idx → Val' e) (L : List (View.Piece Val' s e)) :
    v.read Val' (v.writes Val' f (⟨Rect.unit (s := s) off s.size inb, w⟩ :: L)) = w := by
  funext y
  have h := View.read_writes_cons_emb (v := v) (f := f) (Rect.unit (s := s) off s.size inb) w L y
  rwa [show (Rect.unit (s := s) off s.size inb).emb y = y from idx_unit_zero off inb hoff y] at h

end Whole

/-! ## The body at a point whose grid coordinate 1 is 0 -/

set_option maxHeartbeats 1000000 in
/-- THE RESET CASE. On whole staging memrefs, the inputs' at contents `x0`, `x1` and the outputs' at
    anything, the body runs to the continuation holding the inputs' as they were and each output's
    buffer at the point's contribution added to zeros: both outputs are first stored zeros, and the
    loads that follow read those zeros back. -/
theorem kernelRun0_A (c : Dev nD) (i : grid0.Coords) (arg2 : Memref sig .tc .vmem S5120x128 .f32) (harg2 : arg2.IsWhole) (arg3 : Memref sig .tc .vmem S5120x1 .i32) (harg3 : arg3.IsWhole) (arg4 : Memref sig .tc .vmem S1x16x128 .f32) (harg4 : arg4.IsWhole) (arg5 : Memref sig .tc .vmem S1x16x2 .f32) (harg5 : arg5.IsWhole) (hc0 : cond0_0 i)
    (x0 : Vec F S5120x128 .f32) (x1 : Vec F S5120x1 .i32) (E : Set ℕ) (K : PUnit → sProp 𝕄) :
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ owns (c : Thread nD τ) arg4 fullShare (k0_pay7 x0 x1 k0_pay1) ∗ owns (c : Thread nD τ) arg5 fullShare (k0_pay8 x0 x1 k0_pay2)) -∗ K ⟨⟩))
          ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_unit_zero arg4.view f2 _ _ (by decide) _ _).trans ?_
    rw [readAt_unit_zero_unread harg2 x0 _ _ (by decide), readAt_unit_zero_unread harg3 x1 _ _ (by decide),
      View.readCov_cons_toLoadRect]
  · iexists _; isplitr
    swap; · iexact H3
    ipureintro
    sl_unfold_run_names
    refine (read_writes_cons_unit_zero arg5.view f3 _ _ (by decide) _ _).trans ?_
    rw [readAt_unit_zero_unread harg2 x0 _ _ (by decide), readAt_unit_zero_unread harg3 x1 _ _ (by decide),
      View.readCov_cons_toLoadRect]

end Cert.KernelIdeal.Hand

end
-- ==== Proof.KI.RunB.lean ====
import proofs.«421733_j6923487282636_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body at a point whose grid coordinate 1 is not 0 -/

set_option maxHeartbeats 1000000 in
/-- THE ACCUMULATING CASE. On whole staging memrefs, the inputs' at contents `x0`, `x1` and the outputs'
    at their running contents `xo2`, `xo3`, the body runs to the continuation holding the inputs' as they
    were and each output's buffer at the point's contribution added to its running contents. -/
theorem kernelRun0_B (c : Dev nD) (i : grid0.Coords) (arg2 : Memref sig .tc .vmem S5120x128 .f32) (harg2 : arg2.IsWhole) (arg3 : Memref sig .tc .vmem S5120x1 .i32) (harg3 : arg3.IsWhole) (arg4 : Memref sig .tc .vmem S1x16x128 .f32) (harg4 : arg4.IsWhole) (arg5 : Memref sig .tc .vmem S1x16x2 .f32) (harg5 : arg5.IsWhole) (hc0 : ¬cond0_0 i)
    (x0 : Vec F S5120x128 .f32) (x1 : Vec F S5120x1 .i32) (xo2 : Vec F S1x16x128 .f32) (xo3 : Vec F S1x16x2 .f32) (E : Set ℕ) (K : PUnit → sProp 𝕄) :
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ owns (c : Thread nD τ) arg4 fullShare (k0_pay7 x0 x1 xo2) ∗ owns (c : Thread nD τ) arg5 fullShare (k0_pay8 x0 x1 xo3)) -∗ K ⟨⟩))
          ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_unit_zero arg4.view _ _ _ (by decide) _ _).trans ?_
    rw [readAt_unit_zero_unread harg2 x0 _ _ (by decide), readAt_unit_zero_unread harg3 x1 _ _ (by decide),
      readAt_unit_zero_unread harg4 xo2 _ _ (by decide)]
  · iexists _; isplitr
    swap; · iexact H3
    ipureintro
    sl_unfold_run_names
    refine (read_writes_cons_unit_zero arg5.view _ _ _ (by decide) _ _).trans ?_
    rw [readAt_unit_zero_unread harg2 x0 _ _ (by decide), readAt_unit_zero_unread harg3 x1 _ _ (by decide),
      readAt_unit_zero_unread harg5 xo3 _ _ (by decide)]

end Cert.KernelIdeal.Hand

end
-- ==== Proof.KI.Frame.lean ====
import proofs.«421733_j6923487282636_2_alg».proof.Proof.KI.Data
import proofs.«421733_j6923487282636_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each staging buffer holds when the body starts -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point whose grid coordinate 1 is not 0 each output's current staging buffer holds what the body
    left at the point before: the point is not the first, and the buffer was not written back between
    (a write-back happens only after the last point of a row of the grid). -/
theorem before0_2_B (c : Dev nD) (t : Fin cfg0.N) (h0 : ¬t.val % 49 = 0) (d) :
    (dats m 0 c).before 2 t d = (outsAt0 m c (t.val - 1) (Nat.lt_of_le_of_lt (Nat.sub_le _ _) t.isLt)).1 := by
  have hN : t.val < 98 := lt_of_lt_of_eq t.isLt (show cfg0.N = 98 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 49 = 0) (d) :
    (dats m 0 c).before 3 t d = (outsAt0 m c (t.val - 1) (Nat.lt_of_le_of_lt (Nat.sub_le _ _) t.isLt)).2 := by
  have hN : t.val < 98 := lt_of_lt_of_eq t.isLt (show cfg0.N = 98 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form of the condition says
    which case the point is in; in the accumulating case the outputs' memrefs hold what the point before
    left; so the case's run applies. The invariant passes through unread; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rewrite [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 49 = 0
  · rewrite [outsAt0_A m c t h0]
    dsimp only
    iintro ⟨HΦ, Ho, ⟨%d0, H0⟩, ⟨%d1, H1⟩, ⟨%d2, H2⟩, ⟨%d3, H3⟩⟩
    iapply (kernelRun0_A c (grid0.coords t) _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rewrite [outsAt0_B m c t h0]
    simp only [before0_2_B m c t h0, before0_3_B m c t h0]
    iintro ⟨HΦ, Ho, ⟨%d0, H0⟩, ⟨%d1, H1⟩, ⟨%d2, H2⟩, ⟨%d3, H3⟩⟩
    iapply (kernelRun0_B c (grid0.coords t) _ _ _ _ _ _ _ _ (fun h => h0 ((hcond0_0 t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution
    of @main on the TensorCores terminates, and every final state has every array of the pipeline at what
    the library computes from the proof data and every other unscoped buffer as the host operations after
    the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- A kept buffer that is no array of the pipeline holds after the later host operations what the region
    found in it: no later operation writes it. -/
theorem afterTail_kept (c : Dev nD) (r : Ref sig .tc) (hr : r ∈ kept) (hne : ∀ w, Pipeline.arrRef spec0 w ≠ r) :
    Pipeline.afterTail₀ cfgs (dats m) 0 (V0 m) tail c r = V m c r := by
  unfold Pipeline.afterTail₀
  rw [StableHlo.after_of_forall_not_mem _ _ (fun op hop => ?_), Pipeline.withArrays_of_ne _ c _ _ r hne]
  obtain ⟨ops, hops, hop'⟩ := List.mem_flatten.mp hop
  exact tail_keeps ops hops op hop' r hr

/-- THE FRAME: @main runs, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((afterTail_kept m c main_arg0 (by decide) (by decide)).trans (V_main_arg0 m c)),
      ((h c).2 main_arg1 (Pipeline.mem_restRefs_of main_arg1 (by decide) (by decide))).trans
        ((afterTail_kept m c main_arg1 (by decide) (by decide)).trans (V_main_arg1 m c))⟩) (run_main m ρ)

end Cert.KernelIdeal.Hand

end
-- ==== Proof.KI.Eps.lean ====
/-
  The one constant the kernel's idealization names. The kernel floors a row's sum of squares at a number it writes as
  the product of the norm floor with itself; read at the extended reals that number is exactly the square of the
  reference's floor, 5316911940649 / 2^122 = (2305843 / 2^61)².
-/
import proofs.«421733_j6923487282636_2_alg».proof.Defs
import Idealize.ShloMosaic.PureOps.IdealRules

noncomputable section

namespace Cert.KernelIdeal.HandValue

open Idealize.ShloMosaic

/-- The named floor on the sum of squares denotes the rational 5316911940649 / 2^122 at the extended reals. -/
theorem eps_sq_val :
    Named.named (F := Ideal) Cert.KernelIdeal.κ "eps_sq" (φ := .f32) 0x179ABE15#32
      = ((5316911940649 / 5316911983139663491615228241121378304 : ℝ) : EReal) :=
  IdealRules.named_const.ideal_named_scalar _ _ _ _ rfl

/-- The idealization's one rewrite, as the claim states it: the named constant is that rational at the extended reals. -/
theorem preserves : Cert.preserves_Kernel_KernelIdeal :=
  IdealRules.named_const.statement Cert.KernelIdeal.κ "eps_sq" .f32 0x179ABE15#32
    ((5316911940649 / 5316911983139663491615228241121378304 : ℝ) : EReal) rfl

end Cert.KernelIdeal.HandValue

end
-- ==== Proof.KI.Payload.lean ====
/-
  The kernel body's pure values read at an index, at the extended reals.

  One grid step holds a block of 5120 rows of 128 features and the block's 5120 score words. For each row the body
  forms the sum of squares, floors it at the named constant, and takes the reciprocal square root; it compares every
  score word with each of the sixteen score values, which gives a 5120 × 16 matrix of zeros and ones; and it contracts
  that matrix over the rows against (a) the rows scaled by their reciprocal root and (b) the two columns "one" and
  "sum of squares times the reciprocal root twice". The two results are added to what the two output blocks hold.
  Read at an index: entry (g, k) of the first block grows by the sum over the rows of score g of the scaled feature k,
  and entries (g, 0), (g, 1) of the second grow by the number of rows of score g and by the sum of their scaled
  squared norms. The two blocks written at the first step of a sweep are zero everywhere.
-/
import proofs.«421733_j6923487282636_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.HandValue

open Idealize.ShloMosaic Idealize.ShloMosaic.ValueIdx Cert.KernelIdeal Cert.KernelIdeal.Gen

/-! ## The quantities of one block -/

/-- The sum of squares of row r of the block. -/
def rowSq (x0 : Vec Ideal S5120x128 .f32) (r : Fin 5120) : EReal := ∑ k' : Fin 128, x0 (ix2 r k') * x0 (ix2 r k')

/-- The reciprocal square root of row r's sum of squares floored at the named constant. -/
def inv (x0 : Vec Ideal S5120x128 .f32) (r : Fin 5120) : EReal :=
  Ideal.rsqrt (max (rowSq x0 r) (Named.named (F := Ideal) Cert.KernelIdeal.κ "eps_sq" (φ := .f32) 0x179ABE15#32))

/-- One when row r's score word is the score value g, zero otherwise. -/
def hot (s0 : Vec Ideal S5120x1 .i32) (r : Fin 5120) (g : Fin 16) : EReal :=
  if s0 (ix2 r (0 : Fin 1)) = BitVec.ofNat 32 g.val then 1 else 0

/-! ## The row quantities -/

/-- The block cast to its own shape is the block. -/
theorem pay3_eq (x0 : Vec Ideal S5120x128 .f32) : k0_pay3 (F := Ideal) x0 = x0 := by
  unfold k0_pay3
  exact shapeCast_self _ _

/-- Inserting feature k at a row index gives (r, k). -/
theorem lift_row (r : Fin 5120) (k : Fin 128) :
    (reduces_S5120x128_S5120 : S5120x128.Reduces [1] S5120).lift (ix1 r) k = ix2 r k := by
  funext c
  refine Fin.ext ?_
  match c with
  | ⟨0, _⟩ => rfl
  | ⟨1, _⟩ => rfl

/-- The lane sum of the squares, kept as a column, reads row r's sum of squares. -/
theorem pay4_apply (x0 : Vec Ideal S5120x128 .f32) (r : Fin 5120) :
    k0_pay4 (F := Ideal) x0 (ix2 r (0 : Fin 1)) = rowSq x0 r := by
  unfold k0_pay4
  refine (shapeCast_apply _ shapeCasts_S5120_S5120x1 (ix2 r (0 : Fin 1)) (ix1 r) (by
    rw [Shape.rowMajor_val_one, Shape.rowMajor_val_two]
    show r.val = r.val * 1 + 0
    omega)).trans ?_
  refine (Ideal.multiReduction_add_single _ 0x00000000#32 reduces_S5120x128_S5120 (.inl rfl) rfl (ix1 r)).trans ?_
  unfold rowSq
  refine Finset.sum_congr rfl fun k _ => ?_
  rw [lift_row r k, pay3_eq]
  rfl

/-- The reciprocal root column reads row r's. -/
theorem pay5_apply (x0 : Vec Ideal S5120x128 .f32) (r : Fin 5120) :
    k0_pay5 (F := Ideal) x0 (ix2 r (0 : Fin 1)) = inv x0 r := by
  unfold k0_pay5
  show Ideal.rsqrt (max (k0_pay4 (F := Ideal) x0 (ix2 r (0 : Fin 1))) _) = _
  rw [pay4_apply]
  rfl

/-! ## The zero-one matrix -/

/-- A word compared for equality, widened and converted, is one or zero. -/
theorem hot_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · have e : IntOp.cmpi .eq a b = 1#1 := by simp [IntOp.cmpi, h]
    rw [if_pos h, e]
    have : ((1#1 : BitVec 1).setWidth 32).toInt = 1 := by decide
    rw [this]
    simp
  · have e : IntOp.cmpi .eq a b = 0#1 := by
      show BitVec.ofBool (a == b) = 0#1
      rw [beq_eq_false_iff_ne.mpr h]
      rfl
    rw [if_neg h, e]
    have : ((0#1 : BitVec 1).setWidth 32).toInt = 0 := by decide
    rw [this]
    simp

/-- The comparison matrix reads, at (r, g), whether row r's score word is g. -/
theorem pay6_apply (s0 : Vec Ideal S5120x1 .i32) (r : Fin 5120) (g : Fin 16) :
    k0_pay6 (F := Ideal) s0 (ix2 r g) = hot s0 r g := by
  unfold k0_pay6 hot
  refine Eq.trans ?_ (hot_word _ _)
  show FloatOps.sitofp (F := Ideal) .f32 ((IntOp.cmpi .eq
      (broadcastTo S5120x16 (shapeCast S5120x1 s0 shapeCasts_S5120x1_S5120x1) broadcasts_S5120x1_S5120x16 (ix2 r g))
      (iota .tc S5120x16 32 [1] iota_S5120x16_d1_w32 (ix2 r g))).setWidth 32) = _
  rw [iota_single_apply, shapeCast_self,
    broadcastTo_apply s0 broadcasts_S5120x1_S5120x16 (ix2 r g) (ix2 r (0 : Fin 1)) (fun a => by
      match a with
      | ⟨0, _⟩ => rfl
      | ⟨1, _⟩ => rfl)]

/-! ## The two contractions over the rows -/

/-- The left operand's index: its row is the contracted coordinate … -/
theorem lhsA_0 (i : S16x128.Idx) (q : dot_S5120x16_S5120x128_S16x128_0_0_1_1_n_n.contr.Idx) :
    (dot_S5120x16_S5120x128_S16x128_0_0_1_1_n_n.lhsIdx i q 0).val = (q ⟨0, by decide⟩).val :=
  dot_S5120x16_S5120x128_S16x128_0_0_1_1_n_n.lhsIdx_val_of_single rfl i q
/-- … and its column the result's row. -/
theorem lhsA_1 (i : S16x128.Idx) (q : dot_S5120x16_S5120x128_S16x128_0_0_1_1_n_n.contr.Idx) :
    (dot_S5120x16_S5120x128_S16x128_0_0_1_1_n_n.lhsIdx i q 1).val = (i 0).val := by
  unfold DotDims.lhsIdx
  rw [dif_neg (show ¬(1 : Fin S5120x16.rank) ∈ dot_S5120x16_S5120x128_S16x128_0_0_1_1_n_n.lhsBatch by decide),
    dif_pos (show (1 : Fin S5120x16.rank) ∈ dot_S5120x16_S5120x128_S16x128_0_0_1_1_n_n.lhsNonContracting by decide)]
  rfl
/-- The right operand's index: its row is the contracted coordinate … -/
theorem rhsA_0 (i : S16x128.Idx) (q : dot_S5120x16_S5120x128_S16x128_0_0_1_1_n_n.contr.Idx) :
    (dot_S5120x16_S5120x128_S16x128_0_0_1_1_n_n.rhsIdx i q 0).val = (q ⟨0, by decide⟩).val :=
  dot_S5120x16_S5120x128_S16x128_0_0_1_1_n_n.rhsIdx_val_of_single rfl i q
/-- … and its column the result's column. -/
theorem rhsA_1 (i : S16x128.Idx) (q : dot_S5120x16_S5120x128_S16x128_0_0_1_1_n_n.contr.Idx) :
    (dot_S5120x16_S5120x128_S16x128_0_0_1_1_n_n.rhsIdx i q 1).val = (i 1).val := by
  unfold DotDims.rhsIdx
  rw [dif_neg (show ¬(1 : Fin S5120x128.rank) ∈ dot_S5120x16_S5120x128_S16x128_0_0_1_1_n_n.rhsBatch by decide),
    dif_pos (show (1 : Fin S5120x128.rank) ∈ dot_S5120x16_S5120x128_S16x128_0_0_1_1_n_n.rhsNonContracting by decide)]
  rfl

/-- The contraction into zero of a 5120 × 16 matrix with a 5120 × 128 matrix over the rows, at (g, k). -/
theorem matmulA_apply (L : FVec Ideal S5120x16 .f32) (R : FVec Ideal S5120x128 .f32) (g : Fin 16) (k : Fin 128) :
    matmul dot_S5120x16_S5120x128_S16x128_0_0_1_1_n_n none L R (constant (F := Ideal) S16x128 .f32 0x00000000#32) (ix2 g k)
      = ∑ r : Fin 5120, L (ix2 r g) * R (ix2 r k) := by
  show FloatOps.matmul dot_S5120x16_S5120x128_S16x128_0_0_1_1_n_n none L R _ (ix2 g k) = _
  rw [Ideal.matmul_constant_zero_apply,
    ← Equiv.sum_comp (contrEquiv1 dot_S5120x16_S5120x128_S16x128_0_0_1_1_n_n 5120 rfl rfl).symm]
  refine Finset.sum_congr rfl fun r _ => ?_
  have hk := contrEquiv1_symm_val dot_S5120x16_S5120x128_S16x128_0_0_1_1_n_n 5120 rfl rfl r
  have el : dot_S5120x16_S5120x128_S16x128_0_0_1_1_n_n.lhsIdx (ix2 g k)
      ((contrEquiv1 dot_S5120x16_S5120x128_S16x128_0_0_1_1_n_n 5120 rfl rfl).symm r) = ix2 r g :=
    funext fun a => Fin.ext (by
      match a with
      | ⟨0, _⟩ => exact (lhsA_0 _ _).trans hk
      | ⟨1, _⟩ => exact lhsA_1 _ _)
  have er : dot_S5120x16_S5120x128_S16x128_0_0_1_1_n_n.rhsIdx (ix2 g k)
      ((contrEquiv1 dot_S5120x16_S5120x128_S16x128_0_0_1_1_n_n 5120 rfl rfl).symm r) = ix2 r k :=
    funext fun a => Fin.ext (by
      match a with
      | ⟨0, _⟩ => exact (rhsA_0 _ _).trans hk
      | ⟨1, _⟩ => exact rhsA_1 _ _)
  rw [el, er]

/-- The same for the 5120 × 2 right operand: the left operand's row is the contracted coordinate … -/
theorem lhsB_0 (i : S16x2.Idx) (q : dot_S5120x16_S5120x2_S16x2_0_0_1_1_n_n.contr.Idx) :
    (dot_S5120x16_S5120x2_S16x2_0_0_1_1_n_n.lhsIdx i q 0).val = (q ⟨0, by decide⟩).val :=
  dot_S5120x16_S5120x2_S16x2_0_0_1_1_n_n.lhsIdx_val_of_single rfl i q
/-- … its column the result's row … -/
theorem lhsB_1 (i : S16x2.Idx) (q : dot_S5120x16_S5120x2_S16x2_0_0_1_1_n_n.contr.Idx) :
    (dot_S5120x16_S5120x2_S16x2_0_0_1_1_n_n.lhsIdx i q 1).val = (i 0).val := by
  unfold DotDims.lhsIdx
  rw [dif_neg (show ¬(1 : Fin S5120x16.rank) ∈ dot_S5120x16_S5120x2_S16x2_0_0_1_1_n_n.lhsBatch by decide),
    dif_pos (show (1 : Fin S5120x16.rank) ∈ dot_S5120x16_S5120x2_S16x2_0_0_1_1_n_n.lhsNonContracting by decide)]
  rfl
/-- … the right operand's row the contracted coordinate … -/
theorem rhsB_0 (i : S16x2.Idx) (q : dot_S5120x16_S5120x2_S16x2_0_0_1_1_n_n.contr.Idx) :
    (dot_S5120x16_S5120x2_S16x2_0_0_1_1_n_n.rhsIdx i q 0).val = (q ⟨0, by decide⟩).val :=
  dot_S5120x16_S5120x2_S16x2_0_0_1_1_n_n.rhsIdx_val_of_single rfl i q
/-- … and its column the result's column. -/
theorem rhsB_1 (i : S16x2.Idx) (q : dot_S5120x16_S5120x2_S16x2_0_0_1_1_n_n.contr.Idx) :
    (dot_S5120x16_S5120x2_S16x2_0_0_1_1_n_n.rhsIdx i q 1).val = (i 1).val := by
  unfold DotDims.rhsIdx
  rw [dif_neg (show ¬(1 : Fin S5120x2.rank) ∈ dot_S5120x16_S5120x2_S16x2_0_0_1_1_n_n.rhsBatch by decide),
    dif_pos (show (1 : Fin S5120x2.rank) ∈ dot_S5120x16_S5120x2_S16x2_0_0_1_1_n_n.rhsNonContracting by decide)]
  rfl

/-- The contraction into zero of a 5120 × 16 matrix with a 5120 × 2 matrix over the rows, at (g, c). -/
theorem matmulB_apply (L : FVec Ideal S5120x16 .f32) (R : FVec Ideal S5120x2 .f32) (g : Fin 16) (c : Fin 2) :
    matmul dot_S5120x16_S5120x2_S16x2_0_0_1_1_n_n none L R (constant (F := Ideal) S16x2 .f32 0x00000000#32) (ix2 g c)
      = ∑ r : Fin 5120, L (ix2 r g) * R (ix2 r c) := by
  show FloatOps.matmul dot_S5120x16_S5120x2_S16x2_0_0_1_1_n_n none L R _ (ix2 g c) = _
  rw [Ideal.matmul_constant_zero_apply,
    ← Equiv.sum_comp (contrEquiv1 dot_S5120x16_S5120x2_S16x2_0_0_1_1_n_n 5120 rfl rfl).symm]
  refine Finset.sum_congr rfl fun r _ => ?_
  have hk := contrEquiv1_symm_val dot_S5120x16_S5120x2_S16x2_0_0_1_1_n_n 5120 rfl rfl r
  have el : dot_S5120x16_S5120x2_S16x2_0_0_1_1_n_n.lhsIdx (ix2 g c)
      ((contrEquiv1 dot_S5120x16_S5120x2_S16x2_0_0_1_1_n_n 5120 rfl rfl).symm r) = ix2 r g :=
    funext fun a => Fin.ext (by
      match a with
      | ⟨0, _⟩ => exact (lhsB_0 _ _).trans hk
      | ⟨1, _⟩ => exact lhsB_1 _ _)
  have er : dot_S5120x16_S5120x2_S16x2_0_0_1_1_n_n.rhsIdx (ix2 g c)
      ((contrEquiv1 dot_S5120x16_S5120x2_S16x2_0_0_1_1_n_n 5120 rfl rfl).symm r) = ix2 r c :=
    funext fun a => Fin.ext (by
      match a with
      | ⟨0, _⟩ => exact (rhsB_0 _ _).trans hk
      | ⟨1, _⟩ => exact rhsB_1 _ _)
  rw [el, er]

/-! ## The two columns side by side -/

/-- Two columns set side by side read the first at column 0 … -/
theorem concat_col0 (u v : FVec Ideal S5120x1 .f32) (r : Fin 5120) :
    concatenate S5120x2 1 [⟨S5120x1, u⟩, ⟨S5120x1, v⟩] concatenates_S5120x1_S5120x1_S5120x2_d1 (ix2 r (0 : Fin 2))
      = u (ix2 r (0 : Fin 1)) :=
  concatenate_pair_apply_left (t := S5120x2) (s₁ := S5120x1) (s₂ := S5120x1) (1 : Fin 2) u v
    concatenates_S5120x1_S5120x1_S5120x2_d1 (ix2 r (0 : Fin 2)) rfl (ix2 r (0 : Fin 1)) (fun b => by
      match b with
      | ⟨0, _⟩ => rfl
      | ⟨1, _⟩ => rfl)
/-- … and the second at column 1. -/
theorem concat_col1 (u v : FVec Ideal S5120x1 .f32) (r : Fin 5120) :
    concatenate S5120x2 1 [⟨S5120x1, u⟩, ⟨S5120x1, v⟩] concatenates_S5120x1_S5120x1_S5120x2_d1 (ix2 r (1 : Fin 2))
      = v (ix2 r (0 : Fin 1)) :=
  concatenate_pair_apply_right (t := S5120x2) (s₁ := S5120x1) (s₂ := S5120x1) (1 : Fin 2) u v
    concatenates_S5120x1_S5120x1_S5120x2_d1 (ix2 r (1 : Fin 2)) rfl rfl (ix2 r (0 : Fin 1)) (fun b hb => by
      match b with
      | ⟨0, _⟩ => rfl
      | ⟨1, _⟩ => exact absurd rfl hb) rfl

/-! ## The payloads -/

/-- The word of the number one. -/
theorem one_word : Ideal.ofBits .f32 0x3F800000#32 = 1 := by
  simp [Ideal.ofBits, Ideal.ieee, -EReal.coe_mul]; norm_num

/-- THE FEATURE BLOCK'S PAYLOAD at (0, g, k): what the block holds plus, over the rows of score g, feature k scaled by
    the row's reciprocal root. -/
theorem pay7_apply (x0 : Vec Ideal S5120x128 .f32) (s0 : Vec Ideal S5120x1 .i32) (acc2 : Vec Ideal S1x16x128 .f32)
    (g : Fin 16) (k : Fin 128) :
    k0_pay7 (F := Ideal) x0 s0 acc2 (ix3 (0 : Fin 1) g k)
      = acc2 (ix3 (0 : Fin 1) g k) + ∑ r : Fin 5120, hot s0 r g * (x0 (ix2 r k) * inv x0 r) := by
  unfold k0_pay7
  refine congrArg₂ (· + ·) (congrFun (shapeCast_self acc2 _) _) ?_
  refine (shapeCast_ab_1ab_apply _ shapeCasts_S16x128_S1x16x128 (0 : Fin 1) g k).trans ?_
  refine (matmulA_apply _ _ g k).trans (Finset.sum_congr rfl fun r _ => ?_)
  refine congrArg₂ (· * ·) (pay6_apply s0 r g) ?_
  refine congrArg₂ (· * ·) (congrFun (pay3_eq x0) _) ?_
  exact (broadcastTo_apply _ broadcasts_S5120x1_S5120x128 (ix2 r k) (ix2 r (0 : Fin 1)) (fun a => by
    match a with
    | ⟨0, _⟩ => rfl
    | ⟨1, _⟩ => rfl)).trans (pay5_apply x0 r)

/-- The second block's payload at (0, g, c), the two columns not yet read. -/
theorem pay8_col (x0 : Vec Ideal S5120x128 .f32) (s0 : Vec Ideal S5120x1 .i32) (acc3 : Vec Ideal S1x16x2 .f32)
    (g : Fin 16) (c : Fin 2) :
    k0_pay8 (F := Ideal) x0 s0 acc3 (ix3 (0 : Fin 1) g c)
      = acc3 (ix3 (0 : Fin 1) g c) + ∑ r : Fin 5120, hot s0 r g *
          concatenate S5120x2 1
            [⟨S5120x1, broadcast S5120x1 (Scalar.ofBits (F := Ideal) .f32 0x3F800000#32)⟩,
             ⟨S5120x1, mulf (mulf (k0_pay4 (F := Ideal) x0) (k0_pay5 (F := Ideal) x0)) (k0_pay5 (F := Ideal) x0)⟩]
            concatenates_S5120x1_S5120x1_S5120x2_d1 (ix2 r c) := by
  unfold k0_pay8
  refine congrArg₂ (· + ·) (congrFun (shapeCast_self acc3 _) _) ?_
  refine (shapeCast_ab_1ab_apply _ shapeCasts_S16x2_S1x16x2 (0 : Fin 1) g c).trans ?_
  refine (matmulB_apply _ _ g c).trans (Finset.sum_congr rfl fun r _ => ?_)
  exact congrArg₂ (· * ·) (pay6_apply s0 r g) rfl

/-- THE SECOND BLOCK'S PAYLOAD at (0, g, 0): what the block holds plus the number of rows of score g. -/
theorem pay8_apply0 (x0 : Vec Ideal S5120x128 .f32) (s0 : Vec Ideal S5120x1 .i32) (acc3 : Vec Ideal S1x16x2 .f32)
    (g : Fin 16) :
    k0_pay8 (F := Ideal) x0 s0 acc3 (ix3 (0 : Fin 1) g (0 : Fin 2))
      = acc3 (ix3 (0 : Fin 1) g (0 : Fin 2)) + ∑ r : Fin 5120, hot s0 r g * 1 := by
  rw [pay8_col]
  refine congrArg (acc3 (ix3 (0 : Fin 1) g (0 : Fin 2)) + ·) (Finset.sum_congr rfl fun r _ => ?_)
  rw [concat_col0]
  exact congrArg (hot s0 r g * ·) one_word

/-- THE SECOND BLOCK'S PAYLOAD at (0, g, 1): what the block holds plus, over the rows of score g, the sum of squares
    times the reciprocal root twice. -/
theorem pay8_apply1 (x0 : Vec Ideal S5120x128 .f32) (s0 : Vec Ideal S5120x1 .i32) (acc3 : Vec Ideal S1x16x2 .f32)
    (g : Fin 16) :
    k0_pay8 (F := Ideal) x0 s0 acc3 (ix3 (0 : Fin 1) g (1 : Fin 2))
      = acc3 (ix3 (0 : Fin 1) g (1 : Fin 2)) + ∑ r : Fin 5120, hot s0 r g * (rowSq x0 r * inv x0 r * inv x0 r) := by
  rw [pay8_col]
  refine congrArg (acc3 (ix3 (0 : Fin 1) g (1 : Fin 2)) + ·) (Finset.sum_congr rfl fun r _ => ?_)
  rw [concat_col1]
  show hot s0 r g * (k0_pay4 (F := Ideal) x0 (ix2 r (0 : Fin 1)) * k0_pay5 (F := Ideal) x0 (ix2 r (0 : Fin 1))
    * k0_pay5 (F := Ideal) x0 (ix2 r (0 : Fin 1))) = _
  rw [pay4_apply, pay5_apply]

/-- The two blocks written at the first step of a sweep are zero everywhere. -/
theorem pay1_apply (j : S1x16x128.Idx) : k0_pay1 (F := Ideal) j = (0 : EReal) := by
  unfold k0_pay1
  exact Ideal.ofBits_zero_f32
theorem pay2_apply (j : S1x16x2.Idx) : k0_pay2 (F := Ideal) j = (0 : EReal) := by
  unfold k0_pay2
  exact Ideal.ofBits_zero_f32

end Cert.KernelIdeal.HandValue

end
-- ==== Proof.KI.Padded.lean ====
/-
  The two arrays the kernel's region reads, entry by entry.

  Before the region the program lays 1760 extra rows under each input: under the [500000 × 128] feature array, rows
  of the zero word, which denotes the real number 0; under the 500000 scores, copies of the all-ones word (−1 read
  signed), and the padded scores are then kept as a [501760 × 1] column. A concatenation along the rows reads, at a
  row below 500000, the first piece at that row, and at a later row the second piece 500000 rows up; a constant
  broadcast reads the constant everywhere; the column's entry (p, 0) sits at the same row-major position p as entry p
  of the vector it reshapes. Neither argument is written by these operations.
-/
import proofs.«421733_j6923487282636_2_alg».proof.Proof.KI.Runs
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The padded feature array, whole: the features with 1760 rows of the zero word's value below them. -/
theorem padX_whole (c : Dev nD) :
    (StableHlo.after (List.flatten [hostOps0 (F := Ideal)]) (fun b => m (c, b)) (Proc.devRef .tc main_v2) : S501760x128.Idx → EReal)
      = concatenate S501760x128 0 [⟨S500000x128, (m ((c : Thread nD τ).loc main_arg0) : S500000x128.Idx → EReal)⟩,
          ⟨S1760x128, broadcastInDim S1760x128 ![] bcast_S_S1760x128 (constant (F := Ideal) S_ .f32 0x00000000#32)⟩]
          concatenates_S500000x128_S1760x128_S501760x128_d0 := by
  simp only [hostOps0, List.flatten_cons, List.flatten_nil, List.append_nil]
  after_results

/-- The padded score column, whole. -/
theorem padS_whole (c : Dev nD) :
    (StableHlo.after (List.flatten [hostOps0 (F := Ideal)]) (fun b => m (c, b)) (Proc.devRef .tc main_v4) : S501760x1.Idx → BitVec 32)
      = shapeCast S501760x1 (concatenate S501760 0 [⟨S500000, (m ((c : Thread nD τ).loc main_arg1) : S500000.Idx → BitVec 32)⟩,
          ⟨S1760, broadcastInDim S1760 ![] bcast_S_S1760 (constantI S_ 32 4294967295#32)⟩]
          concatenates_S500000_S1760_S501760_d0) shapeCasts_S501760_S501760x1 := by
  simp only [hostOps0, List.flatten_cons, List.flatten_nil, List.append_nil]
  after_results
  rfl

/-- THE PADDED FEATURES AT AN ENTRY: row p below 500000 is the feature row p; the 1760 rows after are zero. -/
theorem padX_after (c : Dev nD) (p : Fin 501760) (k : Fin 128) :
    (StableHlo.after (List.flatten [hostOps0 (F := Ideal)]) (fun b => m (c, b)) (Proc.devRef .tc main_v2) : S501760x128.Idx → EReal) (ix2 p k)
      = if h : p.val < 500000 then (m ((c : Thread nD τ).loc main_arg0) : S500000x128.Idx → EReal) (ix2 ⟨p.val, h⟩ k) else (0 : EReal) := by
  rw [padX_whole]
  by_cases h : p.val < 500000
  · rw [dif_pos h]
    exact concatenate_pair_apply_left (t := S501760x128) (s₁ := S500000x128) (s₂ := S1760x128) (0 : Fin 2) _ _ _ (ix2 p k) rfl (ix2 (⟨p.val, h⟩ : Fin 500000) k)
      (fun b => match b with | ⟨0, _⟩ => rfl | ⟨1, _⟩ => rfl)
  · rw [dif_neg h]
    obtain ⟨q, hq⟩ : ∃ q : ℕ, p.val = 500000 + q := ⟨p.val - 500000, by omega⟩
    have hq' : q < 1760 := by have hp := p.isLt; omega
    refine (concatenate_pair_apply_right (t := S501760x128) (s₁ := S500000x128) (s₂ := S1760x128) (0 : Fin 2) _ _ _ (ix2 p k) rfl rfl
      (ix2 (⟨q, hq'⟩ : Fin 1760) k) ?_ ?_).trans ?_
    · intro b hb
      match b, hb with
      | ⟨0, _⟩, hb => exact absurd rfl hb
      | ⟨1, _⟩, _ => rfl
    · show q + 500000 = p.val
      omega
    · exact Ideal.ofBits_zero_f32

/-- THE PADDED SCORES AT A ROW: row p below 500000 holds score p; the 1760 rows after hold the all-ones word (−1 signed). -/
theorem padS_after (c : Dev nD) (p : Fin 501760) :
    (StableHlo.after (List.flatten [hostOps0 (F := Ideal)]) (fun b => m (c, b)) (Proc.devRef .tc main_v4) : S501760x1.Idx → BitVec 32) (ix2 p (0 : Fin 1))
      = if h : p.val < 500000 then (m ((c : Thread nD τ).loc main_arg1) : S500000.Idx → BitVec 32) (ix1 ⟨p.val, h⟩) else 4294967295#32 := by
  rw [padS_whole]
  refine (shapeCast_apply _ _ (ix2 p (0 : Fin 1)) (ix1 p) (by
    rw [Shape.rowMajor_val_one, Shape.rowMajor_val_two]; show p.val = p.val * 1 + 0; omega)).trans ?_
  by_cases h : p.val < 500000
  · rw [dif_pos h]
    exact concatenate_pair_apply_left (t := S501760) (s₁ := S500000) (s₂ := S1760) (0 : Fin 1) _ _ _ (ix1 p) rfl (ix1 (⟨p.val, h⟩ : Fin 500000))
      (fun b => match b with | ⟨0, _⟩ => rfl)
  · rw [dif_neg h]
    obtain ⟨q, hq⟩ : ∃ q : ℕ, p.val = 500000 + q := ⟨p.val - 500000, by omega⟩
    have hq' : q < 1760 := by have hp := p.isLt; omega
    refine concatenate_pair_apply_right (t := S501760) (s₁ := S500000) (s₂ := S1760) (0 : Fin 1) _ _ _ (ix1 p) rfl rfl
      (ix1 (⟨q, hq'⟩ : Fin 1760)) ?_ ?_
    · intro b hb
      match b, hb with
      | ⟨0, _⟩, hb => exact absurd rfl hb
    · show q + 500000 = p.val
      omega

/-- The host operations before the region write neither argument. -/
theorem after_arg0 (c : Dev nD) :
    StableHlo.after (List.flatten [hostOps0 (F := Ideal)]) (fun b => m (c, b)) (Proc.devRef .tc main_arg0) = m ((c : Thread nD τ).loc main_arg0) := by
  simp only [hostOps0, List.flatten_cons, List.flatten_nil, List.append_nil]
  after_results

/-- Likewise the score argument. -/
theorem after_arg1 (c : Dev nD) :
    StableHlo.after (List.flatten [hostOps0 (F := Ideal)]) (fun b => m (c, b)) (Proc.devRef .tc main_arg1) = m ((c : Thread nD τ).loc main_arg1) := by
  simp only [hostOps0, List.flatten_cons, List.flatten_nil, List.append_nil]
  after_results

/-! ## The same, over the contents the region is entered with -/

/-- The padded features the region finds, at an entry. -/
theorem padX_apply (c : Dev nD) (p : Fin 501760) (k : Fin 128) :
    (V (F := Ideal) m c main_v2 : S501760x128.Idx → EReal) (ix2 p k)
      = if h : p.val < 500000 then (m ((c : Thread nD τ).loc main_arg0) : S500000x128.Idx → EReal) (ix2 ⟨p.val, h⟩ k) else (0 : EReal) :=
  padX_after m c p k

/-- The padded scores the region finds, at a row. -/
theorem padS_apply (c : Dev nD) (p : Fin 501760) :
    (V (F := Ideal) m c main_v4 : S501760x1.Idx → BitVec 32) (ix2 p (0 : Fin 1))
      = if h : p.val < 500000 then (m ((c : Thread nD τ).loc main_arg1) : S500000.Idx → BitVec 32) (ix1 ⟨p.val, h⟩) else 4294967295#32 :=
  padS_after m c p

end Cert.KernelIdeal.HandValue

end
-- ==== Proof.Spec.lean ====
/-
  The common value of the two programs, as one function of the feature array and the score array.

  Each row is divided by its Euclidean norm, the norm floored at a small positive number. For each score value
  g in 0..15 the rows of that score are counted, and their normalised features and their squared normalised norms
  are summed. The score values that occur are renumbered 0, 1, 2, … in increasing order, and the three families of
  sums are regrouped under the new numbers. The loss is, over consecutive triples of groups (i, i+1, i+2) that all
  exist, the sum of  m₂·(m₁ + m₃) − m₁·m₃ − q₂  (m the group's mean feature, q its mean squared norm), divided by
  the number of groups less two.
-/
import Idealize.ShloMosaic.PureOps
import Idealize.ShloMosaic.PureOps.Ideal
import Idealize.ShloMosaic.Lib.ValueIdx

open scoped BigOperators

noncomputable section

namespace Cert.Spec

open Idealize.ShloMosaic Idealize.ShloMosaic.ValueIdx

abbrev S_ : Shape := ⟨0, ![]⟩
abbrev S16 : Shape := ⟨1, ![16]⟩
abbrev S16x1 : Shape := ⟨2, ![16, 1]⟩
abbrev S16x128 : Shape := ⟨2, ![16, 128]⟩
abbrev S14 : Shape := ⟨1, ![14]⟩
abbrev S14x128 : Shape := ⟨2, ![14, 128]⟩
abbrev SB : Shape := ⟨1, ![500000]⟩
abbrev SBx128 : Shape := ⟨2, ![500000, 128]⟩

/-! ## The stages both programs share, as each writes them -/

section Stages

variable {F : FTy → Type} [FloatOps F]

/-- Which score values occur: those whose raw count is positive. -/
def present (rc : FVec F S16 .f32) : IVec S16 1 :=
  cmpf .ogt rc (broadcastInDim S16 ![] (by decide) (constant S_ .f32 0x00000000#32))

/-- The new number of each score value: the count of occurring values up to and including it, less one
    (a running sum written as a window of sixteen over the values padded fifteen low). -/
def remap (rc : FVec F S16 .f32) : IVec S16 32 :=
  subi
    (Host.reduceWindow IntOp.addi ![16] ![1] ![15] ![0] (extui 32 (present rc) (by decide))
      (broadcastInDim S_ ![] (by decide) (constantI S_ 32 0#32))
      (by decide : S16.ReduceWindows (![16] : Fin 1 → Nat) ![1] ![15] ![0] S16) (by decide : 0 < S_.numel))
    (broadcastInDim S16 ![] (by decide) (constantI S_ 32 1#32))

/-- How many score values occur. -/
def nGroups (rc : FVec F S16 .f32) : IVec S_ 32 :=
  Host.reduce IntOp.addi (extui 32 (present rc) (by decide)) (constantI S_ 32 0#32)
    (by decide : S16.ReducesTo [0] S_) (by decide : 0 < S_.numel)

/-- The closing formula, from the regrouped counts, feature sums and squared-norm sums and the number of groups:
    the means (sums over the count floored at one), the term of each consecutive triple, the terms of the triples
    whose last group exists summed, over the number of groups less two. -/
def finish (cnt : FVec F S16 .f32) (gs : FVec F S16x128 .f32) (sq : FVec F S16 .f32) (U : IVec S_ 32) : FVec F S_ .f32 :=
  let den : FVec F S16 .f32 := maximumf cnt (broadcastInDim S16 ![] (by decide) (constant S_ .f32 0x3F800000#32))
  let means : FVec F S16x128 .f32 :=
    Host.divf gs (broadcastInDim S16x128 ![0, 1] (by decide) (broadcastInDim S16x1 ![0] (by decide) den))
  let msq : FVec F S16 .f32 := Host.divf sq den
  let m1 : FVec F S14x128 .f32 := extractStridedSlice S14x128 ![0, 0] means (by decide)
  let m2 : FVec F S14x128 .f32 := extractStridedSlice S14x128 ![1, 0] means (by decide)
  let m3 : FVec F S14x128 .f32 := extractStridedSlice S14x128 ![2, 0] means (by decide)
  let terms : FVec F S14 .f32 :=
    subf
      (Host.reduceAdd (subf (mulf m2 (addf m1 m3)) (mulf m1 m3)) (constant S_ .f32 0x00000000#32)
        (by decide : S14x128.ReducesTo [1] S14) (by decide : 0 < S_.numel))
      (extractStridedSlice S14 ![1] msq (by decide))
  let valid : IVec S14 1 :=
    cmpi .slt (addi (iotaInDim S14 32 0) (broadcastInDim S14 ![] (by decide) (constantI S_ 32 2#32)))
      (broadcastInDim S14 ![] (by decide) U)
  let kept : FVec F S14 .f32 :=
    select valid terms (broadcastInDim S14 ![] (by decide) (constant S_ .f32 0x00000000#32))
  Host.divf
    (Host.reduceAdd kept (constant S_ .f32 0x00000000#32) (by decide : S14.ReducesTo [0] S_) (by decide : 0 < S_.numel))
    (sitofp .f32 (subi U (constantI S_ 32 2#32)))

end Stages

/-! ## Rows, scores and sums, over the extended reals -/

/-- The floor on a row's norm: the single-precision number nearest 1e-12, exactly 2305843 / 2^61. -/
def floorD : EReal := Ideal.ofBits .f32 0x2B8CBCCC#32

/-- The sum of the squares of row e. -/
def sumSq (x : SBx128.Idx → EReal) (e : Fin 500000) : EReal := ∑ k : Fin 128, x (ix2 e k) * x (ix2 e k)

/-- The floored norm of row e. -/
def rowNorm (x : SBx128.Idx → EReal) (e : Fin 500000) : EReal := max (Ideal.sqrt (sumSq x e)) floorD

/-- Entry k of row e normalised. -/
def unitF (x : SBx128.Idx → EReal) (e : Fin 500000) (k : Fin 128) : EReal := Ideal.div (x (ix2 e k)) (rowNorm x e)

/-- The squared norm of row e normalised. -/
def unitSq (x : SBx128.Idx → EReal) (e : Fin 500000) : EReal := ∑ k : Fin 128, unitF x e k * unitF x e k

/-- Row e has score g: its score word read as a signed integer is g. -/
def hasScore (s : SB.Idx → BitVec 32) (e : Fin 500000) (g : Nat) : Prop := (s (ix1 e)).toInt = (g : Int)

instance (s : SB.Idx → BitVec 32) (e : Fin 500000) (g : Nat) : Decidable (hasScore s e g) := by
  unfold hasScore; infer_instance

/-- How many rows have score g. -/
def cnt (s : SB.Idx → BitVec 32) (g : Fin 16) : EReal :=
  ∑ _e ∈ Finset.univ.filter (fun e : Fin 500000 => hasScore s e g.val), (1 : EReal)

/-- Column k of the normalised rows of score g, summed. -/
def featSum (x : SBx128.Idx → EReal) (s : SB.Idx → BitVec 32) (g : Fin 16) (k : Fin 128) : EReal :=
  ∑ e ∈ Finset.univ.filter (fun e : Fin 500000 => hasScore s e g.val), unitF x e k

/-- The squared norms of the normalised rows of score g, summed. -/
def sqSum (x : SBx128.Idx → EReal) (s : SB.Idx → BitVec 32) (g : Fin 16) : EReal :=
  ∑ e ∈ Finset.univ.filter (fun e : Fin 500000 => hasScore s e g.val), unitSq x e

/-- The three families as arrays over the score values. -/
def cntV (s : SB.Idx → BitVec 32) : FVec Ideal S16 .f32 := fun i => cnt s (i 0)
def featV (x : SBx128.Idx → EReal) (s : SB.Idx → BitVec 32) : FVec Ideal S16x128 .f32 := fun i => featSum x s (i 0) (i 1)
def sqV (x : SBx128.Idx → EReal) (s : SB.Idx → BitVec 32) : FVec Ideal S16 .f32 := fun i => sqSum x s (i 0)

/-- The new number of score value g, as a signed integer (−1 when no value up to g occurs). -/
def newNo (s : SB.Idx → BitVec 32) (g : Fin 16) : Int := (remap (F := Ideal) (cntV s) (ix1 g)).toInt

/-- The three families regrouped under the new numbers: group j collects every score value renumbered j. -/
def cntC (s : SB.Idx → BitVec 32) : FVec Ideal S16 .f32 :=
  fun j => ∑ g ∈ Finset.univ.filter (fun g : Fin 16 => newNo s g = (((j 0 : Fin 16)).val : Int)), cnt s g
def featC (x : SBx128.Idx → EReal) (s : SB.Idx → BitVec 32) : FVec Ideal S16x128 .f32 :=
  fun j => ∑ g ∈ Finset.univ.filter (fun g : Fin 16 => newNo s g = (((j 0 : Fin 16)).val : Int)), featSum x s g (j 1)
def sqC (x : SBx128.Idx → EReal) (s : SB.Idx → BitVec 32) : FVec Ideal S16 .f32 :=
  fun j => ∑ g ∈ Finset.univ.filter (fun g : Fin 16 => newNo s g = (((j 0 : Fin 16)).val : Int)), sqSum x s g

/-- THE LOSS: the closing formula over the regrouped sums and the number of occurring score values. -/
def loss (x : SBx128.Idx → EReal) (s : SB.Idx → BitVec 32) : FVec Ideal S_ .f32 :=
  finish (F := Ideal) (cntC s) (featC x s) (sqC x s) (nGroups (F := Ideal) (cntV s))

end Cert.Spec

end
-- ==== Proof.Math.Regroup.lean ====
/-
  Regrouping laws for finite sums in a commutative additive monoid.

  A sum over the rows whose score's number is j is the sum, over the score values numbered j, of the sums over the
  rows of each such score. A sum over 2 · 49 · 5120 positions written block by block is the sum over all positions,
  and a summand that vanishes from position 500000 on leaves the sum over the first 500000. A fold that adds one
  term per step from zero is the sum of the terms.
-/
import proofs.«421733_j6923487282636_2_alg».proof.Proof.Spec
import Mathlib.Algebra.BigOperators.Group.Finset.Basic
import Mathlib.Algebra.BigOperators.Fin
import Mathlib.Logic.Equiv.Fin.Basic
import Mathlib.Data.EReal.Basic

open scoped BigOperators

noncomputable section

namespace Cert.Math

open Idealize.ShloMosaic Idealize.ShloMosaic.ValueIdx

/-! ## Regrouping by score -/

/-- The sum over the elements whose score is numbered j, regrouped by score value. -/
theorem sum_regroup {M E G : Type*} [AddCommMonoid M] [Fintype E] [Fintype G] [DecidableEq G]
    (score : E → G) (no : G → Int) (v : E → M) (j : Int) :
    ∑ e ∈ Finset.univ.filter (fun e => no (score e) = j), v e
      = ∑ g ∈ Finset.univ.filter (fun g => no g = j), ∑ e ∈ Finset.univ.filter (fun e => score e = g), v e := by
  rw [← Finset.sum_fiberwise_of_maps_to (s := Finset.univ.filter (fun e => no (score e) = j))
    (t := Finset.univ.filter (fun g => no g = j)) (g := score) (fun e he => by
      simp only [Finset.mem_filter, Finset.mem_univ, true_and] at he ⊢; exact he) v]
  refine Finset.sum_congr rfl (fun g hg => ?_)
  simp only [Finset.mem_filter, Finset.mem_univ, true_and] at hg
  refine Finset.sum_congr ?_ (fun _ _ => rfl)
  ext e
  simp only [Finset.mem_filter, Finset.mem_univ, true_and]
  constructor
  · rintro ⟨_, h⟩; exact h
  · intro h; exact ⟨by rw [h]; exact hg, h⟩

/-- The score of a row as an element of Fin 16, for a score array whose words read as integers in 0..15. -/
def scoreOf (s : Cert.Spec.SB.Idx → BitVec 32)
    (hs : ∀ e : Fin 500000, 0 ≤ (s (ix1 e)).toInt ∧ (s (ix1 e)).toInt < 16) (e : Fin 500000) : Fin 16 :=
  ⟨(s (ix1 e)).toInt.toNat, by have := hs e; omega⟩

/-- Row e has score g exactly when its score is g. -/
theorem hasScore_iff (s : Cert.Spec.SB.Idx → BitVec 32)
    (hs : ∀ e : Fin 500000, 0 ≤ (s (ix1 e)).toInt ∧ (s (ix1 e)).toInt < 16) (e : Fin 500000) (g : Fin 16) :
    Cert.Spec.hasScore s e g.val ↔ scoreOf s hs e = g := by
  unfold Cert.Spec.hasScore scoreOf
  rw [Fin.ext_iff]
  have := hs e
  constructor
  · intro h; simp only; omega
  · intro h; simp only at h; omega

/-- The regrouping law for the score array: the rows whose score's number is j, regrouped by score value. -/
theorem sum_regroup_scores {M : Type*} [AddCommMonoid M] (s : Cert.Spec.SB.Idx → BitVec 32)
    (hs : ∀ e : Fin 500000, 0 ≤ (s (ix1 e)).toInt ∧ (s (ix1 e)).toInt < 16)
    (no : Fin 16 → Int) (v : Fin 500000 → M) (j : Int) :
    ∑ e ∈ Finset.univ.filter (fun e => no (scoreOf s hs e) = j), v e
      = ∑ g ∈ Finset.univ.filter (fun g : Fin 16 => no g = j),
          ∑ e ∈ Finset.univ.filter (fun e : Fin 500000 => Cert.Spec.hasScore s e g.val), v e := by
  rw [sum_regroup (scoreOf s hs) no v j]
  refine Finset.sum_congr rfl (fun g _ => Finset.sum_congr ?_ (fun _ _ => rfl))
  ext e
  simp only [Finset.mem_filter, Finset.mem_univ, true_and]
  exact (hasScore_iff s hs e g).symm

/-! ## Blocks -/

/-- A sum over m · n positions written as m blocks of n. -/
theorem sum_fin_mul {M : Type*} [AddCommMonoid M] (m n : ℕ) (f : Fin (m * n) → M) :
    ∑ a : Fin m, ∑ b : Fin n, f ⟨a.val * n + b.val, by
        have ha := a.isLt; have hb := b.isLt
        calc a.val * n + b.val < a.val * n + n := by omega
          _ = (a.val + 1) * n := by ring
          _ ≤ m * n := Nat.mul_le_mul_right n ha⟩
      = ∑ p : Fin (m * n), f p := by
  rw [← Equiv.sum_comp finProdFinEquiv f, Fintype.sum_prod_type]
  refine Finset.sum_congr rfl (fun a _ => Finset.sum_congr rfl (fun b _ => ?_))
  congr 1
  ext
  simp [finProdFinEquiv]
  ring

/-- THE BLOCK LAW: 2 · 49 blocks of 5120 positions cover the 501760 positions once each. -/
theorem sum_blocks {M : Type*} [AddCommMonoid M] (v : Fin 501760 → M) :
    ∑ cc : Fin 2, ∑ i : Fin 49, ∑ r : Fin 5120,
        v ⟨(cc.val * 49 + i.val) * 5120 + r.val, by have := cc.isLt; have := i.isLt; have := r.isLt; omega⟩
      = ∑ p : Fin 501760, v p := by
  have h1 := sum_fin_mul (2 * 49) 5120 (fun p => v ⟨p.val, by have := p.isLt; omega⟩)
  have h2 := sum_fin_mul 2 49 (fun q : Fin (2 * 49) => ∑ r : Fin 5120,
    v ⟨q.val * 5120 + r.val, by have := q.isLt; have := r.isLt; omega⟩)
  exact h2.trans h1

/-- A summand that vanishes from position m on leaves the sum over the first m positions. -/
theorem sum_fin_add_of_tail_zero {M : Type*} [AddCommMonoid M] (m n : ℕ) (v : Fin (m + n) → M)
    (hz : ∀ p : Fin (m + n), m ≤ p.val → v p = 0) :
    ∑ p : Fin (m + n), v p = ∑ e : Fin m, v ⟨e.val, by have := e.isLt; omega⟩ := by
  rw [Fin.sum_univ_add, Finset.sum_eq_zero (s := Finset.univ) (f := fun i : Fin n => v (Fin.natAdd m i))
    (fun i _ => hz _ (by simp [Fin.natAdd])), add_zero]
  rfl

/-- The padded tail: a summand that vanishes from position 500000 on. -/
theorem sum_drop_tail {M : Type*} [AddCommMonoid M] (v : Fin 501760 → M)
    (hz : ∀ p : Fin 501760, 500000 ≤ p.val → v p = 0) :
    ∑ p : Fin 501760, v p = ∑ e : Fin 500000, v ⟨e.val, by have := e.isLt; omega⟩ :=
  sum_fin_add_of_tail_zero 500000 1760 v hz

/-- Zero times any extended real is zero. -/
theorem ereal_zero_mul (a : EReal) : (0 : EReal) * a = 0 := zero_mul a

/-- Any extended real times zero is zero. -/
theorem ereal_mul_zero (a : EReal) : a * (0 : EReal) = 0 := mul_zero a

/-- A sum of zeros is zero. -/
theorem sum_zeros {M ι : Type*} [AddCommMonoid M] (s : Finset ι) : ∑ _i ∈ s, (0 : M) = 0 := Finset.sum_const_zero

/-! ## A running sum -/

/-- A fold that starts from zero plus the first term and adds one term per step is the sum of the terms. -/
theorem running_sum {M : Type*} [AddCommMonoid M] (a p : ℕ → M) (z : M)
    (h0 : a 0 = z + p 0) (hs : ∀ i, a (i + 1) = a i + p (i + 1)) (hz : z = 0) (n : ℕ) :
    a n = ∑ i ∈ Finset.range (n + 1), p i := by
  induction n with
  | zero => rw [h0, hz, zero_add, Finset.sum_range_one]
  | succ n ih => rw [hs n, ih, Finset.sum_range_succ (n := n + 1)]

end Cert.Math

end
-- ==== Proof.Math.Rows.lean ====
/-
  The row law. A row of 128 finite reals has the sum of its squares S, a nonnegative real. With D = 2305843 / 2^61 > 0
  the floor on the norm, and D² = 5316911940649 / 2^122 the floor on the squared norm,
      max S D² = (max (√S) D)²,
  so the reciprocal square root of the floored squared norm is the reciprocal of the floored norm, a positive real:
  multiplying an entry by the one is dividing it by the other, and S times the one twice is the sum of the squares
  of the divided entries.
-/
import proofs.«421733_j6923487282636_2_alg».proof.Proof.Spec
import Mathlib.Analysis.Real.Sqrt
import Mathlib.Data.EReal.Inv
import Mathlib.Algebra.BigOperators.Group.Finset.Basic

open scoped BigOperators

noncomputable section

namespace Cert.Math

open Idealize.ShloMosaic Idealize.ShloMosaic.ValueIdx

/-! ## The floor -/

/-- The floor on a row's norm is the real 2305843 / 2^61: sign 0, exponent field 87, fraction field 834764, so
    (2^23 + 834764) · 2^(87 − 127 − 23) = 9223372 / 2^63. -/
theorem floorD_eq : Cert.Spec.floorD = ((2305843 / 2305843009213693952 : ℝ) : EReal) := by
  unfold Cert.Spec.floorD
  simp [Ideal.ofBits, Ideal.ieee, -EReal.coe_mul]
  norm_num

/-- Its square is 5316911940649 / 2^122. -/
theorem floorD_sq :
    Cert.Spec.floorD * Cert.Spec.floorD = ((5316911940649 / 5316911983139663491615228241121378304 : ℝ) : EReal) := by
  rw [floorD_eq, ← EReal.coe_mul]
  norm_num

/-! ## Coercions of sums and maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The square root of a maximum with a square of a positive number. -/
theorem sqrt_max_mul_self (σ : ℝ) {D : ℝ} (hD : 0 < D) : Real.sqrt (max σ (D * D)) = max (Real.sqrt σ) D := by
  have hm : Monotone Real.sqrt := fun _ _ h => Real.sqrt_le_sqrt h
  rw [hm.map_max, Real.sqrt_mul_self hD.le]

/-! ## The row law over a row of reals -/

/-- For a row of reals there is one positive real c, the reciprocal of the floored norm, that is both the reciprocal
    square root of the floored squared norm and what division by the floored norm multiplies by. -/
theorem row_inv (xr : Fin 128 → ℝ) {ε : EReal}
    (hε : ε = ((5316911940649 / 5316911983139663491615228241121378304 : ℝ) : EReal)) :
    ∃ c : ℝ, Ideal.rsqrt (max (∑ k, (xr k : EReal) * (xr k : EReal)) ε) = (c : EReal) ∧
      ∀ y : EReal, Ideal.div y (max (Ideal.sqrt (∑ k, (xr k : EReal) * (xr k : EReal))) Cert.Spec.floorD)
        = y * (c : EReal) := by
  have hS : (∑ k, (xr k : EReal) * (xr k : EReal)) = ((∑ k, xr k * xr k : ℝ) : EReal) := by
    rw [coe_sum]; exact Finset.sum_congr rfl (fun k _ => (EReal.coe_mul _ _).symm)
  have hσ : 0 ≤ ∑ k, xr k * xr k := Finset.sum_nonneg (fun k _ => mul_self_nonneg _)
  have hD : (0 : ℝ) < 2305843 / 2305843009213693952 := by norm_num
  have hDD : (5316911940649 / 5316911983139663491615228241121378304 : ℝ)
      = (2305843 / 2305843009213693952) * (2305843 / 2305843009213693952) := by norm_num
  have hm : 0 < max (Real.sqrt (∑ k, xr k * xr k)) (2305843 / 2305843009213693952) := lt_max_of_lt_right hD
  refine ⟨(max (Real.sqrt (∑ k, xr k * xr k)) (2305843 / 2305843009213693952))⁻¹, ?_, ?_⟩
  · have hpos : 0 < max (∑ k, xr k * xr k) ((2305843 / 2305843009213693952) * (2305843 / 2305843009213693952)) :=
      lt_max_of_lt_right (mul_pos hD hD)
    rw [hS, hε, hDD, ← coe_max, Ideal.rsqrt_coe, if_neg (not_lt.mpr hpos.le), if_neg hpos.ne',
      sqrt_max_mul_self _ hD]
  · intro y
    rw [hS, Ideal.sqrt_coe, if_neg (not_lt.mpr hσ), floorD_eq, ← coe_max, Ideal.div_coe hm.ne', one_div]

/-- An entry times the reciprocal square root of the floored squared norm is the entry over the floored norm. -/
theorem row_unit (xr : Fin 128 → ℝ) {ε : EReal}
    (hε : ε = ((5316911940649 / 5316911983139663491615228241121378304 : ℝ) : EReal)) (k : Fin 128) :
    (xr k : EReal) * Ideal.rsqrt (max (∑ k, (xr k : EReal) * (xr k : EReal)) ε)
      = Ideal.div (xr k) (max (Ideal.sqrt (∑ k, (xr k : EReal) * (xr k : EReal))) Cert.Spec.floorD) := by
  obtain ⟨c, hc, hdiv⟩ := row_inv xr hε
  rw [hc, hdiv]

/-- The sum of squares times that reciprocal twice is the sum of the squares of the divided entries. -/
theorem row_unitSq (xr : Fin 128 → ℝ) {ε : EReal}
    (hε : ε = ((5316911940649 / 5316911983139663491615228241121378304 : ℝ) : EReal)) :
    (∑ k, (xr k : EReal) * (xr k : EReal)) * Ideal.rsqrt (max (∑ k, (xr k : EReal) * (xr k : EReal)) ε)
        * Ideal.rsqrt (max (∑ k, (xr k : EReal) * (xr k : EReal)) ε)
      = ∑ k, Ideal.div (xr k) (max (Ideal.sqrt (∑ k, (xr k : EReal) * (xr k : EReal))) Cert.Spec.floorD)
          * Ideal.div (xr k) (max (Ideal.sqrt (∑ k, (xr k : EReal) * (xr k : EReal))) Cert.Spec.floorD) := by
  obtain ⟨c, hc, hdiv⟩ := row_inv xr hε
  have hS : (∑ k, (xr k : EReal) * (xr k : EReal)) = ((∑ k, xr k * xr k : ℝ) : EReal) := by
    rw [coe_sum]; exact Finset.sum_congr rfl (fun k _ => (EReal.coe_mul _ _).symm)
  have hR : (∑ k, Ideal.div (xr k) (max (Ideal.sqrt (∑ k, (xr k : EReal) * (xr k : EReal))) Cert.Spec.floorD)
          * Ideal.div (xr k) (max (Ideal.sqrt (∑ k, (xr k : EReal) * (xr k : EReal))) Cert.Spec.floorD))
      = ((∑ k, (xr k * c) * (xr k * c) : ℝ) : EReal) := by
    rw [coe_sum]
    refine Finset.sum_congr rfl (fun k _ => ?_)
    rw [hdiv, EReal.coe_mul, EReal.coe_mul]
  rw [hR, hc, hS, ← EReal.coe_mul, ← EReal.coe_mul, Finset.sum_mul, Finset.sum_mul]
  congr 1
  exact Finset.sum_congr rfl (fun k _ => by ring)

/-! ## The row law over the feature array -/

/-- A finite row of the array as a row of reals. -/
theorem row_reals (x : Cert.Spec.SBx128.Idx → EReal) (hfin : ∀ i, ∃ r : ℝ, x i = (r : EReal)) (e : Fin 500000) :
    ∃ xr : Fin 128 → ℝ, (∀ k, x (ix2 e k) = (xr k : EReal)) ∧
      Cert.Spec.sumSq x e = ∑ k, (xr k : EReal) * (xr k : EReal) := by
  choose xr hxr using fun k : Fin 128 => hfin (ix2 e k)
  exact ⟨xr, hxr, Finset.sum_congr rfl (fun k _ => by rw [hxr k])⟩

/-- Entry k of row e times the reciprocal square root of the row's floored squared norm is the normalised entry. -/
theorem unitF_eq (x : Cert.Spec.SBx128.Idx → EReal) (hfin : ∀ i, ∃ r : ℝ, x i = (r : EReal)) {ε : EReal}
    (hε : ε = ((5316911940649 / 5316911983139663491615228241121378304 : ℝ) : EReal))
    (e : Fin 500000) (k : Fin 128) :
    x (ix2 e k) * Ideal.rsqrt (max (Cert.Spec.sumSq x e) ε) = Cert.Spec.unitF x e k := by
  obtain ⟨xr, hxr, hS⟩ := row_reals x hfin e
  unfold Cert.Spec.unitF Cert.Spec.rowNorm
  rw [hS, hxr k]
  exact row_unit xr hε k

/-- The squared norm of row e times that reciprocal twice is the squared norm of the normalised row. -/
theorem unitSq_eq (x : Cert.Spec.SBx128.Idx → EReal) (hfin : ∀ i, ∃ r : ℝ, x i = (r : EReal)) {ε : EReal}
    (hε : ε = ((5316911940649 / 5316911983139663491615228241121378304 : ℝ) : EReal)) (e : Fin 500000) :
    Cert.Spec.sumSq x e * Ideal.rsqrt (max (Cert.Spec.sumSq x e) ε) * Ideal.rsqrt (max (Cert.Spec.sumSq x e) ε)
      = Cert.Spec.unitSq x e := by
  obtain ⟨xr, hxr, hS⟩ := row_reals x hfin e
  unfold Cert.Spec.unitSq Cert.Spec.unitF Cert.Spec.rowNorm
  rw [hS]
  simp only [hxr]
  exact row_unitSq xr hε

end Cert.Math

end
-- ==== Proof.KI.Accum.lean ====
/-
  Two pieces of mathematics behind the region's two result arrays.

  THE RUN SUM. A quantity indexed by the points of a grid, reset at the first point of each run of J consecutive
  points and stepped from its predecessor at every other point by adding that point's addend, is at offset j of
  run q the sum of the addends of the run's points up to that offset; at the last offset it is the whole run's sum.

  THE ROW SUMS. Over the 501760 rows of the padded arrays — the 500000 feature rows and score words followed by
  1760 zero rows whose score word is all ones — the rows whose score word is the score value g, each weighted by
  its feature scaled by the reciprocal root of its floored sum of squares, by one, or by its sum of squares times
  that reciprocal root twice, sum to the normalised feature sums, the counts and the squared-norm sums of the
  specification: a padded row is of no score value, and on a real row the scaled feature is the normalised one.
  The same sums written block by block (2 · 49 blocks of 5120 rows) are the sums over all rows.
-/
import proofs.«421733_j6923487282636_2_alg».proof.Proof.Math.Regroup
import proofs.«421733_j6923487282636_2_alg».proof.Proof.Math.Rows
import Mathlib.Algebra.BigOperators.Fin
import Mathlib.Algebra.BigOperators.Intervals

open scoped BigOperators

noncomputable section

namespace Cert.KernelIdeal.HandValue

open Idealize.ShloMosaic Idealize.ShloMosaic.ValueIdx

/-! ## The run sum -/

/-- `f` resets to `0 + M n` at the multiples of `J` and is `f (n - 1) + M n` at every other point: then at point
    `q * J + j` (`j < J`) it is the sum of `M` over the points `q * J … q * J + j`. -/
theorem run_sum {ι β : Type*} [AddCommMonoid β] {N : ℕ} (f : (n : ℕ) → n < N → ι → β) (J : ℕ) (M : ℕ → ι → β)
    (h0 : ∀ (n : ℕ) (h : n < N) (i : ι), n % J = 0 → f n h i = 0 + M n i)
    (hs : ∀ (n : ℕ) (h : n + 1 < N) (i : ι), ¬(n + 1) % J = 0 →
      f (n + 1) h i = f n (Nat.lt_of_succ_lt h) i + M (n + 1) i)
    (q : ℕ) : ∀ (j : ℕ) (_ : j < J) (h : q * J + j < N) (i : ι),
      f (q * J + j) h i = ∑ s ∈ Finset.range (j + 1), M (q * J + s) i
  | 0, _, h, i => by
    rw [h0 _ h i (by rw [Nat.add_zero, Nat.mul_mod_left]), zero_add, Finset.sum_range_one]
  | j + 1, hj, h, i => by
    have hne : ¬(q * J + j + 1) % J = 0 := by
      rw [Nat.add_assoc, Nat.add_comm, Nat.add_mul_mod_self_right, Nat.mod_eq_of_lt hj]; exact Nat.succ_ne_zero j
    rw [Finset.sum_range_succ _ (j + 1), ← run_sum f J M h0 hs q j (Nat.lt_of_succ_lt hj) (Nat.lt_of_succ_lt h) i]
    exact hs (q * J + j) h i hne

/-- The same at the run's last point, the sum taken over the offsets as a finite type. -/
theorem run_sum_last {ι β : Type*} [AddCommMonoid β] {N : ℕ} (f : (n : ℕ) → n < N → ι → β) (J : ℕ) (M : ℕ → ι → β)
    (h0 : ∀ (n : ℕ) (h : n < N) (i : ι), n % J = 0 → f n h i = 0 + M n i)
    (hs : ∀ (n : ℕ) (h : n + 1 < N) (i : ι), ¬(n + 1) % J = 0 →
      f (n + 1) h i = f n (Nat.lt_of_succ_lt h) i + M (n + 1) i)
    (q j : ℕ) (hj : j + 1 = J) (h : q * J + j < N) (i : ι) :
    f (q * J + j) h i = ∑ s : Fin J, M (q * J + s.val) i := by
  rw [run_sum f J M h0 hs q j (by omega) h i, hj, Finset.sum_range]

/-! ## The row sums -/

open Idealize.ShloMosaic Idealize.ShloMosaic.ValueIdx

/-- One when the word is the score value g, zero otherwise. -/
def hotW (w : BitVec 32) (g : Fin 16) : EReal := if w = BitVec.ofNat 32 g.val then 1 else 0

/-- For a score value below sixteen, a word reads as that integer exactly when it is that value's word. -/
theorem toInt_eq_iff (w : BitVec 32) (g : Fin 16) : w.toInt = (g.val : Int) ↔ w = BitVec.ofNat 32 g.val := by
  have hg : ∀ g : Fin 16, (BitVec.ofNat 32 g.val).toInt = (g.val : Int) := by decide
  constructor
  · intro h
    exact BitVec.eq_of_toInt_eq (h.trans (hg g).symm)
  · intro h
    rw [h]; exact hg g

/-- The all-ones word is no score value's word. -/
theorem pad_ne (g : Fin 16) : (4294967295#32 : BitVec 32) ≠ BitVec.ofNat 32 g.val := by
  revert g; decide

section Rows

variable (X : (⟨2, ![501760, 128]⟩ : Shape).Idx → EReal) (Sc : (⟨2, ![501760, 1]⟩ : Shape).Idx → BitVec 32)
  (x : Cert.Spec.SBx128.Idx → EReal) (s : Cert.Spec.SB.Idx → BitVec 32) (ε : EReal)
  (hX : ∀ (p : Fin 501760) (k : Fin 128), X (ix2 p k) = if h : p.val < 500000 then x (ix2 ⟨p.val, h⟩ k) else 0)
  (hS : ∀ p : Fin 501760, Sc (ix2 p (0 : Fin 1)) = if h : p.val < 500000 then s (ix1 ⟨p.val, h⟩) else 4294967295#32)

include hS in
/-- A padded row is of no score value. -/
theorem hotW_pad (p : Fin 501760) (hp : 500000 ≤ p.val) (g : Fin 16) : hotW (Sc (ix2 p (0 : Fin 1))) g = 0 := by
  rw [hS p, dif_neg (by omega)]
  exact if_neg (pad_ne g)

include hS in
/-- A real row is of score value g exactly when its score is g. -/
theorem hotW_row (e : Fin 500000) (g : Fin 16) :
    hotW (Sc (ix2 (⟨e.val, by have := e.isLt; omega⟩ : Fin 501760) (0 : Fin 1))) g = if Cert.Spec.hasScore s e g.val then 1 else 0 := by
  rw [hS _, dif_pos e.isLt]
  have hiff : Cert.Spec.hasScore s e g.val ↔ s (ix1 e) = BitVec.ofNat 32 g.val := toInt_eq_iff _ g
  unfold hotW
  by_cases h : s (ix1 e) = BitVec.ofNat 32 g.val
  · rw [if_pos (show s (ix1 (⟨e.val, e.isLt⟩ : Fin 500000)) = _ from h), if_pos (hiff.mpr h)]
  · rw [if_neg (show ¬ s (ix1 (⟨e.val, e.isLt⟩ : Fin 500000)) = _ from h), if_neg (fun h' => h (hiff.mp h'))]

include hX in
/-- A real row of the padded array is the row of the features. -/
theorem X_row (e : Fin 500000) (k : Fin 128) :
    X (ix2 (⟨e.val, by have := e.isLt; omega⟩ : Fin 501760) k) = x (ix2 e k) := by
  rw [hX _ k, dif_pos e.isLt]

/-- Row p's term of the feature sum of score g at feature k: the row's scaled feature if its score word is g. -/
def rowF (ε : EReal) (g : Fin 16) (k : Fin 128) (p : Fin 501760) : EReal :=
  hotW (Sc (ix2 p (0 : Fin 1))) g * (X (ix2 p k) * Ideal.rsqrt (max (∑ k' : Fin 128, X (ix2 p k') * X (ix2 p k')) ε))

/-- Row p's term of the count of score g: one if its score word is g. -/
def rowC (g : Fin 16) (p : Fin 501760) : EReal := hotW (Sc (ix2 p (0 : Fin 1))) g * 1

/-- Row p's term of the squared-norm sum of score g: its sum of squares times its reciprocal root twice if its score
    word is g. -/
def rowQ (ε : EReal) (g : Fin 16) (p : Fin 501760) : EReal :=
  hotW (Sc (ix2 p (0 : Fin 1))) g
    * ((∑ k' : Fin 128, X (ix2 p k') * X (ix2 p k'))
        * Ideal.rsqrt (max (∑ k' : Fin 128, X (ix2 p k') * X (ix2 p k')) ε)
        * Ideal.rsqrt (max (∑ k' : Fin 128, X (ix2 p k') * X (ix2 p k')) ε))

/-- A sum of zero-one multiples over the rows is the sum over the rows that have the score. -/
theorem sum_hot (v : Fin 500000 → EReal) (g : Fin 16) :
    ∑ e : Fin 500000, (if Cert.Spec.hasScore s e g.val then (1 : EReal) else 0) * v e
      = ∑ e ∈ Finset.univ.filter (fun e : Fin 500000 => Cert.Spec.hasScore s e g.val), v e := by
  rw [Finset.sum_filter]
  refine Finset.sum_congr rfl fun e _ => ?_
  by_cases h : Cert.Spec.hasScore s e g.val
  · rw [if_pos h, if_pos h, one_mul]
  · rw [if_neg h, if_neg h, Cert.Math.ereal_zero_mul]

include hX hS in
/-- THE FEATURE SUMS: over all padded rows, the rows of score g scaled by their reciprocal root sum to the
    normalised features of score g. -/
theorem rows_feat (hfin : ∀ i, ∃ r : ℝ, x i = (r : EReal))
    (hε : ε = ((5316911940649 / 5316911983139663491615228241121378304 : ℝ) : EReal)) (g : Fin 16) (k : Fin 128) :
    ∑ p : Fin 501760, rowF X Sc ε g k p = Cert.Spec.featSum x s g k := by
  unfold rowF
  rw [Cert.Math.sum_drop_tail _ (fun p hp => by rw [hotW_pad Sc s hS p hp g, Cert.Math.ereal_zero_mul])]
  unfold Cert.Spec.featSum
  rw [← sum_hot s (fun e => Cert.Spec.unitF x e k) g]
  refine Finset.sum_congr rfl fun e _ => ?_
  rw [hotW_row Sc s hS e g, X_row X x hX e k]
  congr 1
  rw [← Cert.Math.unitF_eq x hfin hε e k]
  unfold Cert.Spec.sumSq
  congr 3
  refine Finset.sum_congr rfl fun k' _ => ?_
  rw [X_row X x hX e k']

include hS in
/-- THE COUNTS: the padded rows of score g, each counted one, are the rows of score g. -/
theorem rows_cnt (g : Fin 16) :
    ∑ p : Fin 501760, rowC Sc g p = Cert.Spec.cnt s g := by
  unfold rowC
  rw [Cert.Math.sum_drop_tail _ (fun p hp => by rw [hotW_pad Sc s hS p hp g, Cert.Math.ereal_zero_mul])]
  unfold Cert.Spec.cnt
  rw [← sum_hot s (fun _ => (1 : EReal)) g]
  refine Finset.sum_congr rfl fun e _ => ?_
  rw [hotW_row Sc s hS e g]

include hX hS in
/-- THE SQUARED NORMS: over all padded rows, the rows of score g, each at its sum of squares times its reciprocal root
    twice, sum to the squared normalised norms of score g. -/
theorem rows_sq (hfin : ∀ i, ∃ r : ℝ, x i = (r : EReal))
    (hε : ε = ((5316911940649 / 5316911983139663491615228241121378304 : ℝ) : EReal)) (g : Fin 16) :
    ∑ p : Fin 501760, rowQ X Sc ε g p = Cert.Spec.sqSum x s g := by
  unfold rowQ
  rw [Cert.Math.sum_drop_tail _ (fun p hp => by rw [hotW_pad Sc s hS p hp g, Cert.Math.ereal_zero_mul])]
  unfold Cert.Spec.sqSum
  rw [← sum_hot s (fun e => Cert.Spec.unitSq x e) g]
  refine Finset.sum_congr rfl fun e _ => ?_
  rw [hotW_row Sc s hS e g]
  congr 1
  rw [← Cert.Math.unitSq_eq x hfin hε e]
  unfold Cert.Spec.sumSq
  have hq : (∑ k' : Fin 128, X (ix2 (⟨e.val, by have := e.isLt; omega⟩ : Fin 501760) k') * X (ix2 (⟨e.val, by have := e.isLt; omega⟩ : Fin 501760) k'))
      = ∑ k' : Fin 128, x (ix2 e k') * x (ix2 e k') :=
    Finset.sum_congr rfl fun k' _ => by rw [X_row X x hX e k']
  rw [hq]

/-! ## The same sums, block by block -/

/-- Row r of block j of sweep cc is a row of the padded arrays. -/
theorem blk_lt (cc : Fin 2) (j : Fin 49) (r : Fin 5120) : (cc.val * 49 + j.val) * 5120 + r.val < 501760 := by
  have := cc.isLt; have := j.isLt; have := r.isLt; omega

include hX hS in
theorem blocks_feat (hfin : ∀ i, ∃ r : ℝ, x i = (r : EReal))
    (hε : ε = ((5316911940649 / 5316911983139663491615228241121378304 : ℝ) : EReal)) (g : Fin 16) (k : Fin 128) :
    ∑ cc : Fin 2, ∑ j : Fin 49, ∑ r : Fin 5120, rowF X Sc ε g k ⟨(cc.val * 49 + j.val) * 5120 + r.val, blk_lt cc j r⟩
      = Cert.Spec.featSum x s g k :=
  (Cert.Math.sum_blocks (rowF X Sc ε g k)).trans (rows_feat X Sc x s ε hX hS hfin hε g k)

include hS in
theorem blocks_cnt (g : Fin 16) :
    ∑ cc : Fin 2, ∑ j : Fin 49, ∑ r : Fin 5120, rowC Sc g ⟨(cc.val * 49 + j.val) * 5120 + r.val, blk_lt cc j r⟩
      = Cert.Spec.cnt s g :=
  (Cert.Math.sum_blocks (rowC Sc g)).trans (rows_cnt Sc s hS g)

include hX hS in
theorem blocks_sq (hfin : ∀ i, ∃ r : ℝ, x i = (r : EReal))
    (hε : ε = ((5316911940649 / 5316911983139663491615228241121378304 : ℝ) : EReal)) (g : Fin 16) :
    ∑ cc : Fin 2, ∑ j : Fin 49, ∑ r : Fin 5120, rowQ X Sc ε g ⟨(cc.val * 49 + j.val) * 5120 + r.val, blk_lt cc j r⟩
      = Cert.Spec.sqSum x s g :=
  (Cert.Math.sum_blocks (rowQ X Sc ε g)).trans (rows_sq X Sc x s ε hX hS hfin hε g)

end Rows

end Cert.KernelIdeal.HandValue

end
-- ==== Proof.KI.Arrays.lean ====
/-
  What the region leaves in its two result arrays, as sums over the rows.

  Output block cc of either result array is written back once, after the last of the 49 points of sweep cc, from a
  staging buffer that the body resets at the sweep's first point and adds into at every point: so the block is the sum
  over the sweep's 49 points of what each point adds. What a point adds at entry (g, k) is the sum over the 5120 rows
  of its input block of the row's term; the input block at point t is rows 5120 t … 5120 t + 5119 of the padded
  arrays. The two blocks together therefore hold, summed over cc, the sum over all 501760 padded rows of the row terms,
  which the row-sum laws identify with the specification's per-score sums.
-/
import proofs.«421733_j6923487282636_2_alg».proof.Proof.KI.Data
import proofs.«421733_j6923487282636_2_alg».proof.Proof.KI.Payload
import proofs.«421733_j6923487282636_2_alg».proof.Proof.KI.Padded
import proofs.«421733_j6923487282636_2_alg».proof.Proof.KI.Accum
import Idealize.ShloMosaic.Lib.Pipeline.Value
import Idealize.ShloMosaic.Lib.ValueIdx

open scoped BigOperators

noncomputable section

open Idealize.ShloMosaic Idealize.ShloMosaic.TcCoe Idealize.ShloMosaic.ValueIdx Idealize.SL.Sem
open Idealize.ShloMosaic.Pipeline (Dat)

namespace Cert.KernelIdeal.HandValue

open Cert.KernelIdeal Cert.KernelIdeal.Gen Cert.KernelIdeal.Hand

/-! ## The schedule: which rows a point reads, which point writes a block back -/

theorem nPts : cfg0.N = 98 := by decide

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem index0_2 : ∀ t : Fin grid0.N, win0_2.index t 0 = t.val / 49 ∧ win0_2.index t 1 = 0 ∧ win0_2.index t 2 = 0 := by decide +kernel
theorem index0_3 : ∀ t : Fin grid0.N, win0_3.index t 0 = t.val / 49 ∧ win0_3.index t 1 = 0 ∧ win0_3.index t 2 = 0 := by decide +kernel

/-- Row r of the block at point t is row 5120 t + r of the padded arrays. -/
def prow (t : Fin cfg0.N) (r : Fin 5120) : Fin 501760 :=
  ⟨t.val * 5120 + r.val, by have h := t.isLt; have hN : cfg0.N = 98 := nPts; have := r.isLt; omega⟩

/-- Point j of sweep cc. -/
def pt (cc : Fin 2) (j : Fin 49) : Fin cfg0.N :=
  ⟨cc.val * 49 + j.val, by have := cc.isLt; have := j.isLt; have hN : cfg0.N = 98 := nPts; omega⟩

/-- The last point of sweep cc, the one that writes output block cc back. -/
def lastPt (cc : Fin 2) : Fin cfg0.N := pt cc ⟨48, by decide⟩

section AnyValues

variable {F : FTy → Type} [FloatOps F] [Named F]

/-- The feature block at point t, read off any contents of the padded feature array. -/
theorem blk0_read (c : Dev nD) (A : Buf (Elt F) ((c : Thread nD τ).loc main_v2)) (t : Fin cfg0.N) (r : Fin 5120) (k : Fin 128) :
    (((cfg0.win 0).blk t).view.read (Elt F) A : Vec F S5120x128 .f32) (ix2 r k) = A (ix2 (prow t r) k) := by
  rw [View.read_apply]
  show A (((cfg0.win 0).blk t).view.emb (ix2 r k)) = A (ix2 (prow t r) k)
  congr 1
  funext a
  apply Fin.ext
  match a with
  | ⟨0, _⟩ => show win0_0.index t 0 * 5120 + 1 * r.val = t.val * 5120 + r.val; rw [(index0_0 t).1]; omega
  | ⟨1, _⟩ => show win0_0.index t 1 * 128 + 1 * k.val = k.val; rw [(index0_0 t).2]; omega

/-- The score block at point t, read off any contents of the padded score column. -/
theorem blk1_read (c : Dev nD) (A : Buf (Elt F) ((c : Thread nD τ).loc main_v4)) (t : Fin cfg0.N) (r : Fin 5120) :
    (((cfg0.win 1).blk t).view.read (Elt F) A : Vec F S5120x1 .i32) (ix2 r (0 : Fin 1)) = A (ix2 (prow t r) (0 : Fin 1)) := by
  rw [View.read_apply]
  show A (((cfg0.win 1).blk t).view.emb (ix2 r (0 : Fin 1))) = A (ix2 (prow t r) (0 : Fin 1))
  congr 1
  funext a
  apply Fin.ext
  match a with
  | ⟨0, _⟩ => show win0_1.index t 0 * 5120 + 1 * r.val = t.val * 5120 + r.val; rw [(index0_1 t).1]; omega
  | ⟨1, _⟩ => show win0_1.index t 1 * 1 + 1 * 0 = 0; rw [(index0_1 t).2]

variable {c : Dev nD} (dat : Dat τ (Elt F) Unit ℕ (UR sig nD τ) ℕ cfg0 c)

/-- Two different points that write the first result array back write different blocks of it. -/
theorem hdisj2 (t t' : Fin cfg0.N) (hf : (cfg0.win 2).flush t = true) (hf' : (cfg0.win 2).flush t' = true) (hne : t ≠ t') :
    Disjoint ((cfg0.win 2).blk t).view.set ((cfg0.win 2).blk t').view.set := by
  rw [Finset.disjoint_left]
  intro i hi hi'
  have h1 : i ∈ ((View.whole main_v5_0).slice (win0_2.rect t)).set := hi
  have h2 : i ∈ ((View.whole main_v5_0).slice (win0_2.rect t')).set := hi'
  rw [View.set_slice_whole, Rect.mem_set_unit] at h1 h2
  have a1 : win0_2.index t 0 * 1 ≤ (i 0).val ∧ (i 0).val < win0_2.index t 0 * 1 + 1 := h1 0
  have a2 : win0_2.index t' 0 * 1 ≤ (i 0).val ∧ (i 0).val < win0_2.index t' 0 * 1 + 1 := h2 0
  rw [(index0_2 t).1] at a1
  rw [(index0_2 t').1] at a2
  have m1 := (flush0_2 t).mp hf
  have m2 := (flush0_2 t').mp hf'
  exact hne (Fin.ext (by omega))

/-- The same for the second result array. -/
theorem hdisj3 (t t' : Fin cfg0.N) (hf : (cfg0.win 3).flush t = true) (hf' : (cfg0.win 3).flush t' = true) (hne : t ≠ t') :
    Disjoint ((cfg0.win 3).blk t).view.set ((cfg0.win 3).blk t').view.set := by
  rw [Finset.disjoint_left]
  intro i hi hi'
  have h1 : i ∈ ((View.whole main_v5_1).slice (win0_3.rect t)).set := hi
  have h2 : i ∈ ((View.whole main_v5_1).slice (win0_3.rect t')).set := hi'
  rw [View.set_slice_whole, Rect.mem_set_unit] at h1 h2
  have a1 : win0_3.index t 0 * 1 ≤ (i 0).val ∧ (i 0).val < win0_3.index t 0 * 1 + 1 := h1 0
  have a2 : win0_3.index t' 0 * 1 ≤ (i 0).val ∧ (i 0).val < win0_3.index t' 0 * 1 + 1 := h2 0
  rw [(index0_3 t).1] at a1
  rw [(index0_3 t').1] at a2
  have m1 := (flush0_3 t).mp hf
  have m2 := (flush0_3 t').mp hf'
  exact hne (Fin.ext (by omega))

/-- Entry (cc, g, k) of the first result array after the region is entry (0, g, k) of what the body left in the
    staging buffer at the last point of sweep cc. -/
theorem arrAt2_last (cc : Fin 2) (g : Fin 16) (k : Fin 128) :
    (dat.arrAt 2 cfg0.N : Vec F S2x16x128 .f32) (ix3 cc g k) = (dat.after 2 (lastPt cc) : Vec F S1x16x128 .f32) (ix3 (0 : Fin 1) g k) := by
  have hf : (cfg0.win 2).flush (lastPt cc) = true := (flush0_2 _).mpr (by show (cc.val * 49 + 48) % 49 = 48; omega)
  have he : (ix3 cc g k : S2x16x128.Idx) = ((cfg0.win 2).blk (lastPt cc)).view.emb (ix3 (0 : Fin 1) g k) := by
    funext a
    apply Fin.ext
    match a with
    | ⟨0, _⟩ => show cc.val = win0_2.index (lastPt cc) 0 * 1 + 1 * 0; rw [(index0_2 _).1]; show cc.val = (cc.val * 49 + 48) / 49 * 1 + 1 * 0; omega
    | ⟨1, _⟩ => show g.val = win0_2.index (lastPt cc) 1 * 16 + 1 * g.val; rw [(index0_2 _).2.1]; omega
    | ⟨2, _⟩ => show k.val = win0_2.index (lastPt cc) 2 * 128 + 1 * k.val; rw [(index0_2 _).2.2]; omega
  have h := dat.arrAt_emb_eq_flushed 2 hdisj2 (lastPt cc) hf (ix3 (0 : Fin 1) g k)
  rw [he]
  exact h

/-- Entry (cc, g, k) of the second result array after the region is entry (0, g, k) of what the body left in the
    staging buffer at the last point of sweep cc. -/
theorem arrAt3_last (cc : Fin 2) (g : Fin 16) (k : Fin 2) :
    (dat.arrAt 3 cfg0.N : Vec F S2x16x2 .f32) (ix3 cc g k) = (dat.after 3 (lastPt cc) : Vec F S1x16x2 .f32) (ix3 (0 : Fin 1) g k) := by
  have hf : (cfg0.win 3).flush (lastPt cc) = true := (flush0_3 _).mpr (by show (cc.val * 49 + 48) % 49 = 48; omega)
  have he : (ix3 cc g k : S2x16x2.Idx) = ((cfg0.win 3).blk (lastPt cc)).view.emb (ix3 (0 : Fin 1) g k) := by
    funext a
    apply Fin.ext
    match a with
    | ⟨0, _⟩ => show cc.val = win0_3.index (lastPt cc) 0 * 1 + 1 * 0; rw [(index0_3 _).1]; show cc.val = (cc.val * 49 + 48) / 49 * 1 + 1 * 0; omega
    | ⟨1, _⟩ => show g.val = win0_3.index (lastPt cc) 1 * 16 + 1 * g.val; rw [(index0_3 _).2.1]; omega
    | ⟨2, _⟩ => show k.val = win0_3.index (lastPt cc) 2 * 2 + 1 * k.val; rw [(index0_3 _).2.2]; omega
  have h := dat.arrAt_emb_eq_flushed 3 hdisj3 (lastPt cc) hf (ix3 (0 : Fin 1) g k)
  rw [he]
  exact h

end AnyValues

/-! ## One component of the staging buffers over a sweep -/

/-- A component of the staging buffers that is `0 + a t` after a sweep's first point and what the point before left
    plus `a t` after every other point is, after the sweep's last point, the sum of `a` over the sweep's points. -/
theorem acc_component {ι : Type*} (u : (n : ℕ) → n < cfg0.N → ι → EReal) (a : Fin cfg0.N → ι → EReal)
    (hA : ∀ (t : Fin cfg0.N) (i : ι), t.val % 49 = 0 → u t.val t.isLt i = 0 + a t i)
    (hB : ∀ (t : Fin cfg0.N) (i : ι), ¬t.val % 49 = 0 →
      u t.val t.isLt i = u (t.val - 1) (Nat.lt_of_le_of_lt (Nat.sub_le _ _) t.isLt) i + a t i)
    (cc : Fin 2) (i : ι) :
    u (lastPt cc).val (lastPt cc).isLt i = ∑ j : Fin 49, a (pt cc j) i := by
  have h := run_sum_last u 49 (fun n i => if h : n < cfg0.N then a ⟨n, h⟩ i else 0)
    (fun n h i hm => by
      show u n h i = 0 + (if h : n < cfg0.N then a ⟨n, h⟩ i else 0)
      rw [dif_pos h]; exact hA ⟨n, h⟩ i hm)
    (fun n h i hm => by
      show u (n + 1) h i = u n _ i + (if h : n + 1 < cfg0.N then a ⟨n + 1, h⟩ i else 0)
      rw [dif_pos h]; exact hB ⟨n + 1, h⟩ i hm)
    cc.val 48 rfl (lastPt cc).isLt i
  refine h.trans (Finset.sum_congr rfl fun j _ => ?_)
  show (if h : cc.val * 49 + j.val < cfg0.N then a ⟨cc.val * 49 + j.val, h⟩ i else 0) = a (pt cc j) i
  exact dif_pos (pt cc j).isLt

/-! ## The blocks a point reads, at the extended reals -/

section AtIdeal

variable (m : (ℓ : Loc nD τ sig) → Buf (Elt Ideal) ℓ)

/-- The padded feature array and the padded score column as the region finds them. -/
abbrev xarr (c : Dev nD) : Vec Ideal S501760x128 .f32 := V m c main_v2
abbrev sarr (c : Dev nD) : Vec Ideal S501760x1 .i32 := V m c main_v4
/-- The feature block and the score block at point t. -/
abbrev xblk (c : Dev nD) (t : Fin cfg0.N) : Vec Ideal S5120x128 .f32 := iblk m c 0 t
abbrev sblk (c : Dev nD) (t : Fin cfg0.N) : Vec Ideal S5120x1 .i32 := iblk m c 1 t

/-- The floor on a row's sum of squares: the named constant. -/
abbrev epsN : EReal := Named.named (F := Ideal) Cert.KernelIdeal.κ "eps_sq" (φ := .f32) 0x179ABE15#32

theorem xblk_apply (c : Dev nD) (t : Fin cfg0.N) (r : Fin 5120) (k : Fin 128) :
    xblk m c t (ix2 r k) = xarr m c (ix2 (prow t r) k) := by
  unfold xblk xarr iblk
  exact blk0_read c (V m c main_v2) t r k

theorem sblk_apply (c : Dev nD) (t : Fin cfg0.N) (r : Fin 5120) :
    sblk m c t (ix2 r (0 : Fin 1)) = sarr m c (ix2 (prow t r) (0 : Fin 1)) := by
  unfold sblk sarr iblk
  exact blk1_read c (V m c main_v4) t r

theorem hot_blk (c : Dev nD) (t : Fin cfg0.N) (r : Fin 5120) (g : Fin 16) :
    hot (sblk m c t) r g = hotW (sarr m c (ix2 (prow t r) (0 : Fin 1))) g := by
  unfold hot hotW
  rw [sblk_apply]

theorem rowSq_blk (c : Dev nD) (t : Fin cfg0.N) (r : Fin 5120) :
    rowSq (xblk m c t) r = ∑ k' : Fin 128, xarr m c (ix2 (prow t r) k') * xarr m c (ix2 (prow t r) k') := by
  unfold rowSq
  exact Finset.sum_congr rfl fun k' _ => by rw [xblk_apply]

theorem inv_blk (c : Dev nD) (t : Fin cfg0.N) (r : Fin 5120) :
    inv (xblk m c t) r
      = Ideal.rsqrt (max (∑ k' : Fin 128, xarr m c (ix2 (prow t r) k') * xarr m c (ix2 (prow t r) k')) epsN) := by
  unfold inv
  rw [rowSq_blk]

/-- What point t adds at entry (g, k) of the first staging buffer, over the padded rows. -/
theorem addF (c : Dev nD) (t : Fin cfg0.N) (g : Fin 16) (k : Fin 128) :
    ∑ r : Fin 5120, hot (sblk m c t) r g * (xblk m c t (ix2 r k) * inv (xblk m c t) r)
      = ∑ r : Fin 5120, rowF (xarr m c) (sarr m c) epsN g k (prow t r) :=
  Finset.sum_congr rfl fun r _ => by
    unfold rowF
    rw [hot_blk, xblk_apply, inv_blk]

/-- What point t adds at entry (g, 0) of the second staging buffer. -/
theorem addC (c : Dev nD) (t : Fin cfg0.N) (g : Fin 16) :
    ∑ r : Fin 5120, hot (sblk m c t) r g * 1 = ∑ r : Fin 5120, rowC (sarr m c) g (prow t r) :=
  Finset.sum_congr rfl fun r _ => by
    unfold rowC
    rw [hot_blk]

/-- What point t adds at entry (g, 1) of the second staging buffer. -/
theorem addQ (c : Dev nD) (t : Fin cfg0.N) (g : Fin 16) :
    ∑ r : Fin 5120, hot (sblk m c t) r g * (rowSq (xblk m c t) r * inv (xblk m c t) r * inv (xblk m c t) r)
      = ∑ r : Fin 5120, rowQ (xarr m c) (sarr m c) epsN g (prow t r) :=
  Finset.sum_congr rfl fun r _ => by
    unfold rowQ
    rw [hot_blk, rowSq_blk, inv_blk]

/-! ## The staging buffers after each point -/

/-- The first staging buffer after the point at position n, at entry (0, g, k). -/
abbrev u2 (c : Dev nD) (n : ℕ) (h : n < cfg0.N) (gk : Fin 16 × Fin 128) : EReal :=
  (outsAt0 m c n h).1 (ix3 (0 : Fin 1) gk.1 gk.2)
/-- The second staging buffer after the point at position n, at entry (0, g, j). -/
abbrev u3 (c : Dev nD) (j : Fin 2) (n : ℕ) (h : n < cfg0.N) (g : Fin 16) : EReal :=
  (outsAt0 m c n h).2 (ix3 (0 : Fin 1) g j)

theorem u2_A (c : Dev nD) (t : Fin cfg0.N) (gk : Fin 16 × Fin 128) (h0 : t.val % 49 = 0) :
    u2 m c t.val t.isLt gk = 0 + ∑ r : Fin 5120, rowF (xarr m c) (sarr m c) epsN gk.1 gk.2 (prow t r) := by
  unfold u2
  rw [outsAt0_A m c t h0]
  dsimp only
  refine (pay7_apply (xblk m c t) (sblk m c t) (k0_pay1 (F := Ideal)) gk.1 gk.2).trans ?_
  rw [pay1_apply (ix3 (0 : Fin 1) gk.1 gk.2), addF m c t gk.1 gk.2]

theorem u2_B (c : Dev nD) (t : Fin cfg0.N) (gk : Fin 16 × Fin 128) (h0 : ¬t.val % 49 = 0) :
    u2 m c t.val t.isLt gk = u2 m c (t.val - 1) (Nat.lt_of_le_of_lt (Nat.sub_le _ _) t.isLt) gk
      + ∑ r : Fin 5120, rowF (xarr m c) (sarr m c) epsN gk.1 gk.2 (prow t r) := by
  unfold u2
  rw [outsAt0_B m c t h0]
  dsimp only
  refine (pay7_apply (xblk m c t) (sblk m c t)
    (outsAt0 m c (t.val - 1) (Nat.lt_of_le_of_lt (Nat.sub_le _ _) t.isLt)).1 gk.1 gk.2).trans ?_
  rw [addF m c t gk.1 gk.2]

theorem u3c_A (c : Dev nD) (t : Fin cfg0.N) (g : Fin 16) (h0 : t.val % 49 = 0) :
    u3 m c (0 : Fin 2) t.val t.isLt g = 0 + ∑ r : Fin 5120, rowC (sarr m c) g (prow t r) := by
  unfold u3
  rw [outsAt0_A m c t h0]
  dsimp only
  refine (pay8_apply0 (xblk m c t) (sblk m c t) (k0_pay2 (F := Ideal)) g).trans ?_
  rw [pay2_apply (ix3 (0 : Fin 1) g (0 : Fin 2)), addC m c t g]

theorem u3c_B (c : Dev nD) (t : Fin cfg0.N) (g : Fin 16) (h0 : ¬t.val % 49 = 0) :
    u3 m c (0 : Fin 2) t.val t.isLt g = u3 m c (0 : Fin 2) (t.val - 1) (Nat.lt_of_le_of_lt (Nat.sub_le _ _) t.isLt) g
      + ∑ r : Fin 5120, rowC (sarr m c) g (prow t r) := by
  unfold u3
  rw [outsAt0_B m c t h0]
  dsimp only
  refine (pay8_apply0 (xblk m c t) (sblk m c t)
    (outsAt0 m c (t.val - 1) (Nat.lt_of_le_of_lt (Nat.sub_le _ _) t.isLt)).2 g).trans ?_
  rw [addC m c t g]

theorem u3q_A (c : Dev nD) (t : Fin cfg0.N) (g : Fin 16) (h0 : t.val % 49 = 0) :
    u3 m c (1 : Fin 2) t.val t.isLt g = 0 + ∑ r : Fin 5120, rowQ (xarr m c) (sarr m c) epsN g (prow t r) := by
  unfold u3
  rw [outsAt0_A m c t h0]
  dsimp only
  refine (pay8_apply1 (xblk m c t) (sblk m c t) (k0_pay2 (F := Ideal)) g).trans ?_
  rw [pay2_apply (ix3 (0 : Fin 1) g (1 : Fin 2)), addQ m c t g]

theorem u3q_B (c : Dev nD) (t : Fin cfg0.N) (g : Fin 16) (h0 : ¬t.val % 49 = 0) :
    u3 m c (1 : Fin 2) t.val t.isLt g = u3 m c (1 : Fin 2) (t.val - 1) (Nat.lt_of_le_of_lt (Nat.sub_le _ _) t.isLt) g
      + ∑ r : Fin 5120, rowQ (xarr m c) (sarr m c) epsN g (prow t r) := by
  unfold u3
  rw [outsAt0_B m c t h0]
  dsimp only
  refine (pay8_apply1 (xblk m c t) (sblk m c t)
    (outsAt0 m c (t.val - 1) (Nat.lt_of_le_of_lt (Nat.sub_le _ _) t.isLt)).2 g).trans ?_
  rw [addQ m c t g]

/-! ## The result arrays -/

/-- The two result arrays after the region. -/
abbrev res2 (c : Dev nD) : FVec Ideal S2x16x128 .f32 := (dats m 0 c).arrAt 2 cfg0.N
abbrev res3 (c : Dev nD) : FVec Ideal S2x16x2 .f32 := (dats m 0 c).arrAt 3 cfg0.N

/-- Block cc of the first result array at (g, k): the feature terms of the rows of sweep cc's 49 blocks. -/
theorem arr2_block (c : Dev nD) (cc : Fin 2) (g : Fin 16) (k : Fin 128) :
    res2 m c (ix3 cc g k)
      = ∑ j : Fin 49, ∑ r : Fin 5120,
          rowF (xarr m c) (sarr m c) epsN g k ⟨(cc.val * 49 + j.val) * 5120 + r.val, blk_lt cc j r⟩ := by
  refine (arrAt2_last (dats m 0 c) cc g k).trans ?_
  rw [after0_2 m c (lastPt cc)]
  exact (acc_component (u2 m c) (fun t gk => ∑ r : Fin 5120, rowF (xarr m c) (sarr m c) epsN gk.1 gk.2 (prow t r))
    (fun t gk h0 => u2_A m c t gk h0) (fun t gk h0 => u2_B m c t gk h0) cc (g, k)).trans
    (Finset.sum_congr rfl fun j _ => Finset.sum_congr rfl fun r _ => rfl)

/-- Block cc of the second result array at (g, 0): the count terms of the rows of sweep cc's 49 blocks. -/
theorem arr3_block0 (c : Dev nD) (cc : Fin 2) (g : Fin 16) :
    res3 m c (ix3 cc g (0 : Fin 2))
      = ∑ j : Fin 49, ∑ r : Fin 5120, rowC (sarr m c) g ⟨(cc.val * 49 + j.val) * 5120 + r.val, blk_lt cc j r⟩ := by
  refine (arrAt3_last (dats m 0 c) cc g (0 : Fin 2)).trans ?_
  rw [after0_3 m c (lastPt cc)]
  exact (acc_component (u3 m c (0 : Fin 2)) (fun t g => ∑ r : Fin 5120, rowC (sarr m c) g (prow t r))
    (fun t g h0 => u3c_A m c t g h0) (fun t g h0 => u3c_B m c t g h0) cc g).trans
    (Finset.sum_congr rfl fun j _ => Finset.sum_congr rfl fun r _ => rfl)

/-- Block cc of the second result array at (g, 1): the squared-norm terms of the rows of sweep cc's 49 blocks. -/
theorem arr3_block1 (c : Dev nD) (cc : Fin 2) (g : Fin 16) :
    res3 m c (ix3 cc g (1 : Fin 2))
      = ∑ j : Fin 49, ∑ r : Fin 5120, rowQ (xarr m c) (sarr m c) epsN g ⟨(cc.val * 49 + j.val) * 5120 + r.val, blk_lt cc j r⟩ := by
  refine (arrAt3_last (dats m 0 c) cc g (1 : Fin 2)).trans ?_
  rw [after0_3 m c (lastPt cc)]
  exact (acc_component (u3 m c (1 : Fin 2)) (fun t g => ∑ r : Fin 5120, rowQ (xarr m c) (sarr m c) epsN g (prow t r))
    (fun t g h0 => u3q_A m c t g h0) (fun t g h0 => u3q_B m c t g h0) cc g).trans
    (Finset.sum_congr rfl fun j _ => Finset.sum_congr rfl fun r _ => rfl)

/-- THE FIRST RESULT ARRAY: its two blocks at (g, k) sum to the normalised features of score g at feature k. -/
theorem arr2_sum (c : Dev nD)
    (hfin : ∀ i, ∃ r : ℝ, (m ((c : Thread nD τ).loc main_arg0) : Cert.Spec.SBx128.Idx → EReal) i = (r : EReal))
    (hε : Named.named (F := Ideal) Cert.KernelIdeal.κ "eps_sq" (φ := .f32) 0x179ABE15#32
      = ((5316911940649 / 5316911983139663491615228241121378304 : ℝ) : EReal))
    (g : Fin 16) (k : Fin 128) :
    ∑ cc : Fin 2, res2 m c (ix3 cc g k)
      = Cert.Spec.featSum (m ((c : Thread nD τ).loc main_arg0)) (m ((c : Thread nD τ).loc main_arg1)) g k := by
  rw [Finset.sum_congr rfl fun cc _ => arr2_block m c cc g k]
  exact blocks_feat (xarr m c) (sarr m c) (m ((c : Thread nD τ).loc main_arg0)) (m ((c : Thread nD τ).loc main_arg1)) epsN
    (padX_apply m c) (padS_apply m c) hfin hε g k

/-- THE SECOND RESULT ARRAY, COLUMN 0: its two blocks at (g, 0) sum to the number of rows of score g. -/
theorem arr3_cnt (c : Dev nD) (g : Fin 16) :
    ∑ cc : Fin 2, res3 m c (ix3 cc g (0 : Fin 2))
      = Cert.Spec.cnt (m ((c : Thread nD τ).loc main_arg1)) g := by
  rw [Finset.sum_congr rfl fun cc _ => arr3_block0 m c cc g]
  exact blocks_cnt (sarr m c) (m ((c : Thread nD τ).loc main_arg1)) (padS_apply m c) g

/-- THE SECOND RESULT ARRAY, COLUMN 1: its two blocks at (g, 1) sum to the squared normalised norms of score g. -/
theorem arr3_sq (c : Dev nD)
    (hfin : ∀ i, ∃ r : ℝ, (m ((c : Thread nD τ).loc main_arg0) : Cert.Spec.SBx128.Idx → EReal) i = (r : EReal))
    (hε : Named.named (F := Ideal) Cert.KernelIdeal.κ "eps_sq" (φ := .f32) 0x179ABE15#32
      = ((5316911940649 / 5316911983139663491615228241121378304 : ℝ) : EReal))
    (g : Fin 16) :
    ∑ cc : Fin 2, res3 m c (ix3 cc g (1 : Fin 2))
      = Cert.Spec.sqSum (m ((c : Thread nD τ).loc main_arg0)) (m ((c : Thread nD τ).loc main_arg1)) g := by
  rw [Finset.sum_congr rfl fun cc _ => arr3_block1 m c cc g]
  exact blocks_sq (xarr m c) (sarr m c) (m ((c : Thread nD τ).loc main_arg0)) (m ((c : Thread nD τ).loc main_arg1)) epsN
    (padX_apply m c) (padS_apply m c) hfin hε g

end AtIdeal

end Cert.KernelIdeal.HandValue

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.KI.Tail.lean ====
/-
  The kernel's host operations after the region, as one function of the region's two result arrays.

  The two [2,16,·] arrays hold, per value of the first grid axis, the per-score sums. The host adds the two halves
  (three sums over axis 0: the counts, the feature sums, the squared-norm sums), renumbers the occurring score values,
  regroups the three families under the new numbers by scatter-adds onto zeros, and applies the closing formula.
-/
import proofs.«421733_j6923487282636_2_alg».proof.Proof.Gen.KernelIdeal.Launch
import proofs.«421733_j6923487282636_2_alg».proof.Proof.Spec
import proofs.«421733_j6923487282636_2_alg».proof.Proof.LibAfter
import Idealize.ShloMosaic.Lib.StableHlo.Run

noncomputable section

namespace Cert.KernelIdeal.HandTail

open Idealize.ShloMosaic Idealize.ShloMosaic.StableHlo
open Cert.KernelIdeal Cert.KernelIdeal.Gen

variable {F : FTy → Type} [FloatOps F] [Named F]

/-- The raw counts per score value: column 0 of the second array, its two halves added. -/
def rcOf (A3 : FVec F S2x16x2 .f32) : FVec F S16 .f32 :=
  Host.reduceAdd (shapeCast S2x16 (extractStridedSlice S2x16x1 ![0, 0, 0] A3 slices_S2x16x2_S2x16x1_0_0_0) shapeCasts_S2x16x1_S2x16)
    (constant S_ .f32 0x00000000#32) reducesTo_S2x16_S16_d0 h_S_

/-- The raw squared-norm sums per score value: column 1 of the second array, its two halves added. -/
def qsOf (A3 : FVec F S2x16x2 .f32) : FVec F S16 .f32 :=
  Host.reduceAdd (shapeCast S2x16 (extractStridedSlice S2x16x1 ![0, 0, 1] A3 slices_S2x16x2_S2x16x1_0_0_1) shapeCasts_S2x16x1_S2x16)
    (constant S_ .f32 0x00000000#32) reducesTo_S2x16_S16_d0 h_S_

/-- The raw feature sums per score value: the first array, its two halves added. -/
def gsOf (A2 : FVec F S2x16x128 .f32) : FVec F S16x128 .f32 :=
  Host.reduceAdd A2 (constant S_ .f32 0x00000000#32) reducesTo_S2x16x128_S16x128_d0 h_S_

/-- The new numbers of the score values, as a column of start indices. -/
def colOf (rc : FVec F S16 .f32) : IVec S16x1 32 :=
  broadcastInDim S16x1 ![0] bcast_S16_S16x1_0 (Cert.Spec.remap rc)

/-- The kernel's result from the region's two arrays. -/
def kTail (A2 : FVec F S2x16x128 .f32) (A3 : FVec F S2x16x2 .f32) : FVec F S_ .f32 :=
  Cert.Spec.finish
    (Host.scatterAdd scatter_S16_S16x1_S16_n_0_0_1 (broadcastInDim S16 ![] bcast_S_S16 (constant S_ .f32 0x00000000#32))
      (colOf (rcOf A3)) (rcOf A3))
    (Host.scatterAdd scatter_S16x128_S16x1_S16x128_1_0_0_1 (broadcastInDim S16x128 ![] bcast_S_S16x128 (constant S_ .f32 0x00000000#32))
      (colOf (rcOf A3)) (gsOf A2))
    (Host.scatterAdd scatter_S16_S16x1_S16_n_0_0_1 (broadcastInDim S16 ![] bcast_S_S16 (constant S_ .f32 0x00000000#32))
      (colOf (rcOf A3)) (qsOf A3))
    (Cert.Spec.nGroups (rcOf A3))

/-! ## The fold over the five stretches -/

section Fold

variable (V : Valuation τ sig (Elt F))

/-! ### The first stretch: the three sums over axis 0, which values occur -/

theorem s1_v6 : after (hostOps1 (F := F)) V (Proc.devRef .tc main_v6) = gsOf (V (Proc.devRef .tc main_v5_0)) := by
  unfold hostOps1; after_results; rfl
theorem s1_v9 : after (hostOps1 (F := F)) V (Proc.devRef .tc main_v9) = rcOf (V (Proc.devRef .tc main_v5_1)) := by
  unfold hostOps1; after_results; rfl
theorem s1_v12 : after (hostOps1 (F := F)) V (Proc.devRef .tc main_v12) = qsOf (V (Proc.devRef .tc main_v5_1)) := by
  unfold hostOps1; after_results; rfl
theorem s1_v14 : after (hostOps1 (F := F)) V (Proc.devRef .tc main_v14)
    = Cert.Spec.present (rcOf (V (Proc.devRef .tc main_v5_1))) := by
  unfold hostOps1; after_results; rfl
theorem s1_v15 : after (hostOps1 (F := F)) V (Proc.devRef .tc main_v15)
    = extui 32 (Cert.Spec.present (rcOf (V (Proc.devRef .tc main_v5_1)))) natLt_1_32 := by
  unfold hostOps1; after_results; rfl

/-! ### The second stretch: the running count of occurring values -/

attribute [local irreducible] Host.reduceWindow in
theorem s2_v16 : after (hostOps1_1 (F := F)) V (Proc.devRef .tc main_v16)
    = Host.reduceWindow IntOp.addi ![16] ![1] ![15] ![0] (V (Proc.devRef .tc main_v15))
        (broadcastInDim S_ ![] bcast_S_S_ (constantI S_ 32 0#32)) reduceWindows_S16_S16_w16s1p15_0 h_S_ := by
  unfold hostOps1_1; after_results; rfl
theorem s2_v6 : after (hostOps1_1 (F := F)) V (Proc.devRef .tc main_v6) = V (Proc.devRef .tc main_v6) := by
  unfold hostOps1_1; after_results
theorem s2_v9 : after (hostOps1_1 (F := F)) V (Proc.devRef .tc main_v9) = V (Proc.devRef .tc main_v9) := by
  unfold hostOps1_1; after_results
theorem s2_v12 : after (hostOps1_1 (F := F)) V (Proc.devRef .tc main_v12) = V (Proc.devRef .tc main_v12) := by
  unfold hostOps1_1; after_results
theorem s2_v14 : after (hostOps1_1 (F := F)) V (Proc.devRef .tc main_v14) = V (Proc.devRef .tc main_v14) := by
  unfold hostOps1_1; after_results

/-! ### The last three stretches: the regrouping and the closing formula -/

attribute [local irreducible] Host.reduceAdd Host.reduce Host.scatterAdd Host.divf in
theorem s345 :
    after (hostOps1_2 ++ (hostOps1_3 ++ hostOps1_4) : List (HloOp τ sig (Elt F))) V (Proc.devRef .tc main_v55)
      = Cert.Spec.finish
          (Host.scatterAdd scatter_S16_S16x1_S16_n_0_0_1
            (broadcastInDim S16 ![] bcast_S_S16 (constant S_ .f32 0x00000000#32))
            (broadcastInDim S16x1 ![0] bcast_S16_S16x1_0
              (subi (V (Proc.devRef .tc main_v16)) (broadcastInDim S16 ![] bcast_S_S16 (constantI S_ 32 1#32))))
            (V (Proc.devRef .tc main_v9)))
          (Host.scatterAdd scatter_S16x128_S16x1_S16x128_1_0_0_1
            (broadcastInDim S16x128 ![] bcast_S_S16x128 (constant S_ .f32 0x00000000#32))
            (broadcastInDim S16x1 ![0] bcast_S16_S16x1_0
              (subi (V (Proc.devRef .tc main_v16)) (broadcastInDim S16 ![] bcast_S_S16 (constantI S_ 32 1#32))))
            (V (Proc.devRef .tc main_v6)))
          (Host.scatterAdd scatter_S16_S16x1_S16_n_0_0_1
            (broadcastInDim S16 ![] bcast_S_S16 (constant S_ .f32 0x00000000#32))
            (broadcastInDim S16x1 ![0] bcast_S16_S16x1_0
              (subi (V (Proc.devRef .tc main_v16)) (broadcastInDim S16 ![] bcast_S_S16 (constantI S_ 32 1#32))))
            (V (Proc.devRef .tc main_v12)))
          (Host.reduce IntOp.addi (extui 32 (V (Proc.devRef .tc main_v14)) natLt_1_32) (constantI S_ 32 0#32)
            reducesTo_S16_S_d0 h_S_) := by
  unfold hostOps1_2 hostOps1_3 hostOps1_4
  simp only [List.cons_append, List.nil_append]
  after_results_simp
  unfold Cert.Spec.finish
  rfl

/-! ### The five stretches in a row -/

/-- The five stretches in a row, nested to the right. -/
theorem tail_after_r (W : Valuation τ sig (Elt F)) :
    after (hostOps1 ++ (hostOps1_1 ++ (hostOps1_2 ++ (hostOps1_3 ++ hostOps1_4))) : List (HloOp τ sig (Elt F))) W
        (Proc.devRef .tc main_v55)
      = kTail (W (Proc.devRef .tc main_v5_0)) (W (Proc.devRef .tc main_v5_1)) := by
  rw [Cert.LibAfter.after_append, Cert.LibAfter.after_append, s345, s2_v16, s2_v9, s2_v6, s2_v12, s2_v14,
    s1_v15, s1_v9, s1_v6, s1_v12, s1_v14]
  rfl

/-- THE TAIL'S RESULT: after the five stretches the last buffer holds the closing formula of the region's two arrays. -/
theorem tail_after (W : Valuation τ sig (Elt F)) :
    after (hostOps1 ++ hostOps1_1 ++ hostOps1_2 ++ hostOps1_3 ++ hostOps1_4 : List (HloOp τ sig (Elt F))) W
        (Proc.devRef .tc main_v55)
      = kTail (W (Proc.devRef .tc main_v5_0)) (W (Proc.devRef .tc main_v5_1)) := by
  rw [List.append_assoc, List.append_assoc, List.append_assoc]
  exact tail_after_r W

/-- The same over the list of stretches flattened. -/
theorem tail_after_flatten (W : Valuation τ sig (Elt F)) :
    after (List.flatten [hostOps1, hostOps1_1, hostOps1_2, hostOps1_3, hostOps1_4] : List (HloOp τ sig (Elt F))) W
        (Proc.devRef .tc main_v55)
      = kTail (W (Proc.devRef .tc main_v5_0)) (W (Proc.devRef .tc main_v5_1)) := by
  rw [List.flatten_cons, List.flatten_cons, List.flatten_cons, List.flatten_cons, List.flatten_cons, List.flatten_nil,
    List.append_nil]
  exact tail_after_r W

/-! ### The tail writes neither argument -/

theorem s1_arg0 : after (hostOps1 (F := F)) V (Proc.devRef .tc main_arg0) = V (Proc.devRef .tc main_arg0) := by
  unfold hostOps1; after_results_simp
theorem s2_arg0 : after (hostOps1_1 (F := F)) V (Proc.devRef .tc main_arg0) = V (Proc.devRef .tc main_arg0) := by
  unfold hostOps1_1; after_results_simp
theorem s3_arg0 : after (hostOps1_2 (F := F)) V (Proc.devRef .tc main_arg0) = V (Proc.devRef .tc main_arg0) := by
  unfold hostOps1_2; after_results_simp
theorem s4_arg0 : after (hostOps1_3 (F := F)) V (Proc.devRef .tc main_arg0) = V (Proc.devRef .tc main_arg0) := by
  unfold hostOps1_3; after_results_simp
theorem s5_arg0 : after (hostOps1_4 (F := F)) V (Proc.devRef .tc main_arg0) = V (Proc.devRef .tc main_arg0) := by
  unfold hostOps1_4; after_results_simp
theorem s1_arg1 : after (hostOps1 (F := F)) V (Proc.devRef .tc main_arg1) = V (Proc.devRef .tc main_arg1) := by
  unfold hostOps1; after_results_simp
theorem s2_arg1 : after (hostOps1_1 (F := F)) V (Proc.devRef .tc main_arg1) = V (Proc.devRef .tc main_arg1) := by
  unfold hostOps1_1; after_results_simp
theorem s3_arg1 : after (hostOps1_2 (F := F)) V (Proc.devRef .tc main_arg1) = V (Proc.devRef .tc main_arg1) := by
  unfold hostOps1_2; after_results_simp
theorem s4_arg1 : after (hostOps1_3 (F := F)) V (Proc.devRef .tc main_arg1) = V (Proc.devRef .tc main_arg1) := by
  unfold hostOps1_3; after_results_simp
theorem s5_arg1 : after (hostOps1_4 (F := F)) V (Proc.devRef .tc main_arg1) = V (Proc.devRef .tc main_arg1) := by
  unfold hostOps1_4; after_results_simp

theorem tail_keeps_arg0_r (W : Valuation τ sig (Elt F)) :
    after (hostOps1 ++ (hostOps1_1 ++ (hostOps1_2 ++ (hostOps1_3 ++ hostOps1_4))) : List (HloOp τ sig (Elt F))) W
        (Proc.devRef .tc main_arg0) = W (Proc.devRef .tc main_arg0) := by
  rw [Cert.LibAfter.after_append, Cert.LibAfter.after_append, Cert.LibAfter.after_append, Cert.LibAfter.after_append,
    s5_arg0, s4_arg0, s3_arg0, s2_arg0, s1_arg0]
theorem tail_keeps_arg1_r (W : Valuation τ sig (Elt F)) :
    after (hostOps1 ++ (hostOps1_1 ++ (hostOps1_2 ++ (hostOps1_3 ++ hostOps1_4))) : List (HloOp τ sig (Elt F))) W
        (Proc.devRef .tc main_arg1) = W (Proc.devRef .tc main_arg1) := by
  rw [Cert.LibAfter.after_append, Cert.LibAfter.after_append, Cert.LibAfter.after_append, Cert.LibAfter.after_append,
    s5_arg1, s4_arg1, s3_arg1, s2_arg1, s1_arg1]

/-- The tail leaves the feature argument as it was. -/
theorem tail_keeps_arg0 (W : Valuation τ sig (Elt F)) :
    after (hostOps1 ++ hostOps1_1 ++ hostOps1_2 ++ hostOps1_3 ++ hostOps1_4 : List (HloOp τ sig (Elt F))) W
        (Proc.devRef .tc main_arg0) = W (Proc.devRef .tc main_arg0) := by
  rw [List.append_assoc, List.append_assoc, List.append_assoc]
  exact tail_keeps_arg0_r W
/-- The tail leaves the score argument as it was. -/
theorem tail_keeps_arg1 (W : Valuation τ sig (Elt F)) :
    after (hostOps1 ++ hostOps1_1 ++ hostOps1_2 ++ hostOps1_3 ++ hostOps1_4 : List (HloOp τ sig (Elt F))) W
        (Proc.devRef .tc main_arg1) = W (Proc.devRef .tc main_arg1) := by
  rw [List.append_assoc, List.append_assoc, List.append_assoc]
  exact tail_keeps_arg1_r W
theorem tail_keeps_arg0_flatten (W : Valuation τ sig (Elt F)) :
    after (List.flatten [hostOps1, hostOps1_1, hostOps1_2, hostOps1_3, hostOps1_4] : List (HloOp τ sig (Elt F))) W
        (Proc.devRef .tc main_arg0) = W (Proc.devRef .tc main_arg0) := by
  rw [List.flatten_cons, List.flatten_cons, List.flatten_cons, List.flatten_cons, List.flatten_cons, List.flatten_nil,
    List.append_nil]
  exact tail_keeps_arg0_r W
theorem tail_keeps_arg1_flatten (W : Valuation τ sig (Elt F)) :
    after (List.flatten [hostOps1, hostOps1_1, hostOps1_2, hostOps1_3, hostOps1_4] : List (HloOp τ sig (Elt F))) W
        (Proc.devRef .tc main_arg1) = W (Proc.devRef .tc main_arg1) := by
  rw [List.flatten_cons, List.flatten_cons, List.flatten_cons, List.flatten_cons, List.flatten_cons, List.flatten_nil,
    List.append_nil]
  exact tail_keeps_arg1_r W

end Fold

end Cert.KernelIdeal.HandTail

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KI.TailValue.lean ====
/-
  The kernel's host tail, read at the extended reals. Given that the two halves of the region's arrays add up, per
  score value, to the counts, the feature sums and the squared-norm sums of the normalised rows, the tail's result is
  the loss: the three sums over axis 0 are those families as arrays, the three scatter-adds onto zeros regroup them
  under the new numbers of the score values, and the closing formula is then the loss's own.
-/
import proofs.«421733_j6923487282636_2_alg».proof.Proof.KI.Tail
import proofs.«421733_j6923487282636_2_alg».proof.Proof.LibGatherScatter
import Idealize.ShloMosaic.PureOps.Ideal.Laws
import Idealize.ShloMosaic.Lib.ValueIdx
import Idealize.ShloMosaic.Lib.Pipeline.Value
import Idealize.ShloMosaic.Lib.StableHlo.Predicate

open scoped BigOperators

noncomputable section

namespace Cert.KernelIdeal.HandTail

open Idealize.ShloMosaic Idealize.ShloMosaic.ValueIdx Idealize.ShloMosaic.RowOps
open Idealize.ShloMosaic.StableHlo.Predicate
open Cert.KernelIdeal Cert.KernelIdeal.Gen

/-! ## The three sums over axis 0, read at an index -/

/-- Over a [2,16] array with axis 0 dropped, the index above score value g with coordinate cc is (cc, g). -/
theorem lift_S2x16 (h : S2x16.Reduces [0] S16) (g : Fin 16) (cc : Fin 2) : h.lift (ix1 g) cc = ix2 cc g := by
  funext c
  apply Fin.ext
  match c with
  | ⟨0, _⟩ => rfl
  | ⟨1, _⟩ => rfl

/-- Over a [2,16,128] array with axis 0 dropped, the index above (g, k) with coordinate cc is (cc, g, k). -/
theorem lift_S2x16x128 (h : S2x16x128.Reduces [0] S16x128) (g : Fin 16) (k : Fin 128) (cc : Fin 2) :
    h.lift (ix2 g k) cc = ix3 cc g k := by
  funext c
  apply Fin.ext
  match c with
  | ⟨0, _⟩ => rfl
  | ⟨1, _⟩ => rfl
  | ⟨2, _⟩ => rfl

/-- Column e of a [2,16,2] array as a [2,16] array, read at (cc, g). -/
theorem col_apply (A3 : FVec Ideal S2x16x2 .f32) (e : Fin 2) (hs : S2x16x2.Slices ![0, 0, e.val] S2x16x1)
    (cc : Fin 2) (g : Fin 16) :
    shapeCast S2x16 (extractStridedSlice S2x16x1 ![0, 0, e.val] A3 hs) shapeCasts_S2x16x1_S2x16 (ix2 cc g)
      = A3 (ix3 cc g e) := by
  refine (shapeCast_apply _ _ (ix2 cc g) (ix3 cc g (0 : Fin 1)) ?_).trans ?_
  · rw [Shape.rowMajor_val_three, Shape.rowMajor_val_two]
    show (cc.val * 16 + g.val) * 1 + 0 = cc.val * 16 + g.val
    omega
  · refine extractStridedSlice_apply _ _ _ _ (ix3 cc g e) (fun a => ?_)
    match a with
    | ⟨0, _⟩ => exact (Nat.zero_add _).symm
    | ⟨1, _⟩ => exact (Nat.zero_add _).symm
    | ⟨2, _⟩ => exact (Nat.add_zero _).symm

/-- The raw counts at score value g: the two halves of column 0 added. -/
theorem rcOf_apply (A3 : FVec Ideal S2x16x2 .f32) (g : Fin 16) :
    rcOf (F := Ideal) A3 (ix1 g) = ∑ cc : Fin 2, A3 (ix3 cc g (0 : Fin 2)) := by
  have h : S2x16.Reduces [0] S16 := by decide
  unfold rcOf Host.reduceAdd
  rw [Ideal.hostReduceAdd_def, Ideal.hostReduceAdd_single _ h, constant_apply, Ideal.ofBits_zero_f32, zero_add]
  refine Finset.sum_congr rfl fun cc _ => ?_
  rw [lift_S2x16 h g cc]
  exact col_apply A3 (0 : Fin 2) _ cc g

/-- The raw squared-norm sums at score value g: the two halves of column 1 added. -/
theorem qsOf_apply (A3 : FVec Ideal S2x16x2 .f32) (g : Fin 16) :
    qsOf (F := Ideal) A3 (ix1 g) = ∑ cc : Fin 2, A3 (ix3 cc g (1 : Fin 2)) := by
  have h : S2x16.Reduces [0] S16 := by decide
  unfold qsOf Host.reduceAdd
  rw [Ideal.hostReduceAdd_def, Ideal.hostReduceAdd_single _ h, constant_apply, Ideal.ofBits_zero_f32, zero_add]
  refine Finset.sum_congr rfl fun cc _ => ?_
  rw [lift_S2x16 h g cc]
  exact col_apply A3 (1 : Fin 2) _ cc g

/-- The raw feature sums at (g, k): the two halves added. -/
theorem gsOf_apply (A2 : FVec Ideal S2x16x128 .f32) (g : Fin 16) (k : Fin 128) :
    gsOf (F := Ideal) A2 (ix2 g k) = ∑ cc : Fin 2, A2 (ix3 cc g k) := by
  have h : S2x16x128.Reduces [0] S16x128 := by decide
  unfold gsOf Host.reduceAdd
  rw [Ideal.hostReduceAdd_def, Ideal.hostReduceAdd_single _ h, constant_apply, Ideal.ofBits_zero_f32, zero_add]
  refine Finset.sum_congr rfl fun cc _ => ?_
  rw [lift_S2x16x128 h g k cc]

/-! ## The regrouping under the new numbers -/

/-- The zero constant broadcast to any shape reads 0 everywhere. -/
theorem zeros_apply {t : Shape} (h : S_.BroadcastsInDim t ![]) (i : t.Idx) :
    broadcastInDim t ![] h (constant (F := Ideal) S_ .f32 0x00000000#32) i = 0 :=
  Ideal.ofBits_zero_f32

/-- Row e of the column of new numbers lands on j exactly when score value e is renumbered j. -/
theorem lands_colOf (s : Cert.Spec.SB.Idx → BitVec 32) (e : Fin 16) (j : Nat) :
    lands (colOf (F := Ideal) (Cert.Spec.cntV s)) e j ↔ Cert.Spec.newNo s e = (j : Int) := by
  unfold lands colOf Cert.Spec.newNo
  rw [bcast_col1, ofFin_eq_ix1]

/-- A host scatter-add read at an index is the exact accumulation there. -/
theorem scatterAdd_at {sh si u : Shape} {w : Nat} {φ : FTy} (d : ScatterDims sh si u) (a : FVec Ideal sh φ)
    (idx : IVec si w) (upd : FVec Ideal u φ) (i : sh.Idx) :
    Host.scatterAdd d a idx upd i = Ideal.hostScatterAdd d a idx upd i := rfl

/-- The three families over the score values, and the three regrouped families, read at an index. -/
theorem cntV_at (s : Cert.Spec.SB.Idx → BitVec 32) (g : Fin 16) : Cert.Spec.cntV s (ix1 g) = Cert.Spec.cnt s g := rfl
theorem sqV_at (x : Cert.Spec.SBx128.Idx → EReal) (s : Cert.Spec.SB.Idx → BitVec 32) (g : Fin 16) :
    Cert.Spec.sqV x s (ix1 g) = Cert.Spec.sqSum x s g := rfl
theorem featV_at (x : Cert.Spec.SBx128.Idx → EReal) (s : Cert.Spec.SB.Idx → BitVec 32) (g : Fin 16) (k : Fin 128) :
    Cert.Spec.featV x s (ix2 g k) = Cert.Spec.featSum x s g k := rfl
theorem cntC_at (s : Cert.Spec.SB.Idx → BitVec 32) (j : Fin 16) :
    Cert.Spec.cntC s (ix1 j)
      = ∑ g ∈ Finset.univ.filter (fun g : Fin 16 => Cert.Spec.newNo s g = (j.val : Int)), Cert.Spec.cnt s g := rfl
theorem sqC_at (x : Cert.Spec.SBx128.Idx → EReal) (s : Cert.Spec.SB.Idx → BitVec 32) (j : Fin 16) :
    Cert.Spec.sqC x s (ix1 j)
      = ∑ g ∈ Finset.univ.filter (fun g : Fin 16 => Cert.Spec.newNo s g = (j.val : Int)), Cert.Spec.sqSum x s g := rfl
theorem featC_at (x : Cert.Spec.SBx128.Idx → EReal) (s : Cert.Spec.SB.Idx → BitVec 32) (j : Fin 16) (k : Fin 128) :
    Cert.Spec.featC x s (ix2 j k)
      = ∑ g ∈ Finset.univ.filter (fun g : Fin 16 => Cert.Spec.newNo s g = (j.val : Int)), Cert.Spec.featSum x s g k :=
  rfl

/-- The counts scattered onto zeros at the new numbers are the regrouped counts. -/
theorem regroup_cnt (s : Cert.Spec.SB.Idx → BitVec 32) :
    Host.scatterAdd scatter_S16_S16x1_S16_n_0_0_1 (broadcastInDim S16 ![] bcast_S_S16 (constant S_ .f32 0x00000000#32))
        (colOf (F := Ideal) (Cert.Spec.cntV s)) (Cert.Spec.cntV s)
      = Cert.Spec.cntC s := by
  funext j
  obtain ⟨j0, rfl⟩ : ∃ j0 : Fin 16, j = ix1 j0 := ⟨j 0, eq_ix1 j⟩
  rw [scatterAdd_at, cntC_at, scatterAdd_row1 _ rfl rfl rfl rfl, zeros_apply, zero_add]
  exact Finset.sum_congr (Finset.filter_congr fun e _ => lands_colOf s e j0.val) (fun e _ => cntV_at s e)

/-- The squared-norm sums scattered onto zeros at the new numbers are the regrouped squared-norm sums. -/
theorem regroup_sq (x : Cert.Spec.SBx128.Idx → EReal) (s : Cert.Spec.SB.Idx → BitVec 32) :
    Host.scatterAdd scatter_S16_S16x1_S16_n_0_0_1 (broadcastInDim S16 ![] bcast_S_S16 (constant S_ .f32 0x00000000#32))
        (colOf (F := Ideal) (Cert.Spec.cntV s)) (Cert.Spec.sqV x s)
      = Cert.Spec.sqC x s := by
  funext j
  obtain ⟨j0, rfl⟩ : ∃ j0 : Fin 16, j = ix1 j0 := ⟨j 0, eq_ix1 j⟩
  rw [scatterAdd_at, sqC_at, scatterAdd_row1 _ rfl rfl rfl rfl, zeros_apply, zero_add]
  exact Finset.sum_congr (Finset.filter_congr fun e _ => lands_colOf s e j0.val) (fun e _ => sqV_at x s e)

/-- The feature sums scattered onto zeros at the new numbers are the regrouped feature sums. -/
theorem regroup_feat (x : Cert.Spec.SBx128.Idx → EReal) (s : Cert.Spec.SB.Idx → BitVec 32) :
    Host.scatterAdd scatter_S16x128_S16x1_S16x128_1_0_0_1
        (broadcastInDim S16x128 ![] bcast_S_S16x128 (constant S_ .f32 0x00000000#32))
        (colOf (F := Ideal) (Cert.Spec.cntV s)) (Cert.Spec.featV x s)
      = Cert.Spec.featC x s := by
  funext j
  obtain ⟨j0, k, rfl⟩ : ∃ (j0 : Fin 16) (k : Fin 128), j = ix2 j0 k := ⟨j 0, j 1, eq_ix2 j⟩
  rw [scatterAdd_at, featC_at, scatterAdd_rows _ rfl rfl rfl rfl, zeros_apply, zero_add]
  exact Finset.sum_congr (Finset.filter_congr fun e _ => lands_colOf s e j0.val) (fun e _ => featV_at x s e k)

/-! ## The tail's value -/

/-- THE TAIL IS THE LOSS: when the two halves of the region's arrays add up to the per-score counts, feature sums and
    squared-norm sums of the normalised rows, the tail's result is the loss. -/
theorem tail_value (x : Cert.Spec.SBx128.Idx → EReal) (s : Cert.Spec.SB.Idx → BitVec 32)
    (A2 : FVec Ideal S2x16x128 .f32) (A3 : FVec Ideal S2x16x2 .f32)
    (hcnt : ∀ g : Fin 16, ∑ cc : Fin 2, A3 (ix3 cc g (0 : Fin 2)) = Cert.Spec.cnt s g)
    (hfeat : ∀ (g : Fin 16) (k : Fin 128), ∑ cc : Fin 2, A2 (ix3 cc g k) = Cert.Spec.featSum x s g k)
    (hsq : ∀ g : Fin 16, ∑ cc : Fin 2, A3 (ix3 cc g (1 : Fin 2)) = Cert.Spec.sqSum x s g) :
    kTail (F := Ideal) A2 A3 = Cert.Spec.loss x s := by
  have hrc : rcOf (F := Ideal) A3 = Cert.Spec.cntV s := by
    funext i
    obtain ⟨g, rfl⟩ : ∃ g : Fin 16, i = ix1 g := ⟨i 0, eq_ix1 i⟩
    exact (rcOf_apply A3 g).trans (hcnt g)
  have hqs : qsOf (F := Ideal) A3 = Cert.Spec.sqV x s := by
    funext i
    obtain ⟨g, rfl⟩ : ∃ g : Fin 16, i = ix1 g := ⟨i 0, eq_ix1 i⟩
    exact (qsOf_apply A3 g).trans (hsq g)
  have hgs : gsOf (F := Ideal) A2 = Cert.Spec.featV x s := by
    funext i
    obtain ⟨g, k, rfl⟩ : ∃ (g : Fin 16) (k : Fin 128), i = ix2 g k := ⟨i 0, i 1, eq_ix2 i⟩
    exact (gsOf_apply A2 g k).trans (hfeat g k)
  unfold kTail Cert.Spec.loss
  rw [hrc, hgs, hqs, regroup_cnt, regroup_feat, regroup_sq]

end Cert.KernelIdeal.HandTail

end
-- ==== Proof.KI.TailRun.lean ====
/-
  The kernel's result after the run: the host operations after the region, folded from the region's exit
  contents, applied to what the two result arrays hold after the last point.
-/
import proofs.«421733_j6923487282636_2_alg».proof.Proof.KI.Frame
import proofs.«421733_j6923487282636_2_alg».proof.Proof.KI.Tail

noncomputable section

namespace Cert.KernelIdeal.HandTail

open Idealize.ShloMosaic Idealize.ShloMosaic.StableHlo Idealize.ShloMosaic.TcCoe
open Cert.KernelIdeal Cert.KernelIdeal.Gen

variable {F : FTy → Type} [FloatOps F] [Named F]

variable (m : (ℓ : Loc nD τ sig) → Buf (Elt F) ℓ)

/-- After the later host operations the result buffer holds the closing function of the two result arrays
    as the region leaves them: the operations are folded from the region's exit contents, in which the
    pipeline's arrays hold what the proof data compute after the last point. -/
theorem tail_of_run (c : Dev nD) :
    Pipeline.afterTail₀ cfgs (Hand.dats m) 0 (Hand.V0 m) Hand.tail c main_v55
      = kTail ((Hand.dats m 0 c).arrAt 2 cfg0.N) ((Hand.dats m 0 c).arrAt 3 cfg0.N) := by
  unfold Pipeline.afterTail₀
  refine (tail_after_flatten (F := F) _).trans ?_
  exact congrArg₂ kTail (Pipeline.withArrays_arr spec0 launch0.win.arr_inj c _ _ 2)
    (Pipeline.withArrays_arr spec0 launch0.win.arr_inj c _ _ 3)

end Cert.KernelIdeal.HandTail

end
-- ==== Proof.Ref.Run.lean ====
/-
  The reference program's run, read back. Its main function is a straight line of eighty-seven host operations once
  the three private functions it calls (a running sum, through one further call, and a masked choice) are written out
  at their call sites over the buffers of those calls. The line is listed here in eleven consecutive stretches, one per
  stage of the computation; the main function is shown equal to the line run in order, and so every execution ends
  with each buffer at the fold of the operations' results over the launch contents, the two arguments untouched.
-/
import proofs.«421733_j6923487282636_2_alg».proof.Proof.Gen.ReferenceIdeal
import Idealize.ShloMosaic.Lib.StableHlo.Run
import proofs.«421733_j6923487282636_2_alg».proof.Proof.LibAfter

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- Each row over its floored norm: the squares, their sum along the row, the root, the floor, the larger of the two, the quotient. -/
abbrev ops0 : List (HloOp τ sig (Elt F)) :=
  [ binary main_arg0 main_arg0 main_v0 (mulf : (⟨S500000x128, .f32⟩ : BufTy).Contents (Elt F) → (⟨S500000x128, .f32⟩ : BufTy).Contents (Elt F) → (⟨S500000x128, .f32⟩ : BufTy).Contents (Elt F)),
    nullary main_cst (constant S_ .f32 0x00000000#32),
    binary main_v0 main_cst main_v1 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v1 main_v2 (broadcastInDim S500000x1 ![0] bcast_S500000_S500000x1_0 : (⟨S500000, .f32⟩ : BufTy).Contents (Elt F) → (⟨S500000x1, .f32⟩ : BufTy).Contents (Elt F)),
    unary main_v2 main_v3 (Host.sqrt : (⟨S500000x1, .f32⟩ : BufTy).Contents (Elt F) → (⟨S500000x1, .f32⟩ : BufTy).Contents (Elt F)),
    nullary main_cst_0 (constant S_ .f32 0x2B8CBCCC#32),
    unary main_cst_0 main_v4 (broadcastInDim S500000x1 ![] bcast_S_S500000x1 : (⟨S_, .f32⟩ : BufTy).Contents (Elt F) → (⟨S500000x1, .f32⟩ : BufTy).Contents (Elt F)),
    binary main_v3 main_v4 main_v5 (maximumf : (⟨S500000x1, .f32⟩ : BufTy).Contents (Elt F) → (⟨S500000x1, .f32⟩ : BufTy).Contents (Elt F) → (⟨S500000x1, .f32⟩ : BufTy).Contents (Elt F)),
    unary main_v5 main_v6 (broadcastInDim S500000x128 ![0, 1] bcast_S500000x1_S500000x128_0_1 : (⟨S500000x1, .f32⟩ : BufTy).Contents (Elt F) → (⟨S500000x128, .f32⟩ : BufTy).Contents (Elt F)),
    binary main_arg0 main_v6 main_v7 (Host.divf : (⟨S500000x128, .f32⟩ : BufTy).Contents (Elt F) → (⟨S500000x128, .f32⟩ : BufTy).Contents (Elt F) → (⟨S500000x128, .f32⟩ : BufTy).Contents (Elt F)) ]

/-- The raw counts: a one added at each row's score value, from sixteen zeros. -/
abbrev ops1 : List (HloOp τ sig (Elt F)) :=
  [ nullary main_cst_1 (constant S_ .f32 0x3F800000#32),
    unary main_cst_1 main_v8 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v9 (broadcastInDim S16 ![] bcast_S_S16 : (⟨S_, .f32⟩ : BufTy).Contents (Elt F) → (⟨S16, .f32⟩ : BufTy).Contents (Elt F)),
    unary main_arg1 main_v10 (broadcastInDim S500000x1 ![0] bcast_S500000_S500000x1_0 : (⟨S500000, .i32⟩ : BufTy).Contents (Elt F) → (⟨S500000x1, .i32⟩ : BufTy).Contents (Elt F)),
    ternary main_v9 main_v10 main_v8 main_v11 ((fun x i u => Host.scatterAdd scatter_S16_S500000x1_S500000_n_0_0_1 x i u) : (⟨S16, .f32⟩ : BufTy).Contents (Elt F) → (⟨S500000x1, .i32⟩ : BufTy).Contents (Elt F) → (⟨S500000, .f32⟩ : BufTy).Contents (Elt F) → (⟨S16, .f32⟩ : BufTy).Contents (Elt F)) ]

/-- The new numbers: which counts are positive, as zeros and ones; their running sum (a window of sixteen over the values padded fifteen low); less one. -/
abbrev ops2 : List (HloOp τ sig (Elt F)) :=
  [ nullary main_cst_3 (constant S_ .f32 0x00000000#32),
    unary main_cst_3 main_v12 (broadcastInDim S16 ![] bcast_S_S16 : (⟨S_, .f32⟩ : BufTy).Contents (Elt F) → (⟨S16, .f32⟩ : BufTy).Contents (Elt F)),
    binary main_v11 main_v12 main_v13 (cmpf .ogt : (⟨S16, .f32⟩ : BufTy).Contents (Elt F) → (⟨S16, .f32⟩ : BufTy).Contents (Elt F) → (⟨S16, .i1⟩ : BufTy).Contents (Elt F)),
    unary main_v13 main_v14 ((extui 32 · natLt_1_32) : (⟨S16, .i1⟩ : BufTy).Contents (Elt F) → (⟨S16, .i32⟩ : BufTy).Contents (Elt F)),
    TRef.nullary main_call0.call0.c (constantI S_ 32 0#32),
    TRef.unary main_call0.call0.c main_call0.call0.v0 (broadcastInDim S_ ![] bcast_S_S_),
    TRef.binary (.of main_v14) main_call0.call0.v0 main_call0.call0.v1 (fun x v => Host.reduceWindow IntOp.addi ![16] ![1] ![15] ![0] x v reduceWindows_S16_S16_w16s1p15_0 h_S_),
    nullary main_c (constantI S_ 32 1#32),
    unary main_c main_v16 (broadcastInDim S16 ![] bcast_S_S16 : (⟨S_, .i32⟩ : BufTy).Contents (Elt F) → (⟨S16, .i32⟩ : BufTy).Contents (Elt F)),
    binary main_v15 main_v16 main_v17 (subi : (⟨S16, .i32⟩ : BufTy).Contents (Elt F) → (⟨S16, .i32⟩ : BufTy).Contents (Elt F) → (⟨S16, .i32⟩ : BufTy).Contents (Elt F)) ]

/-- Each row's new number: the score wrapped into 0..15 when negative, then read out of the table of new numbers. -/
abbrev ops3 : List (HloOp τ sig (Elt F)) :=
  [ nullary main_c_4 (constantI S_ 32 0#32),
    unary main_c_4 main_v18 (broadcastInDim S500000 ![] bcast_S_S500000 : (⟨S_, .i32⟩ : BufTy).Contents (Elt F) → (⟨S500000, .i32⟩ : BufTy).Contents (Elt F)),
    binary main_arg1 main_v18 main_v19 (cmpi .slt : (⟨S500000, .i32⟩ : BufTy).Contents (Elt F) → (⟨S500000, .i32⟩ : BufTy).Contents (Elt F) → (⟨S500000, .i1⟩ : BufTy).Contents (Elt F)),
    nullary main_c_5 (constantI S_ 32 16#32),
    unary main_c_5 main_v20 (broadcastInDim S500000 ![] bcast_S_S500000 : (⟨S_, .i32⟩ : BufTy).Contents (Elt F) → (⟨S500000, .i32⟩ : BufTy).Contents (Elt F)),
    binary main_arg1 main_v20 main_v21 (addi : (⟨S500000, .i32⟩ : BufTy).Contents (Elt F) → (⟨S500000, .i32⟩ : BufTy).Contents (Elt F) → (⟨S500000, .i32⟩ : BufTy).Contents (Elt F)),
    ternary main_v19 main_v21 main_arg1 main_v22 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v22 main_v23 (broadcastInDim S500000x1 ![0] bcast_S500000_S500000x1_0 : (⟨S500000, .i32⟩ : BufTy).Contents (Elt F) → (⟨S500000x1, .i32⟩ : BufTy).Contents (Elt F)),
    binary main_v17 main_v23 main_v24 ((fun x i => Host.gather gather_S16_S500000x1_S500000_n_0_n_n_0_1_1 x i) : (⟨S16, .i32⟩ : BufTy).Contents (Elt F) → (⟨S500000x1, .i32⟩ : BufTy).Contents (Elt F) → (⟨S500000, .i32⟩ : BufTy).Contents (Elt F)) ]

/-- How many score values occur: the zeros and ones summed. -/
abbrev ops4 : List (HloOp τ sig (Elt F)) :=
  [ unary main_v13 main_v25 ((extui 32 · natLt_1_32) : (⟨S16, .i1⟩ : BufTy).Contents (Elt F) → (⟨S16, .i32⟩ : BufTy).Contents (Elt F)),
    nullary main_c_6 (constantI S_ 32 0#32),
    binary main_v25 main_c_6 main_v26 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)) ]

/-- The counts regrouped: a one added at each row's new number. -/
abbrev ops5 : List (HloOp τ sig (Elt F)) :=
  [ nullary main_cst_7 (constant S_ .f32 0x00000000#32),
    unary main_cst_7 main_v27 (broadcastInDim S16 ![] bcast_S_S16 : (⟨S_, .f32⟩ : BufTy).Contents (Elt F) → (⟨S16, .f32⟩ : BufTy).Contents (Elt F)),
    unary main_v24 main_v28 (broadcastInDim S500000x1 ![0] bcast_S500000_S500000x1_0 : (⟨S500000, .i32⟩ : BufTy).Contents (Elt F) → (⟨S500000x1, .i32⟩ : BufTy).Contents (Elt F)),
    ternary main_v27 main_v28 main_v8 main_v29 ((fun x i u => Host.scatterAdd scatter_S16_S500000x1_S500000_n_0_0_1 x i u) : (⟨S16, .f32⟩ : BufTy).Contents (Elt F) → (⟨S500000x1, .i32⟩ : BufTy).Contents (Elt F) → (⟨S500000, .f32⟩ : BufTy).Contents (Elt F) → (⟨S16, .f32⟩ : BufTy).Contents (Elt F)) ]

/-- The feature sums regrouped: each normalised row added at its new number. -/
abbrev ops6 : List (HloOp τ sig (Elt F)) :=
  [ nullary main_cst_8 (constant S_ .f32 0x00000000#32),
    unary main_cst_8 main_v30 (broadcastInDim S16x128 ![] bcast_S_S16x128 : (⟨S_, .f32⟩ : BufTy).Contents (Elt F) → (⟨S16x128, .f32⟩ : BufTy).Contents (Elt F)),
    unary main_v24 main_v31 (broadcastInDim S500000x1 ![0] bcast_S500000_S500000x1_0 : (⟨S500000, .i32⟩ : BufTy).Contents (Elt F) → (⟨S500000x1, .i32⟩ : BufTy).Contents (Elt F)),
    ternary main_v30 main_v31 main_v7 main_v32 ((fun x i u => Host.scatterAdd scatter_S16x128_S500000x1_S500000x128_1_0_0_1 x i u) : (⟨S16x128, .f32⟩ : BufTy).Contents (Elt F) → (⟨S500000x1, .i32⟩ : BufTy).Contents (Elt F) → (⟨S500000x128, .f32⟩ : BufTy).Contents (Elt F) → (⟨S16x128, .f32⟩ : BufTy).Contents (Elt F)) ]

/-- The squared norms of the normalised rows. -/
abbrev ops7 : List (HloOp τ sig (Elt F)) :=
  [ binary main_v7 main_v7 main_v33 (mulf : (⟨S500000x128, .f32⟩ : BufTy).Contents (Elt F) → (⟨S500000x128, .f32⟩ : BufTy).Contents (Elt F) → (⟨S500000x128, .f32⟩ : BufTy).Contents (Elt F)),
    nullary main_cst_9 (constant S_ .f32 0x00000000#32),
    binary main_v33 main_cst_9 main_v34 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)) ]

/-- The squared norms regrouped: each added at its row's new number. -/
abbrev ops8 : List (HloOp τ sig (Elt F)) :=
  [ nullary main_cst_10 (constant S_ .f32 0x00000000#32),
    unary main_cst_10 main_v35 (broadcastInDim S16 ![] bcast_S_S16 : (⟨S_, .f32⟩ : BufTy).Contents (Elt F) → (⟨S16, .f32⟩ : BufTy).Contents (Elt F)),
    unary main_v24 main_v36 (broadcastInDim S500000x1 ![0] bcast_S500000_S500000x1_0 : (⟨S500000, .i32⟩ : BufTy).Contents (Elt F) → (⟨S500000x1, .i32⟩ : BufTy).Contents (Elt F)),
    ternary main_v35 main_v36 main_v34 main_v37 ((fun x i u => Host.scatterAdd scatter_S16_S500000x1_S500000_n_0_0_1 x i u) : (⟨S16, .f32⟩ : BufTy).Contents (Elt F) → (⟨S500000x1, .i32⟩ : BufTy).Contents (Elt F) → (⟨S500000, .f32⟩ : BufTy).Contents (Elt F) → (⟨S16, .f32⟩ : BufTy).Contents (Elt F)) ]

/-- The closing formula, first part: the counts floored at one, the two means, the first two of the three shifted windows of fourteen groups. -/
abbrev ops9 : List (HloOp τ sig (Elt F)) :=
  [ nullary main_cst_11 (constant S_ .f32 0x3F800000#32),
    unary main_cst_11 main_v38 (broadcastInDim S16 ![] bcast_S_S16 : (⟨S_, .f32⟩ : BufTy).Contents (Elt F) → (⟨S16, .f32⟩ : BufTy).Contents (Elt F)),
    binary main_v29 main_v38 main_v39 (maximumf : (⟨S16, .f32⟩ : BufTy).Contents (Elt F) → (⟨S16, .f32⟩ : BufTy).Contents (Elt F) → (⟨S16, .f32⟩ : BufTy).Contents (Elt F)),
    unary main_v39 main_v40 (broadcastInDim S16x1 ![0] bcast_S16_S16x1_0 : (⟨S16, .f32⟩ : BufTy).Contents (Elt F) → (⟨S16x1, .f32⟩ : BufTy).Contents (Elt F)),
    unary main_v40 main_v41 (broadcastInDim S16x128 ![0, 1] bcast_S16x1_S16x128_0_1 : (⟨S16x1, .f32⟩ : BufTy).Contents (Elt F) → (⟨S16x128, .f32⟩ : BufTy).Contents (Elt F)),
    binary main_v32 main_v41 main_v42 (Host.divf : (⟨S16x128, .f32⟩ : BufTy).Contents (Elt F) → (⟨S16x128, .f32⟩ : BufTy).Contents (Elt F) → (⟨S16x128, .f32⟩ : BufTy).Contents (Elt F)),
    binary main_v37 main_v39 main_v43 (Host.divf : (⟨S16, .f32⟩ : BufTy).Contents (Elt F) → (⟨S16, .f32⟩ : BufTy).Contents (Elt F) → (⟨S16, .f32⟩ : BufTy).Contents (Elt F)),
    unary main_v42 main_v44 ((extractStridedSlice S14x128 ![0, 0] · slices_S16x128_S14x128_0_0) : (⟨S16x128, .f32⟩ : BufTy).Contents (Elt F) → (⟨S14x128, .f32⟩ : BufTy).Contents (Elt F)),
    unary main_v42 main_v45 ((extractStridedSlice S14x128 ![1, 0] · slices_S16x128_S14x128_1_0) : (⟨S16x128, .f32⟩ : BufTy).Contents (Elt F) → (⟨S14x128, .f32⟩ : BufTy).Contents (Elt F)) ]

/-- The closing formula, second part: the third window, the term of each triple, which triples exist, their sum, over the number of groups less two. -/
abbrev ops10 : List (HloOp τ sig (Elt F)) :=
  [ unary main_v42 main_v46 ((extractStridedSlice S14x128 ![2, 0] · slices_S16x128_S14x128_2_0) : (⟨S16x128, .f32⟩ : BufTy).Contents (Elt F) → (⟨S14x128, .f32⟩ : BufTy).Contents (Elt F)),
    binary main_v44 main_v46 main_v47 (addf : (⟨S14x128, .f32⟩ : BufTy).Contents (Elt F) → (⟨S14x128, .f32⟩ : BufTy).Contents (Elt F) → (⟨S14x128, .f32⟩ : BufTy).Contents (Elt F)),
    binary main_v45 main_v47 main_v48 (mulf : (⟨S14x128, .f32⟩ : BufTy).Contents (Elt F) → (⟨S14x128, .f32⟩ : BufTy).Contents (Elt F) → (⟨S14x128, .f32⟩ : BufTy).Contents (Elt F)),
    binary main_v44 main_v46 main_v49 (mulf : (⟨S14x128, .f32⟩ : BufTy).Contents (Elt F) → (⟨S14x128, .f32⟩ : BufTy).Contents (Elt F) → (⟨S14x128, .f32⟩ : BufTy).Contents (Elt F)),
    binary main_v48 main_v49 main_v50 (subf : (⟨S14x128, .f32⟩ : BufTy).Contents (Elt F) → (⟨S14x128, .f32⟩ : BufTy).Contents (Elt F) → (⟨S14x128, .f32⟩ : BufTy).Contents (Elt F)),
    nullary main_cst_12 (constant S_ .f32 0x00000000#32),
    binary main_v50 main_cst_12 main_v51 ((fun x v => Host.reduceAdd x v reducesTo_S14x128_S14_d1 h_S_) : (⟨S14x128, .f32⟩ : BufTy).Contents (Elt F) → (⟨S_, .f32⟩ : BufTy).Contents (Elt F) → (⟨S14, .f32⟩ : BufTy).Contents (Elt F)),
    unary main_v43 main_v52 ((extractStridedSlice S14 ![1] · slices_S16_S14_1) : (⟨S16, .f32⟩ : BufTy).Contents (Elt F) → (⟨S14, .f32⟩ : BufTy).Contents (Elt F)),
    binary main_v51 main_v52 main_v53 (subf : (⟨S14, .f32⟩ : BufTy).Contents (Elt F) → (⟨S14, .f32⟩ : BufTy).Contents (Elt F) → (⟨S14, .f32⟩ : BufTy).Contents (Elt F)),
    nullary main_v54 (iotaInDim S14 32 0),
    nullary main_c_13 (constantI S_ 32 2#32),
    unary main_c_13 main_v55 (broadcastInDim S14 ![] bcast_S_S14 : (⟨S_, .i32⟩ : BufTy).Contents (Elt F) → (⟨S14, .i32⟩ : BufTy).Contents (Elt F)),
    binary main_v54 main_v55 main_v56 (addi : (⟨S14, .i32⟩ : BufTy).Contents (Elt F) → (⟨S14, .i32⟩ : BufTy).Contents (Elt F) → (⟨S14, .i32⟩ : BufTy).Contents (Elt F)),
    unary main_v26 main_v57 (broadcastInDim S14 ![] bcast_S_S14 : (⟨S_, .i32⟩ : BufTy).Contents (Elt F) → (⟨S14, .i32⟩ : BufTy).Contents (Elt F)),
    binary main_v56 main_v57 main_v58 (cmpi .slt : (⟨S14, .i32⟩ : BufTy).Contents (Elt F) → (⟨S14, .i32⟩ : BufTy).Contents (Elt F) → (⟨S14, .i1⟩ : BufTy).Contents (Elt F)),
    nullary main_cst_14 (constant S_ .f32 0x00000000#32),
    TRef.unary (.of main_cst_14) main_call1.v0 id,
    TRef.unary main_call1.v0 main_call1.v1 (broadcastInDim S14 ![] bcast_S_S14),
    TRef.ternary (.of main_v58) (.of main_v53) main_call1.v1 main_call1.v2 select,
    nullary main_cst_15 (constant S_ .f32 0x00000000#32),
    binary main_v59 main_cst_15 main_v60 ((fun x v => Host.reduceAdd x v reducesTo_S14_S_d0 h_S_) : (⟨S14, .f32⟩ : BufTy).Contents (Elt F) → (⟨S_, .f32⟩ : BufTy).Contents (Elt F) → (⟨S_, .f32⟩ : BufTy).Contents (Elt F)),
    nullary main_c_16 (constantI S_ 32 2#32),
    binary main_v26 main_c_16 main_v61 (subi : (⟨S_, .i32⟩ : BufTy).Contents (Elt F) → (⟨S_, .i32⟩ : BufTy).Contents (Elt F) → (⟨S_, .i32⟩ : BufTy).Contents (Elt F)),
    unary main_v61 main_v62 (sitofp .f32 : (⟨S_, .i32⟩ : BufTy).Contents (Elt F) → (⟨S_, .f32⟩ : BufTy).Contents (Elt F)),
    binary main_v60 main_v62 main_v63 (Host.divf : (⟨S_, .f32⟩ : BufTy).Contents (Elt F) → (⟨S_, .f32⟩ : BufTy).Contents (Elt F) → (⟨S_, .f32⟩ : BufTy).Contents (Elt F)) ]

/-- The whole line, in program order. -/
abbrev ops : List (HloOp τ sig (Elt F)) :=
  ops0 ++ ops1 ++ ops2 ++ ops3 ++ ops4 ++ ops5 ++ ops6 ++ ops7 ++ ops8 ++ ops9 ++ ops10

theorem ops0_sub : (ops0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem ops0_fresh : (ops0 : List (HloOp τ sig (Elt F))).Forall fun op => op.fresh = ∅ :=
  ⟨rfl, rfl, rfl, rfl, rfl, rfl, rfl, rfl, rfl, rfl⟩
theorem ops1_sub : (ops1 : List (HloOp τ sig (Elt F))).Forall fun op => op.bufs ⊆ tcRefs τ sig :=
  ⟨nullary_bufs_sub .., unary_bufs_sub .., nullary_bufs_sub .., unary_bufs_sub .., unary_bufs_sub .., ternary_bufs_sub ..⟩
theorem ops1_fresh : (ops1 : List (HloOp τ sig (Elt F))).Forall fun op => op.fresh = ∅ :=
  ⟨rfl, rfl, rfl, rfl, rfl, rfl⟩
theorem ops2_sub : (ops2 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub ..⟩
theorem ops2_fresh : (ops2 : List (HloOp τ sig (Elt F))).Forall fun op => op.fresh = ∅ :=
  ⟨rfl, rfl, rfl, rfl, rfl, rfl, rfl, rfl, rfl, rfl⟩
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem ops3_fresh : (ops3 : List (HloOp τ sig (Elt F))).Forall fun op => op.fresh = ∅ :=
  ⟨rfl, rfl, rfl, rfl, rfl, rfl, rfl, rfl, rfl⟩
theorem ops4_sub : (ops4 : List (HloOp τ sig (Elt F))).Forall fun op => op.bufs ⊆ tcRefs τ sig :=
  ⟨unary_bufs_sub .., nullary_bufs_sub .., binary_bufs_sub ..⟩
theorem ops4_fresh : (ops4 : List (HloOp τ sig (Elt F))).Forall fun op => op.fresh = ∅ :=
  ⟨rfl, rfl, rfl⟩
theorem ops5_sub : (ops5 : List (HloOp τ sig (Elt F))).Forall fun op => op.bufs ⊆ tcRefs τ sig :=
  ⟨nullary_bufs_sub .., unary_bufs_sub .., unary_bufs_sub .., ternary_bufs_sub ..⟩
theorem ops5_fresh : (ops5 : List (HloOp τ sig (Elt F))).Forall fun op => op.fresh = ∅ :=
  ⟨rfl, rfl, rfl, rfl⟩
theorem ops6_sub : (ops6 : List (HloOp τ sig (Elt F))).Forall fun op => op.bufs ⊆ tcRefs τ sig :=
  ⟨nullary_bufs_sub .., unary_bufs_sub .., unary_bufs_sub .., ternary_bufs_sub ..⟩
theorem ops6_fresh : (ops6 : List (HloOp τ sig (Elt F))).Forall fun op => op.fresh = ∅ :=
  ⟨rfl, rfl, rfl, rfl⟩
theorem ops7_sub : (ops7 : List (HloOp τ sig (Elt F))).Forall fun op => op.bufs ⊆ tcRefs τ sig :=
  ⟨binary_bufs_sub .., nullary_bufs_sub .., binary_bufs_sub ..⟩
theorem ops7_fresh : (ops7 : List (HloOp τ sig (Elt F))).Forall fun op => op.fresh = ∅ :=
  ⟨rfl, rfl, rfl⟩
theorem ops8_sub : (ops8 : List (HloOp τ sig (Elt F))).Forall fun op => op.bufs ⊆ tcRefs τ sig :=
  ⟨nullary_bufs_sub .., unary_bufs_sub .., unary_bufs_sub .., ternary_bufs_sub ..⟩
theorem ops8_fresh : (ops8 : List (HloOp τ sig (Elt F))).Forall fun op => op.fresh = ∅ :=
  ⟨rfl, rfl, rfl, rfl⟩
theorem ops9_sub : (ops9 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., unary_bufs_sub .., unary_bufs_sub ..⟩
theorem ops9_fresh : (ops9 : List (HloOp τ sig (Elt F))).Forall fun op => op.fresh = ∅ :=
  ⟨rfl, rfl, rfl, rfl, rfl, rfl, rfl, rfl, rfl⟩
theorem ops10_sub : (ops10 : List (HloOp τ sig (Elt F))).Forall fun op => op.bufs ⊆ tcRefs τ sig :=
  ⟨unary_bufs_sub .., binary_bufs_sub .., binary_bufs_sub .., binary_bufs_sub .., binary_bufs_sub .., nullary_bufs_sub .., binary_bufs_sub .., unary_bufs_sub .., binary_bufs_sub .., nullary_bufs_sub .., nullary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub ..⟩
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Every operation of the line touches TensorCore buffers only. -/
theorem ops_sub : (ops : List (HloOp τ sig (Elt F))).Forall fun op => op.bufs ⊆ tcRefs τ sig := by
  simp only [ops, List.forall_append]
  exact ⟨⟨⟨⟨⟨⟨⟨⟨⟨⟨ops0_sub, ops1_sub⟩, ops2_sub⟩, ops3_sub⟩, ops4_sub⟩, ops5_sub⟩, ops6_sub⟩, ops7_sub⟩, ops8_sub⟩, ops9_sub⟩, ops10_sub⟩

/-- No operation of the line leaves its result to the machine's choice. -/
theorem ops_fresh : ∀ op ∈ (ops : List (HloOp τ sig (Elt F))), op.fresh = ∅ := by
  refine List.forall_iff_forall_mem.1 ?_
  simp only [ops, List.forall_append]
  exact ⟨⟨⟨⟨⟨⟨⟨⟨⟨⟨ops0_fresh, ops1_fresh⟩, ops2_fresh⟩, ops3_fresh⟩, ops4_fresh⟩, ops5_fresh⟩, ops6_fresh⟩, ops7_fresh⟩, ops8_fresh⟩, ops9_fresh⟩, ops10_fresh⟩

/-- The first sixty statements of the main function are the first ten stretches run in order: the running sum's two
    nested calls opened, what is left on both sides is one chain of the same operations. -/
theorem part0_eq (c : Dev nD) :
    main_part0 (F := F) c = seq (ops0 ++ ops1 ++ ops2 ++ ops3 ++ ops4 ++ ops5 ++ ops6 ++ ops7 ++ ops8 ++ ops9) := rfl

/-- The last twenty-four statements are the eleventh stretch: the masked choice's call opened. -/
theorem part1_eq (c : Dev nD) : main_part1 (F := F) c = seq ops10 := rfl

/-- The main function is the line run in order. -/
theorem main_eq (c : Dev nD) : main (F := F) c = seq ops := by
  show (main_part0 (F := F) c >>= fun _ => main_part1 (F := F) c) = _
  rw [part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

/-- The line writes neither argument. -/
theorem arg0_eq (V : Valuation τ sig (Elt F)) :
    after ops V (Proc.devRef .tc main_arg0) = V (Proc.devRef .tc main_arg0) := by
  simp only [ops, LibAfter.after_append]
  after_results_simp
theorem arg1_eq (V : Valuation τ sig (Elt F)) :
    after ops V (Proc.devRef .tc main_arg1) = V (Proc.devRef .tc main_arg1) := by
  simp only [ops, LibAfter.after_append]
  after_results_simp

/-- On every device, for any float values, from any memory with zero counters: every weakly fair execution of the main
    function terminates with the result buffer at the fold of the line's results over the launch contents, and the
    two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = after ops (launchContents m c) (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v63, (h c main_arg0).trans (arg0_eq _), (h c main_arg1).trans (arg1_eq _)⟩)
    (run_seq scopedRefs_eq scopedSems_eq defs main (fun _ => ops) main_eq (fun _ => ops_sub) m ρ (fun _ => ops_fresh))

/-- The same run, keeping only that it ends and leaves the arguments as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.Hand

end
-- ==== Proof.Ref.Stages.lean ====
/-
  The reference's host operations up to the renumbering, each read as a function of the two inputs.

  The raw counts: a scatter-add of ones at the scores adds, at score value g, one for every row of score g. The
  normalised rows: the row's sum of squares, its square root floored at the small constant, broadcast along the row and
  divided into the row; and the squared norm of each normalised row. The new number of each row: the table of new
  numbers read at the row's score; for scores in 0..15 the negative-index wrap leaves the score alone and the clamp
  into the table does nothing.
-/
import proofs.«421733_j6923487282636_2_alg».proof.Proof.Gen.ReferenceIdeal
import proofs.«421733_j6923487282636_2_alg».proof.Proof.Spec
import proofs.«421733_j6923487282636_2_alg».proof.Proof.LibGatherScatter
import proofs.«421733_j6923487282636_2_alg».proof.Proof.Math.Regroup
import Idealize.ShloMosaic.Lib.IdealHost
import Idealize.ShloMosaic.Lib.StableHlo.Predicate

open scoped BigOperators

noncomputable section

namespace Cert.ReferenceIdeal.HandValue

open Idealize.ShloMosaic Idealize.ShloMosaic.ValueIdx Idealize.ShloMosaic.StableHlo.Predicate Idealize.ShloMosaic.RowOps
open Cert.ReferenceIdeal Cert.ReferenceIdeal.Facts₀

/-! ## The operands the stages share -/

/-- A vector of 500000 entries as a [500000 × 1] column. -/
abbrev col {α : Type} (v : S500000.Idx → α) : S500000x1.Idx → α :=
  broadcastInDim S500000x1 ![0] bcast_S500000_S500000x1_0 v

/-- Sixteen zeros. -/
abbrev zeros16 : FVec Ideal S16 .f32 := broadcastInDim S16 ![] bcast_S_S16 (constant S_ .f32 0x00000000#32)

/-- A [16 × 128] array of zeros. -/
abbrev zeros16x128 : FVec Ideal S16x128 .f32 :=
  broadcastInDim S16x128 ![] bcast_S_S16x128 (constant S_ .f32 0x00000000#32)

/-- 500000 ones. -/
abbrev ones : FVec Ideal S500000 .f32 := broadcastInDim S500000 ![] bcast_S_S500000 (constant S_ .f32 0x3F800000#32)

/-- The column reads, at row e, the vector at e. -/
theorem col_apply {α : Type} (v : S500000.Idx → α) (e : Fin 500000) : col v (ixP e) = v (ix1 e) := by
  have h := bcast_col1 bcast_S500000_S500000x1_0 v e
  rw [ofFin_eq_ix1] at h
  exact h

theorem zeros16_apply (i : S16.Idx) : zeros16 i = 0 := by
  show broadcastInDim S16 ![] bcast_S_S16 (constant (F := Ideal) S_ .f32 0x00000000#32) i = 0
  rw [broadcastInDim_scalar_apply, constant_apply, Ideal.ofBits_zero_f32]

theorem zeros16x128_apply (i : S16x128.Idx) : zeros16x128 i = 0 := by
  show broadcastInDim S16x128 ![] bcast_S_S16x128 (constant (F := Ideal) S_ .f32 0x00000000#32) i = 0
  rw [broadcastInDim_scalar_apply, constant_apply, Ideal.ofBits_zero_f32]

theorem ones_apply (i : S500000.Idx) : ones i = 1 := by
  show broadcastInDim S500000 ![] bcast_S_S500000 (constant (F := Ideal) S_ .f32 0x3F800000#32) i = 1
  rw [broadcastInDim_scalar_apply, constant_apply, Ideal.ofBits_one_f32]

/-- A host scatter-add read at an index is the exact one: the operand's element plus the sum of the updates landing there. -/
theorem hostScatterAdd_apply {sh si u : Shape} {w : Nat} {φ : FTy} (d : ScatterDims sh si u) (a : FVec Ideal sh φ)
    (idx : IVec si w) (upd : FVec Ideal u φ) (i : sh.Idx) :
    Host.scatterAdd d a idx upd i = Ideal.hostScatterAdd d a idx upd i := rfl

/-- The arrays of per-score and per-group sums read at an index. -/
theorem cntV_apply (s : IVec S500000 32) (g : Fin 16) : Cert.Spec.cntV s (ix1 g) = Cert.Spec.cnt s g := rfl

theorem cntC_apply (s : IVec S500000 32) (j : Fin 16) :
    Cert.Spec.cntC s (ix1 j)
      = ∑ g ∈ Finset.univ.filter (fun g : Fin 16 => Cert.Spec.newNo s g = (j.val : Int)), Cert.Spec.cnt s g := rfl

theorem featC_apply (x : FVec Ideal S500000x128 .f32) (s : IVec S500000 32) (j : Fin 16) (k : Fin 128) :
    Cert.Spec.featC x s (ix2 j k)
      = ∑ g ∈ Finset.univ.filter (fun g : Fin 16 => Cert.Spec.newNo s g = (j.val : Int)), Cert.Spec.featSum x s g k :=
  rfl

theorem sqC_apply (x : FVec Ideal S500000x128 .f32) (s : IVec S500000 32) (j : Fin 16) :
    Cert.Spec.sqC x s (ix1 j)
      = ∑ g ∈ Finset.univ.filter (fun g : Fin 16 => Cert.Spec.newNo s g = (j.val : Int)), Cert.Spec.sqSum x s g := rfl

/-- A row of the column of scores lands on g exactly when the row has score g. -/
theorem lands_col_iff (s : IVec S500000 32) (e : Fin 500000) (g : Nat) :
    lands (col s) e g ↔ Cert.Spec.hasScore s e g := by
  unfold lands Cert.Spec.hasScore
  rw [col_apply]

/-! ## (1) The raw counts -/

/-- The raw counts: ones scatter-added at the scores. -/
def rawCounts (s : IVec S500000 32) : FVec Ideal S16 .f32 :=
  Host.scatterAdd scatter_S16_S500000x1_S500000_n_0_0_1 zeros16 (col s) ones

/-- The scatter-add of ones at the scores is the count of each score value. -/
theorem raw_counts (s : IVec S500000 32) : rawCounts s = Cert.Spec.cntV s := by
  funext i
  obtain ⟨g, rfl⟩ : ∃ g : Fin 16, i = ix1 g := ⟨i 0, eq_ix1 i⟩
  rw [rawCounts, hostScatterAdd_apply, cntV_apply, scatterAdd_row1 _ rfl rfl rfl rfl, zeros16_apply, zero_add]
  unfold Cert.Spec.cnt
  refine Finset.sum_congr (Finset.filter_congr fun e _ => lands_col_iff s e g.val) (fun e _ => ones_apply _)

/-! ## (2) The normalised rows and their squared norms -/

/-- The two spellings of a rank-2 index by coordinates agree. -/
theorem ij_eq_ix2 {n m : Nat} (p : Fin n) (q : Fin m) : ij p q = ix2 p q := by
  funext a
  match a with
  | ⟨0, _⟩ => rfl
  | ⟨1, _⟩ => rfl

/-- A [500000 × 1] column broadcast along the rows reads, at (e, k), the column at e. -/
theorem bcast_row_apply {α : Type} (v : S500000x1.Idx → α) (e : Fin 500000) (k : Fin 128) :
    broadcastInDim S500000x128 ![0, 1] bcast_S500000x1_S500000x128_0_1 v (ix2 e k) = v (ixP e) := by
  have h := bcast_of_col bcast_S500000x1_S500000x128_0_1 v e k
  rw [ij_eq_ix2] at h
  exact h

/-- A host sum from zero over the second axis of a [500000 × 128] array, read at row e: the sum of the row. -/
theorem rowSum_apply (y : FVec Ideal S500000x128 .f32) (e : Fin 500000) :
    Host.reduceAdd y (constant S_ .f32 0x00000000#32) reducesTo_S500000x128_S500000_d1 h_S_ (ix1 e)
      = ∑ k : Fin 128, y (ix2 e k) := by
  have hr : S500000x128.Reduces [1] S500000 := by decide
  rw [hostReduceAdd_apply, Ideal.hostReduceAdd_single reducesTo_S500000x128_S500000_d1 hr, constant_apply,
    Ideal.ofBits_zero_f32, zero_add]
  show ∑ k : Fin 128, y (hr.lift (ix1 e) k) = ∑ k : Fin 128, y (ix2 e k)
  refine Finset.sum_congr rfl (fun k _ => congrArg y ?_)
  funext c
  match c with
  | ⟨0, _⟩ => exact Fin.ext rfl
  | ⟨1, _⟩ => exact Fin.ext rfl

/-- A host square root at an index is the square root of the element. -/
theorem hostSqrt_apply {sh : Shape} {φ : FTy} (a : FVec Ideal sh φ) (i : sh.Idx) :
    Host.sqrt a i = Ideal.sqrt (a i) := rfl

/-- The floored norms as a column: the square root of each row's sum of squares, floored at the small constant. -/
def normCol (x : FVec Ideal S500000x128 .f32) : FVec Ideal S500000x1 .f32 :=
  maximumf
    (Host.sqrt (col
      (Host.reduceAdd (mulf x x) (constant S_ .f32 0x00000000#32) reducesTo_S500000x128_S500000_d1 h_S_)))
    (broadcastInDim S500000x1 ![] bcast_S_S500000x1 (constant S_ .f32 0x2B8CBCCC#32))

theorem normCol_apply (x : FVec Ideal S500000x128 .f32) (e : Fin 500000) :
    normCol x (ixP e) = Cert.Spec.rowNorm x e := by
  unfold normCol Cert.Spec.rowNorm Cert.Spec.sumSq Cert.Spec.floorD
  rw [maximumf_apply, hostSqrt_apply, col_apply, rowSum_apply, broadcastInDim_scalar_apply, constant_apply]
  simp only [mulf_apply]

/-- The reference's normalised rows: each entry over its row's floored norm. -/
def unitRows (x : FVec Ideal S500000x128 .f32) : FVec Ideal S500000x128 .f32 :=
  Host.divf x (broadcastInDim S500000x128 ![0, 1] bcast_S500000x1_S500000x128_0_1 (normCol x))

theorem unitRows_apply (x : FVec Ideal S500000x128 .f32) (e : Fin 500000) (k : Fin 128) :
    unitRows x (ix2 e k) = Cert.Spec.unitF x e k := by
  unfold unitRows
  rw [hostDivf_apply, bcast_row_apply, normCol_apply]
  rfl

/-- The squared norm of each normalised row. -/
def unitSqs (x : FVec Ideal S500000x128 .f32) : FVec Ideal S500000 .f32 :=
  Host.reduceAdd (mulf (unitRows x) (unitRows x)) (constant S_ .f32 0x00000000#32)
    reducesTo_S500000x128_S500000_d1 h_S_

theorem unitSqs_apply (x : FVec Ideal S500000x128 .f32) (e : Fin 500000) :
    unitSqs x (ix1 e) = Cert.Spec.unitSq x e := by
  unfold unitSqs Cert.Spec.unitSq
  rw [rowSum_apply]
  refine Finset.sum_congr rfl (fun k _ => ?_)
  rw [mulf_apply, unitRows_apply]

/-! ## (3) The new number of each row -/

/-- 500000 integer zeros. -/
abbrev zerosI : IVec S500000 32 := broadcastInDim S500000 ![] bcast_S_S500000 (constantI S_ 32 0#32)

/-- 500000 integer sixteens. -/
abbrev sixteens : IVec S500000 32 := broadcastInDim S500000 ![] bcast_S_S500000 (constantI S_ 32 16#32)

/-- The scores with a negative one wrapped by sixteen (the indexing convention for a negative position). -/
def wrapped (s : IVec S500000 32) : IVec S500000 32 := select (cmpi .slt s zerosI) (addi s sixteens) s

/-- A score that is not negative is left alone. -/
theorem wrapped_apply (s : IVec S500000 32)
    (hs : ∀ e : Fin 500000, 0 ≤ (s (ix1 e)).toInt ∧ (s (ix1 e)).toInt < 16) (e : Fin 500000) :
    wrapped s (ix1 e) = s (ix1 e) := by
  unfold wrapped
  rw [select_apply]
  have hc : cmpi .slt s zerosI (ix1 e) = 0#1 := by
    apply eq_zero_of_ne_one
    intro h
    have h' : IntOp.cmpi .slt (s (ix1 e)) 0#32 = 1#1 := h
    have hlt := IntOp.cmpi_slt.1 h'
    have z : (0#32 : BitVec 32).toInt = 0 := by decide
    rw [z] at hlt
    have := (hs e).1
    omega
  rw [hc, select_zero]

/-- The new number of each row: the table of new numbers (made from the counts rc) read at the row's (wrapped) score. -/
def segOf (rc : FVec Ideal S16 .f32) (s : IVec S500000 32) : IVec S500000 32 :=
  Host.gather gather_S16_S500000x1_S500000_n_0_n_n_0_1_1 (Cert.Spec.remap (F := Ideal) rc) (col (wrapped s))

/-- Row e's new number is the new number of its score. -/
theorem seg_apply (s : IVec S500000 32)
    (hs : ∀ e : Fin 500000, 0 ≤ (s (ix1 e)).toInt ∧ (s (ix1 e)).toInt < 16) (e : Fin 500000) :
    segOf (Cert.Spec.cntV s) s (ix1 e) = Cert.Spec.remap (F := Ideal) (Cert.Spec.cntV s) (ix1 (Cert.Math.scoreOf s hs e)) := by
  unfold segOf
  rw [gather_row1 _ rfl rfl rfl rfl _ _ e (by decide : 0 < 16)]
  congr 2
  apply clampRow_of_lands
  unfold lands
  rw [col_apply, wrapped_apply s hs]
  show (s (ix1 e)).toInt = (((s (ix1 e)).toInt.toNat : Nat) : Int)
  rw [Int.toNat_of_nonneg (hs e).1]

/-- The same as signed integers. -/
theorem seg_toInt (s : IVec S500000 32)
    (hs : ∀ e : Fin 500000, 0 ≤ (s (ix1 e)).toInt ∧ (s (ix1 e)).toInt < 16) (e : Fin 500000) :
    (segOf (Cert.Spec.cntV s) s (ix1 e)).toInt = Cert.Spec.newNo s (Cert.Math.scoreOf s hs e) := by
  rw [seg_apply s hs e]
  rfl

/-- A row of the column of new numbers lands on j exactly when its score's new number is j. -/
theorem lands_seg_iff (s : IVec S500000 32)
    (hs : ∀ e : Fin 500000, 0 ≤ (s (ix1 e)).toInt ∧ (s (ix1 e)).toInt < 16) (e : Fin 500000) (j : Nat) :
    lands (col (segOf (Cert.Spec.cntV s) s)) e j ↔ Cert.Spec.newNo s (Cert.Math.scoreOf s hs e) = (j : Int) := by
  unfold lands
  rw [col_apply, seg_toInt s hs e]

/-! ## (4) The regrouped sums -/

/-- The regrouped counts: ones scatter-added at the rows' new numbers (the table of new numbers made from rc). -/
def cntT (rc : FVec Ideal S16 .f32) (s : IVec S500000 32) : FVec Ideal S16 .f32 :=
  Host.scatterAdd scatter_S16_S500000x1_S500000_n_0_0_1 zeros16 (col (segOf rc s)) ones

/-- The regrouped feature sums: the normalised rows scatter-added at the rows' new numbers. -/
def featT (rc : FVec Ideal S16 .f32) (x : FVec Ideal S500000x128 .f32) (s : IVec S500000 32) :
    FVec Ideal S16x128 .f32 :=
  Host.scatterAdd scatter_S16x128_S500000x1_S500000x128_1_0_0_1 zeros16x128 (col (segOf rc s)) (unitRows x)

/-- The regrouped squared norms: the rows' squared norms scatter-added at the rows' new numbers. -/
def sqT (rc : FVec Ideal S16 .f32) (x : FVec Ideal S500000x128 .f32) (s : IVec S500000 32) : FVec Ideal S16 .f32 :=
  Host.scatterAdd scatter_S16_S500000x1_S500000_n_0_0_1 zeros16 (col (segOf rc s)) (unitSqs x)

/-- Group j's count is the sum, over the score values renumbered j, of their counts. -/
theorem cnt_regrouped (s : IVec S500000 32)
    (hs : ∀ e : Fin 500000, 0 ≤ (s (ix1 e)).toInt ∧ (s (ix1 e)).toInt < 16) :
    cntT (Cert.Spec.cntV s) s = Cert.Spec.cntC s := by
  funext i
  obtain ⟨j, rfl⟩ : ∃ j : Fin 16, i = ix1 j := ⟨i 0, eq_ix1 i⟩
  rw [cntT, hostScatterAdd_apply, cntC_apply, scatterAdd_row1 _ rfl rfl rfl rfl, zeros16_apply, zero_add]
  unfold Cert.Spec.cnt
  refine (Finset.sum_congr (Finset.filter_congr fun e _ => lands_seg_iff s hs e j.val)
    (fun e _ => ones_apply (ix1 e))).trans ?_
  exact Cert.Math.sum_regroup_scores s hs (Cert.Spec.newNo s) (fun _ => (1 : EReal)) (j.val : Int)

/-- Group j's feature sum is the sum, over the score values renumbered j, of their feature sums. -/
theorem feat_regrouped (x : FVec Ideal S500000x128 .f32) (s : IVec S500000 32)
    (hs : ∀ e : Fin 500000, 0 ≤ (s (ix1 e)).toInt ∧ (s (ix1 e)).toInt < 16) :
    featT (Cert.Spec.cntV s) x s = Cert.Spec.featC x s := by
  funext i
  obtain ⟨j, k, rfl⟩ : ∃ (j : Fin 16) (k : Fin 128), i = ix2 j k := ⟨i 0, i 1, eq_ix2 i⟩
  rw [featT, hostScatterAdd_apply, featC_apply, scatterAdd_rows _ rfl rfl rfl rfl, zeros16x128_apply, zero_add]
  unfold Cert.Spec.featSum
  refine (Finset.sum_congr (Finset.filter_congr fun e _ => lands_seg_iff s hs e j.val)
    (fun e _ => unitRows_apply x e k)).trans ?_
  exact Cert.Math.sum_regroup_scores s hs (Cert.Spec.newNo s) (fun e => Cert.Spec.unitF x e k) (j.val : Int)

/-- Group j's squared-norm sum is the sum, over the score values renumbered j, of their squared-norm sums. -/
theorem sq_regrouped (x : FVec Ideal S500000x128 .f32) (s : IVec S500000 32)
    (hs : ∀ e : Fin 500000, 0 ≤ (s (ix1 e)).toInt ∧ (s (ix1 e)).toInt < 16) :
    sqT (Cert.Spec.cntV s) x s = Cert.Spec.sqC x s := by
  funext i
  obtain ⟨j, rfl⟩ : ∃ j : Fin 16, i = ix1 j := ⟨i 0, eq_ix1 i⟩
  rw [sqT, hostScatterAdd_apply, sqC_apply, scatterAdd_row1 _ rfl rfl rfl rfl, zeros16_apply, zero_add]
  unfold Cert.Spec.sqSum
  refine (Finset.sum_congr (Finset.filter_congr fun e _ => lands_seg_iff s hs e j.val)
    (fun e _ => unitSqs_apply x e)).trans ?_
  exact Cert.Math.sum_regroup_scores s hs (Cert.Spec.newNo s) (fun e => Cert.Spec.unitSq x e) (j.val : Int)

/-! ## (5) The reference's value -/

/-- The closing formula over the reference's regrouped sums and its number of groups is the loss. -/
theorem ref_value (x : FVec Ideal S500000x128 .f32) (s : IVec S500000 32)
    (hs : ∀ e : Fin 500000, 0 ≤ (s (ix1 e)).toInt ∧ (s (ix1 e)).toInt < 16) :
    Cert.Spec.finish (F := Ideal) (cntT (rawCounts s) s) (featT (rawCounts s) x s) (sqT (rawCounts s) x s)
        (Cert.Spec.nGroups (F := Ideal) (rawCounts s))
      = Cert.Spec.loss x s := by
  rw [raw_counts s, cnt_regrouped s hs, feat_regrouped x s hs, sq_regrouped x s hs]
  rfl

end Cert.ReferenceIdeal.HandValue

end
-- ==== Proof.Ref.Read.lean ====
/-
  The reference program's fold, opened one buffer at a time. After the whole line of operations, each buffer a later
  stage reads holds its own operation's function of the buffers before it: the normalised rows and their squared norms
  are functions of the feature rows alone; the raw counts of the scores alone; the table of new numbers and the number
  of occurring score values are the shared renumbering and count over the raw counts; each row's new number is read out
  of that table at the row's score; the three regrouped sums add a one, the normalised row and its squared norm at the
  row's new number; and the result is the shared closing formula over those three sums and the number of groups.
-/
import proofs.«421733_j6923487282636_2_alg».proof.Proof.Ref.Run
import proofs.«421733_j6923487282636_2_alg».proof.Proof.Spec

noncomputable section

namespace Cert.ReferenceIdeal.Hand

open Cert.ReferenceIdeal Cert.ReferenceIdeal.Gen Idealize.ShloMosaic Idealize.ShloMosaic.TcCoe Idealize.SL.Sem
open Idealize.ShloMosaic.StableHlo Cert

variable {F : FTy → Type} [FloatOps F]

/-! ## The buffers the later stages read, each as a typed value after the whole line -/

section Values

variable (V : Valuation τ sig (Elt F))

/-- The two arguments at launch: the feature rows and the score of each row. -/
abbrev xIn : FVec F S500000x128 .f32 := V (Proc.devRef .tc main_arg0)
abbrev sIn : IVec S500000 32 := V (Proc.devRef .tc main_arg1)

/-- The normalised rows, their squared norms, the raw counts, the table of new numbers, the number of occurring score
    values, each row's new number, the three regrouped sums and the result, after the whole line. -/
abbrev v7 : FVec F S500000x128 .f32 := after ops V (Proc.devRef .tc main_v7)
abbrev v34 : FVec F S500000 .f32 := after ops V (Proc.devRef .tc main_v34)
abbrev v11 : FVec F S16 .f32 := after ops V (Proc.devRef .tc main_v11)
abbrev v17 : IVec S16 32 := after ops V (Proc.devRef .tc main_v17)
abbrev v26 : IVec S_ 32 := after ops V (Proc.devRef .tc main_v26)
abbrev v24 : IVec S500000 32 := after ops V (Proc.devRef .tc main_v24)
abbrev v29 : FVec F S16 .f32 := after ops V (Proc.devRef .tc main_v29)
abbrev v32 : FVec F S16x128 .f32 := after ops V (Proc.devRef .tc main_v32)
abbrev v37 : FVec F S16 .f32 := after ops V (Proc.devRef .tc main_v37)
abbrev v63 : FVec F S_ .f32 := after ops V (Proc.devRef .tc main_v63)

end Values

variable (V : Valuation τ sig (Elt F))

/-- The normalised rows: each row over the larger of its norm and the floor. -/
theorem val_v7 :
    v7 V = Host.divf (xIn V) (broadcastInDim S500000x128 ![0, 1] bcast_S500000x1_S500000x128_0_1
      (maximumf (Host.sqrt (broadcastInDim S500000x1 ![0] bcast_S500000_S500000x1_0
          (Host.reduceAdd (mulf (xIn V) (xIn V)) (constant S_ .f32 0x00000000#32) reducesTo_S500000x128_S500000_d1 h_S_)))
        (broadcastInDim S500000x1 ![] bcast_S_S500000x1 (constant S_ .f32 0x2B8CBCCC#32)))) := by
  simp only [v7, xIn, ops, LibAfter.after_append]
  after_results_simp

/-- The raw counts: a one added at each row's score, from zeros. -/
theorem val_v11 :
    v11 V = Host.scatterAdd scatter_S16_S500000x1_S500000_n_0_0_1
      (broadcastInDim S16 ![] bcast_S_S16 (constant S_ .f32 0x00000000#32))
      (broadcastInDim S500000x1 ![0] bcast_S500000_S500000x1_0 (sIn V))
      (broadcastInDim S500000 ![] bcast_S_S500000 (constant S_ .f32 0x3F800000#32)) := by
  simp only [v11, sIn, ops, LibAfter.after_append]
  after_results_simp

/-- The squared norms of the normalised rows. -/
theorem val_v34 :
    v34 V = Host.reduceAdd (mulf (v7 V) (v7 V)) (constant S_ .f32 0x00000000#32) reducesTo_S500000x128_S500000_d1 h_S_ := by
  simp only [v34, v7, ops, LibAfter.after_append]
  after_results_simp

attribute [local irreducible] Host.reduceWindow Host.scatterAdd in
/-- The table of new numbers is the shared renumbering of the raw counts. -/
theorem val_v17 : v17 V = Cert.Spec.remap (v11 V) := by
  simp only [v17, v11, ops, LibAfter.after_append]
  after_results_simp
  rfl

/-- The number of occurring score values is the shared count over the raw counts. -/
theorem val_v26 : v26 V = Cert.Spec.nGroups (v11 V) := by
  simp only [v26, v11, ops, LibAfter.after_append]
  after_results_simp
  rfl

/-- Each row's new number: its score, wrapped into 0..15 when negative, read out of the table of new numbers. -/
theorem val_v24 :
    v24 V = Host.gather gather_S16_S500000x1_S500000_n_0_n_n_0_1_1 (v17 V)
      (broadcastInDim S500000x1 ![0] bcast_S500000_S500000x1_0
        (select (cmpi .slt (sIn V) (broadcastInDim S500000 ![] bcast_S_S500000 (constantI S_ 32 0#32)))
          (addi (sIn V) (broadcastInDim S500000 ![] bcast_S_S500000 (constantI S_ 32 16#32))) (sIn V))) := by
  simp only [v24, v17, sIn, ops, LibAfter.after_append]
  after_results_simp

/-- The counts regrouped: a one added at each row's new number. -/
theorem val_v29 :
    v29 V = Host.scatterAdd scatter_S16_S500000x1_S500000_n_0_0_1
      (broadcastInDim S16 ![] bcast_S_S16 (constant S_ .f32 0x00000000#32))
      (broadcastInDim S500000x1 ![0] bcast_S500000_S500000x1_0 (v24 V))
      (broadcastInDim S500000 ![] bcast_S_S500000 (constant S_ .f32 0x3F800000#32)) := by
  simp only [v29, v24, ops, LibAfter.after_append]
  after_results_simp

/-- The feature sums regrouped: each normalised row added at its new number. -/
theorem val_v32 :
    v32 V = Host.scatterAdd scatter_S16x128_S500000x1_S500000x128_1_0_0_1
      (broadcastInDim S16x128 ![] bcast_S_S16x128 (constant S_ .f32 0x00000000#32))
      (broadcastInDim S500000x1 ![0] bcast_S500000_S500000x1_0 (v24 V)) (v7 V) := by
  simp only [v32, v24, v7, ops, LibAfter.after_append]
  after_results_simp

/-- The squared norms regrouped: each added at its row's new number. -/
theorem val_v37 :
    v37 V = Host.scatterAdd scatter_S16_S500000x1_S500000_n_0_0_1
      (broadcastInDim S16 ![] bcast_S_S16 (constant S_ .f32 0x00000000#32))
      (broadcastInDim S500000x1 ![0] bcast_S500000_S500000x1_0 (v24 V)) (v34 V) := by
  simp only [v37, v24, v34, ops, LibAfter.after_append]
  after_results_simp

attribute [local irreducible] Host.reduceAdd Host.reduce Host.scatterAdd Host.divf Host.gather Host.reduceWindow Host.sqrt in
set_option maxHeartbeats 1000000 in
/-- The result is the shared closing formula over the three regrouped sums and the number of occurring score values. -/
theorem val_v63 : v63 V = Cert.Spec.finish (v29 V) (v32 V) (v37 V) (v26 V) := by
  simp only [v63, v29, v32, v37, v26, ops, LibAfter.after_append]
  after_results_simp
  rfl

end Cert.ReferenceIdeal.Hand

end
-- ==== Proof.Ref.Value.lean ====
/-
  The reference's result as one function of its two arguments.

  Read back operation by operation, the reference's result buffer holds the closing formula over three scatter-adds at
  the rows' new numbers and the number of occurring score values, each of them a printed function of the two argument
  buffers. Those functions are the regrouped counts, feature sums and squared-norm sums of the normalised rows, so the
  result is the loss of the two arguments, provided every score lies in 0..15.
-/
import proofs.«421733_j6923487282636_2_alg».proof.Proof.Ref.Stages
import proofs.«421733_j6923487282636_2_alg».proof.Proof.Ref.Read

noncomputable section

namespace Cert.ReferenceIdeal.HandValue

open Idealize.ShloMosaic Idealize.ShloMosaic.ValueIdx Idealize.ShloMosaic.StableHlo
open Cert.ReferenceIdeal Cert.ReferenceIdeal.Hand

/-- The contents of the reference's result buffer after its operations, from any starting contents whose score
    argument lies in 0..15: the loss of the two arguments. -/
theorem ref_value_V (V : Valuation τ sig (Elt Ideal))
    (hs : ∀ e : Fin 500000, 0 ≤ (sIn V (ix1 e)).toInt ∧ (sIn V (ix1 e)).toInt < 16) :
    v63 V = Cert.Spec.loss (xIn V) (sIn V) := by
  rw [val_v63, val_v29, val_v32, val_v37, val_v26, val_v24, val_v17, val_v34, val_v7, val_v11]
  exact ref_value (xIn V) (sIn V) hs

end Cert.ReferenceIdeal.HandValue

end
-- ==== Proof.lean ====
/-
  THE CERTIFICATE. Per-score sums of L2-normalised rows, computed two ways, are one function of the inputs.

  The reference normalises each row by its norm floored at D (the single-precision number nearest 1e-12), then for
  each score value sums the count, the normalised features and the squared normalised norms with host scatter-adds,
  renumbers the occurring score values by a running count and regroups the sums with a gather and three more
  scatter-adds. The kernel multiplies each row by the reciprocal square root of its sum of squares floored at D²
  (the constant the idealization names), forms the same per-score sums on a 2 × 49 grid over the rows padded with
  1760 zero rows of score −1 — a one-hot matrix of each block of 5120 rows contracted against the block, each half
  of the grid accumulating into its own result block —, adds the two halves and regroups on the host. On finite
  rows the two normalisations agree (max S D² = (max √S D)²), a padded row's one-hot is zero, and for scores in
  0..15 summing by new number the rows of each score value is summing the rows by their own new number; the closing
  formula is the same text in both programs. Both results are the function `Cert.Spec.loss` of the inputs.

  The three frames: the two kernel programs run by the pipeline's frame theorem around the region (the body's two
  control cases run symbolically, the 69 later host operations writing no kept buffer); the reference by the run of
  its 87 host operations. The idealization's one rewrite is the named constant's value.
-/
import proofs.«421733_j6923487282636_2_alg».proof.Defs
import proofs.«421733_j6923487282636_2_alg».proof.Proof.Gen.Kernel
import proofs.«421733_j6923487282636_2_alg».proof.Proof.Gen.KernelIdeal
import proofs.«421733_j6923487282636_2_alg».proof.Proof.Gen.ReferenceIdeal
import proofs.«421733_j6923487282636_2_alg».proof.Proof.Gen.Pre_finite_inputs
import proofs.«421733_j6923487282636_2_alg».proof.Proof.PreFacts
import proofs.«421733_j6923487282636_2_alg».proof.Proof.K.Frame
import proofs.«421733_j6923487282636_2_alg».proof.Proof.KI.Frame
import proofs.«421733_j6923487282636_2_alg».proof.Proof.KI.Eps
import proofs.«421733_j6923487282636_2_alg».proof.Proof.KI.Arrays
import proofs.«421733_j6923487282636_2_alg».proof.Proof.KI.TailValue
import proofs.«421733_j6923487282636_2_alg».proof.Proof.KI.TailRun
import proofs.«421733_j6923487282636_2_alg».proof.Proof.Ref.Run
import proofs.«421733_j6923487282636_2_alg».proof.Proof.Ref.Value
import Idealize.ShloMosaic.Adequacy
import Idealize.ShloMosaic.Init

noncomputable section

namespace Cert.Proof

open Idealize.ShloMosaic Idealize.ShloMosaic.TcCoe Idealize.SL.Sem

/-- The kernel's result, read off its frame run: the later host operations applied to the two result arrays, which
    hold the per-half sums; under finite rows that is the common loss of the two argument arrays. -/
theorem kernel_value (m : (ℓ : Loc Cert.KernelIdeal.nD Cert.KernelIdeal.τ Cert.KernelIdeal.sig) → Buf (Elt Ideal) ℓ)
    (c : Dev Cert.KernelIdeal.nD)
    (hfin : ∀ i, ∃ r : ℝ, (m ((c : Thread Cert.KernelIdeal.nD Cert.KernelIdeal.τ).loc Cert.KernelIdeal.main_arg0) : Cert.Spec.SBx128.Idx → EReal) i = (r : EReal)) :
    Pipeline.afterTail₀ Cert.KernelIdeal.cfgs (Cert.KernelIdeal.Hand.dats m) 0 (Cert.KernelIdeal.Hand.V0 m)
        Cert.KernelIdeal.Hand.tail c Cert.KernelIdeal.main_v55
      = Cert.Spec.loss (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [Cert.KernelIdeal.HandTail.tail_of_run m c]
  show Cert.KernelIdeal.HandTail.kTail (F := Ideal) (Cert.KernelIdeal.HandValue.res2 m c) (Cert.KernelIdeal.HandValue.res3 m c) = _
  exact Cert.KernelIdeal.HandTail.tail_value _ _ (Cert.KernelIdeal.HandValue.res2 m c) (Cert.KernelIdeal.HandValue.res3 m c)
    (fun g => Cert.KernelIdeal.HandValue.arr3_cnt m c g)
    (fun g k => Cert.KernelIdeal.HandValue.arr2_sum m c hfin Cert.KernelIdeal.HandValue.eps_sq_val g k)
    (fun g => Cert.KernelIdeal.HandValue.arr3_sq m c hfin Cert.KernelIdeal.HandValue.eps_sq_val g)

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- From memories that agree on the arguments, under finite rows and scores in 0..15, both programs end with the
    common loss of the arguments. -/
theorem algebraic : Cert.algebraic_KernelIdeal_ReferenceIdeal := by
  intro m ρ m' ρ' hpre hagree
  refine ⟨fun c => Cert.Spec.loss (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun r h c => ?_) (Cert.KernelIdeal.Hand.run_main m ρ)
    have hfin := Cert.PreFacts.finite_of_pre _ _ (hpre c)
    refine ⟨?_, ?_, ?_⟩
    · exact ((h c).2 Cert.KernelIdeal.main_v55 (Pipeline.mem_restRefs_of _ (by decide) (by decide))).trans
        (kernel_value m c hfin)
    · exact ((h c).2 Cert.KernelIdeal.main_arg0 (Pipeline.mem_restRefs_of _ (by decide) (by decide))).trans
        ((Cert.KernelIdeal.Hand.afterTail_kept m c _ (by decide) (by decide)).trans (Cert.KernelIdeal.Hand.V_main_arg0 m c))
    · exact ((h c).2 Cert.KernelIdeal.main_arg1 (Pipeline.mem_restRefs_of _ (by decide) (by decide))).trans
        ((Cert.KernelIdeal.Hand.afterTail_kept m c _ (by decide) (by decide)).trans (Cert.KernelIdeal.Hand.V_main_arg1 m c))
  · refine (θ_run Cert.ReferenceIdeal.defs _ _).mono (fun r h c => ⟨(h c).1.trans ?_, (h c).2.1, (h c).2.2⟩)
      (Cert.ReferenceIdeal.Hand.run m' ρ')
    have hrange := Cert.PreFacts.range_of_pre _ _ (hpre c)
    have hv := Cert.ReferenceIdeal.HandValue.ref_value_V (StableHlo.launchContents m' c)
      (by intro e; have := hrange e; rw [← (hagree c).2] at this; exact this)
    refine hv.trans ?_
    show Cert.Spec.loss (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.Spec.loss (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, Cert.KernelIdeal.HandValue.preserves, algebraic⟩

end Cert.Proof

end
